-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v108) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144 : Shape := ⟨1, ![262144]⟩
abbrev S262144x4 : Shape := ⟨2, ![262144, 4]⟩
abbrev S262144x5 : Shape := ⟨2, ![262144, 5]⟩
abbrev S171x64 : Shape := ⟨2, ![171, 64]⟩
abbrev S33x16 : Shape := ⟨2, ![33, 16]⟩
abbrev S9x16 : Shape := ⟨2, ![9, 16]⟩
abbrev S65x16 : Shape := ⟨2, ![65, 16]⟩
abbrev S272x256 : Shape := ⟨2, ![272, 256]⟩
abbrev S256 : Shape := ⟨1, ![256]⟩
abbrev S256x128 : Shape := ⟨2, ![256, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S171x64 : S_.BroadcastsInDim S171x64 (![] : Fin 0 → Fin S171x64.rank)
  reducesTo_S171x64_S_d0_1 : S171x64.ReducesTo [0, 1] S_
  h_S_ : 0 < S_.numel
  bcast_S_S33x16 : S_.BroadcastsInDim S33x16 (![] : Fin 0 → Fin S33x16.rank)
  reducesTo_S33x16_S_d0_1 : S33x16.ReducesTo [0, 1] S_
  bcast_S_S9x16 : S_.BroadcastsInDim S9x16 (![] : Fin 0 → Fin S9x16.rank)
  reducesTo_S9x16_S_d0_1 : S9x16.ReducesTo [0, 1] S_
  bcast_S_S65x16 : S_.BroadcastsInDim S65x16 (![] : Fin 0 → Fin S65x16.rank)
  reducesTo_S65x16_S_d0_1 : S65x16.ReducesTo [0, 1] S_
  bcast_S_S272x256 : S_.BroadcastsInDim S272x256 (![] : Fin 0 → Fin S272x256.rank)
  reducesTo_S272x256_S_d0_1 : S272x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg15 : FVec F S1 .f32) (main_v48 : IVec S_ 1) (main_v49 : FVec F S128x1 .f32) (main_v50 : FVec F S128x1 .f32) : IVec S_ 1 :=
  let main_v51 : IVec S128x1 1 := cmpf .olt main_v49 main_v50
  let main_c_19 : IVec S_ 1 := constantI S_ 1 1#1
  let main_v52 : IVec S_ 1 := (fun x v => Host.reduce IntOp.andi x v reducesTo_S128x1_S_d0_1 h_S_) main_v51 main_c_19
  let main_v53 : IVec S_ 1 := andi main_v48 main_v52
  let main_v54 : FVec F S1 .f32 := Host.absf main_arg15
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  main_v58

def fn_part2 {F : FTy → Type} [FloatOps F] (main_arg11 : FVec F S256 .f32) (main_arg12 : FVec F S256x128 .f32) (main_arg13 : FVec F S128 .f32) (main_arg14 : FVec F S128x1 .f32) (main_arg15 : FVec F S1 .f32) (main_v33 : IVec S_ 1) : IVec S_ 1 :=
  let main_v34 : FVec F S256 .f32 := Host.absf main_arg11
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x128 .f32 := Host.absf main_arg12
  let main_cst_14 : FVec F S_ .f32 := constant S_ .f32 0x7F800000#32
  let main_v40 : FVec F S256x128 .f32 := broadcastInDim S256x128 ![] bcast_S_S256x128 main_cst_14
  let main_v41 : IVec S256x128 1 := cmpf .olt main_v39 main_v40
  let main_c_15 : IVec S_ 1 := constantI S_ 1 1#1
  let main_v42 : IVec S_ 1 := (fun x v => Host.reduce IntOp.andi x v reducesTo_S256x128_S_d0_1 h_S_) main_v41 main_c_15
  let main_v43 : IVec S_ 1 := andi main_v38 main_v42
  let main_v44 : FVec F S128 .f32 := Host.absf main_arg13
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x1 .f32 := Host.absf main_arg14
  let main_cst_18 : FVec F S_ .f32 := constant S_ .f32 0x7F800000#32
  let main_v50 : FVec F S128x1 .f32 := broadcastInDim S128x1 ![] bcast_S_S128x1 main_cst_18
  fn_part3 (F := F) main_arg15 main_v48 main_v49 main_v50

def fn_part1 {F : FTy → Type} [FloatOps F] (main_arg8 : FVec F S65x16 .f32) (main_arg9 : FVec F S65x16 .f32) (main_arg10 : FVec F S272x256 .f32) (main_arg11 : FVec F S256 .f32) (main_arg12 : FVec F S256x128 .f32) (main_arg13 : FVec F S128 .f32) (main_arg14 : FVec F S128x1 .f32) (main_arg15 : FVec F S1 .f32) (main_v13 : IVec S_ 1) (main_v16 : IVec S9x16 1) : IVec S_ 1 :=
  let main_c_5 : IVec S_ 1 := constantI S_ 1 1#1
  let main_v17 : IVec S_ 1 := (fun x v => Host.reduce IntOp.andi x v reducesTo_S9x16_S_d0_1 h_S_) main_v16 main_c_5
  let main_v18 : IVec S_ 1 := andi main_v13 main_v17
  let main_v19 : FVec F S65x16 .f32 := Host.absf main_arg8
  let main_cst_6 : FVec F S_ .f32 := constant S_ .f32 0x7F800000#32
  let main_v20 : FVec F S65x16 .f32 := broadcastInDim S65x16 ![] bcast_S_S65x16 main_cst_6
  let main_v21 : IVec S65x16 1 := cmpf .olt main_v19 main_v20
  let main_c_7 : IVec S_ 1 := constantI S_ 1 1#1
  let main_v22 : IVec S_ 1 := (fun x v => Host.reduce IntOp.andi x v reducesTo_S65x16_S_d0_1 h_S_) main_v21 main_c_7
  let main_v23 : IVec S_ 1 := andi main_v18 main_v22
  let main_v24 : FVec F S65x16 .f32 := Host.absf main_arg9
  let main_cst_8 : FVec F S_ .f32 := constant S_ .f32 0x7F800000#32
  let main_v25 : FVec F S65x16 .f32 := broadcastInDim S65x16 ![] bcast_S_S65x16 main_cst_8
  let main_v26 : IVec S65x16 1 := cmpf .olt main_v24 main_v25
  let main_c_9 : IVec S_ 1 := constantI S_ 1 1#1
  let main_v27 : IVec S_ 1 := (fun x v => Host.reduce IntOp.andi x v reducesTo_S65x16_S_d0_1 h_S_) main_v26 main_c_9
  let main_v28 : IVec S_ 1 := andi main_v23 main_v27
  let main_v29 : FVec F S272x256 .f32 := Host.absf main_arg10
  let main_cst_10 : FVec F S_ .f32 := constant S_ .f32 0x7F800000#32
  let main_v30 : FVec F S272x256 .f32 := broadcastInDim S272x256 ![] bcast_S_S272x256 main_cst_10
  let main_v31 : IVec S272x256 1 := cmpf .olt main_v29 main_v30
  let main_c_11 : IVec S_ 1 := constantI S_ 1 1#1
  let main_v32 : IVec S_ 1 := (fun x v => Host.reduce IntOp.andi x v reducesTo_S272x256_S_d0_1 h_S_) main_v31 main_c_11
  let main_v33 : IVec S_ 1 := andi main_v28 main_v32
  fn_part2 (F := F) main_arg11 main_arg12 main_arg13 main_arg14 main_arg15 main_v33

def fn {F : FTy → Type} [FloatOps F] (main_arg0 : IVec S262144 32) (main_arg1 : IVec S262144x4 32) (main_arg2 : IVec S262144x5 32) (main_arg3 : IVec S262144x5 32) (main_arg4 : FVec F S171x64 .f32) (main_arg5 : FVec F S33x16 .f32) (main_arg6 : FVec F S9x16 .f32) (main_arg7 : FVec F S9x16 .f32) (main_arg8 : FVec F S65x16 .f32) (main_arg9 : FVec F S65x16 .f32) (main_arg10 : FVec F S272x256 .f32) (main_arg11 : FVec F S256 .f32) (main_arg12 : FVec F S256x128 .f32) (main_arg13 : FVec F S128 .f32) (main_arg14 : FVec F S128x1 .f32) (main_arg15 : FVec F S1 .f32) : IVec S_ 1 :=
  let main_v0 : FVec F S171x64 .f32 := Host.absf main_arg4
  let main_cst : FVec F S_ .f32 := constant S_ .f32 0x7F800000#32
  let main_v1 : FVec F S171x64 .f32 := broadcastInDim S171x64 ![] bcast_S_S171x64 main_cst
  let main_v2 : IVec S171x64 1 := cmpf .olt main_v0 main_v1
  let main_c : IVec S_ 1 := constantI S_ 1 1#1
  let main_v3 : IVec S_ 1 := (fun x v => Host.reduce IntOp.andi x v reducesTo_S171x64_S_d0_1 h_S_) main_v2 main_c
  let main_v4 : FVec F S33x16 .f32 := Host.absf main_arg5
  let main_cst_0 : FVec F S_ .f32 := constant S_ .f32 0x7F800000#32
  let main_v5 : FVec F S33x16 .f32 := broadcastInDim S33x16 ![] bcast_S_S33x16 main_cst_0
  let main_v6 : IVec S33x16 1 := cmpf .olt main_v4 main_v5
  let main_c_1 : IVec S_ 1 := constantI S_ 1 1#1
  let main_v7 : IVec S_ 1 := (fun x v => Host.reduce IntOp.andi x v reducesTo_S33x16_S_d0_1 h_S_) main_v6 main_c_1
  let main_v8 : IVec S_ 1 := andi main_v3 main_v7
  let main_v9 : FVec F S9x16 .f32 := Host.absf main_arg6
  let main_cst_2 : FVec F S_ .f32 := constant S_ .f32 0x7F800000#32
  let main_v10 : FVec F S9x16 .f32 := broadcastInDim S9x16 ![] bcast_S_S9x16 main_cst_2
  let main_v11 : IVec S9x16 1 := cmpf .olt main_v9 main_v10
  let main_c_3 : IVec S_ 1 := constantI S_ 1 1#1
  let main_v12 : IVec S_ 1 := (fun x v => Host.reduce IntOp.andi x v reducesTo_S9x16_S_d0_1 h_S_) main_v11 main_c_3
  let main_v13 : IVec S_ 1 := andi main_v8 main_v12
  let main_v14 : FVec F S9x16 .f32 := Host.absf main_arg7
  let main_cst_4 : FVec F S_ .f32 := constant S_ .f32 0x7F800000#32
  let main_v15 : FVec F S9x16 .f32 := broadcastInDim S9x16 ![] bcast_S_S9x16 main_cst_4
  let main_v16 : IVec S9x16 1 := cmpf .olt main_v14 main_v15
  fn_part1 (F := F) main_arg8 main_arg9 main_arg10 main_arg11 main_arg12 main_arg13 main_arg14 main_arg15 main_v13 main_v16
-- ==== Kernel.lean ====
abbrev S262144 : Shape := ⟨1, ![262144]⟩
abbrev S262144x4 : Shape := ⟨2, ![262144, 4]⟩
abbrev S262144x5 : Shape := ⟨2, ![262144, 5]⟩
abbrev S171x64 : Shape := ⟨2, ![171, 64]⟩
abbrev S33x16 : Shape := ⟨2, ![33, 16]⟩
abbrev S9x16 : Shape := ⟨2, ![9, 16]⟩
abbrev S65x16 : Shape := ⟨2, ![65, 16]⟩
abbrev S272x256 : Shape := ⟨2, ![272, 256]⟩
abbrev S256 : Shape := ⟨1, ![256]⟩
abbrev S256x128 : Shape := ⟨2, ![256, 128]⟩
abbrev S128 : Shape := ⟨1, ![128]⟩
abbrev S128x1 : Shape := ⟨2, ![128, 1]⟩
abbrev S1 : Shape := ⟨1, ![1]⟩
abbrev S_ : Shape := ⟨0, ![]⟩
abbrev S262144x1 : Shape := ⟨2, ![262144, 1]⟩
abbrev S262144x16 : Shape := ⟨2, ![262144, 16]⟩
abbrev S64x256 : Shape := ⟨2, ![64, 256]⟩
abbrev S16x256 : Shape := ⟨2, ![16, 256]⟩
abbrev S171x256 : Shape := ⟨2, ![171, 256]⟩
abbrev S33x256 : Shape := ⟨2, ![33, 256]⟩
abbrev S9x256 : Shape := ⟨2, ![9, 256]⟩
abbrev S65x256 : Shape := ⟨2, ![65, 256]⟩
abbrev S694x256 : Shape := ⟨2, ![694, 256]⟩
abbrev S4096x16 : Shape := ⟨2, ![4096, 16]⟩
abbrev S4096 : Shape := ⟨1, ![4096]⟩
abbrev S4096x1 : Shape := ⟨2, ![4096, 1]⟩
abbrev S4096x4 : Shape := ⟨2, ![4096, 4]⟩
abbrev S4096x5 : Shape := ⟨2, ![4096, 5]⟩
abbrev S4096x171 : Shape := ⟨2, ![4096, 171]⟩
abbrev S4096x181 : Shape := ⟨2, ![4096, 181]⟩
abbrev S4096x694 : Shape := ⟨2, ![4096, 694]⟩
abbrev S4096x256 : Shape := ⟨2, ![4096, 256]⟩
abbrev S1x256 : Shape := ⟨2, ![1, 256]⟩
abbrev S4096x128 : Shape := ⟨2, ![4096, 128]⟩
abbrev S1x128 : Shape := ⟨2, ![1, 128]⟩

abbrev nBuf : Space → Nat
  | .hbm => 41
  | .vmem => 10
  | .smem => 0
  | _ => 0

abbrev bufTy : (tb : Table) → Fin (tcTables nBuf tb) → BufTy
  | .hbm, ⟨0, _⟩ => ⟨S262144, .i32⟩
  | .hbm, ⟨1, _⟩ => ⟨S262144x4, .i32⟩
  | .hbm, ⟨2, _⟩ => ⟨S262144x5, .i32⟩
  | .hbm, ⟨3, _⟩ => ⟨S262144x5, .i32⟩
  | .hbm, ⟨4, _⟩ => ⟨S171x64, .f32⟩
  | .hbm, ⟨5, _⟩ => ⟨S33x16, .f32⟩
  | .hbm, ⟨6, _⟩ => ⟨S9x16, .f32⟩
  | .hbm, ⟨7, _⟩ => ⟨S9x16, .f32⟩
  | .hbm, ⟨8, _⟩ => ⟨S65x16, .f32⟩
  | .hbm, ⟨9, _⟩ => ⟨S65x16, .f32⟩
  | .hbm, ⟨10, _⟩ => ⟨S272x256, .f32⟩
  | .hbm, ⟨11, _⟩ => ⟨S256, .f32⟩
  | .hbm, ⟨12, _⟩ => ⟨S256x128, .f32⟩
  | .hbm, ⟨13, _⟩ => ⟨S128, .f32⟩
  | .hbm, ⟨14, _⟩ => ⟨S128x1, .f32⟩
  | .hbm, ⟨15, _⟩ => ⟨S1, .f32⟩
  | .hbm, ⟨16, _⟩ => ⟨S_, .i32⟩
  | .hbm, ⟨17, _⟩ => ⟨S262144x1, .i32⟩
  | .hbm, ⟨18, _⟩ => ⟨S262144x1, .i32⟩
  | .hbm, ⟨19, _⟩ => ⟨S262144x16, .i32⟩
  | .hbm, ⟨20, _⟩ => ⟨S64x256, .f32⟩
  | .hbm, ⟨21, _⟩ => ⟨S64x256, .f32⟩
  | .hbm, ⟨22, _⟩ => ⟨S64x256, .f32⟩
  | .hbm, ⟨23, _⟩ => ⟨S16x256, .f32⟩
  | .hbm, ⟨24, _⟩ => ⟨S16x256, .f32⟩
  | .hbm, ⟨25, _⟩ => ⟨S16x256, .f32⟩
  | .hbm, ⟨26, _⟩ => ⟨S16x256, .f32⟩
  | .hbm, ⟨27, _⟩ => ⟨S16x256, .f32⟩
  | .hbm, ⟨28, _⟩ => ⟨S171x256, .f32⟩
  | .hbm, ⟨29, _⟩ => ⟨S171x256, .f32⟩
  | .hbm, ⟨30, _⟩ => ⟨S171x256, .f32⟩
  | .hbm, ⟨31, _⟩ => ⟨S33x256, .f32⟩
  | .hbm, ⟨32, _⟩ => ⟨S9x256, .f32⟩
  | .hbm, ⟨33, _⟩ => ⟨S9x256, .f32⟩
  | .hbm, ⟨34, _⟩ => ⟨S65x256, .f32⟩
  | .hbm, ⟨35, _⟩ => ⟨S65x256, .f32⟩
  | .hbm, ⟨36, _⟩ => ⟨S694x256, .f32⟩
  | .hbm, ⟨37, _⟩ => ⟨S694x256, .bf16⟩
  | .hbm, ⟨38, _⟩ => ⟨S256x128, .bf16⟩
  | .hbm, ⟨39, _⟩ => ⟨S128, .f32⟩
  | .hbm, ⟨40, _⟩ => ⟨S262144, .f32⟩
  | .local _ .vmem, ⟨0, _⟩ => ⟨S4096x16, .i32⟩
  | .local _ .vmem, ⟨1, _⟩ => ⟨S4096x16, .i32⟩
  | .local _ .vmem, ⟨2, _⟩ => ⟨S694x256, .bf16⟩
  | .local _ .vmem, ⟨3, _⟩ => ⟨S256x128, .bf16⟩
  | .local _ .vmem, ⟨4, _⟩ => ⟨S256, .f32⟩
  | .local _ .vmem, ⟨5, _⟩ => ⟨S128, .f32⟩
  | .local _ .vmem, ⟨6, _⟩ => ⟨S128, .f32⟩
  | .local _ .vmem, ⟨7, _⟩ => ⟨S1, .f32⟩
  | .local _ .vmem, ⟨8, _⟩ => ⟨S4096, .f32⟩
  | .local _ .vmem, ⟨9, _⟩ => ⟨S4096, .f32⟩
  | _, _ => ⟨S262144, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_c : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S4096x16 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S694x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  bcast_S_S262144x1 : S_.BroadcastsInDim S262144x1 (![] : Fin 0 → Fin S262144x1.rank)
  shapeCasts_S262144_S262144x1 : S262144.ShapeCasts S262144x1
  concatenates_S262144x1_S262144x4_S262144x5_S262144x5_S262144x1_S262144x16_d1 : Shape.Concatenates [S262144x1, S262144x4, S262144x5, S262144x5, S262144x1] S262144x16 1
  slices_S272x256_S64x256_0_0 : S272x256.Slices ![0, 0] S64x256
  slices_S272x256_S64x256_64_0 : S272x256.Slices ![64, 0] S64x256
  slices_S272x256_S64x256_128_0 : S272x256.Slices ![128, 0] S64x256
  slices_S272x256_S16x256_192_0 : S272x256.Slices ![192, 0] S16x256
  slices_S272x256_S16x256_208_0 : S272x256.Slices ![208, 0] S16x256
  slices_S272x256_S16x256_224_0 : S272x256.Slices ![224, 0] S16x256
  slices_S272x256_S16x256_240_0 : S272x256.Slices ![240, 0] S16x256
  slices_S272x256_S16x256_256_0 : S272x256.Slices ![256, 0] S16x256
  concatenates_S171x256_S171x256_S171x256_S33x256_S9x256_S9x256_S65x256_S65x256_S694x256_d0 : Shape.Concatenates [S171x256, S171x256, S171x256, S33x256, S9x256, S9x256, S65x256, S65x256] S694x256 0
  bitsLt_bf16_f32 : FTy.bits .bf16 < FTy.bits .f32
  shapeCasts_S128x1_S128 : S128x1.ShapeCasts S128
  inb_S4096x16_S4096x16_0_0 : ∀ a, (![0, 0] : Fin 2 → Nat) a + S4096x16.size a ≤ S4096x16.size a
  h_S4096x16 : 0 < S4096x16.numel
  shapeCasts_S4096x16_S4096x16 : S4096x16.ShapeCasts S4096x16
  slices_S4096x16_o0_0_S4096x1 : S4096x16.Slices ![0, 0] S4096x1
  shapeCasts_S4096x1_S4096 : S4096x1.ShapeCasts S4096
  slices_S4096x16_o0_1_S4096x4 : S4096x16.Slices ![0, 1] S4096x4
  slices_S4096x16_o0_5_S4096x5 : S4096x16.Slices ![0, 5] S4096x5
  slices_S4096x16_o0_10_S4096x5 : S4096x16.Slices ![0, 10] S4096x5
  iota_S4096x171_d1_w32 : S4096x171.Iotas .tc 32 [1]
  shapeCasts_S4096_S4096x1 : S4096.ShapeCasts S4096x1
  broadcasts_S4096x1_S4096x171 : S4096x1.Broadcasts S4096x171
  natLt_1_32 : 1 < 32
  slices_S4096x4_o0_0_S4096x1 : S4096x4.Slices ![0, 0] S4096x1
  slices_S4096x4_o0_1_S4096x1 : S4096x4.Slices ![0, 1] S4096x1
  slices_S4096x4_o0_2_S4096x1 : S4096x4.Slices ![0, 2] S4096x1
  slices_S4096x4_o0_3_S4096x1 : S4096x4.Slices ![0, 3] S4096x1
  slices_S4096x5_o0_0_S4096x1 : S4096x5.Slices ![0, 0] S4096x1
  slices_S4096x5_o0_1_S4096x1 : S4096x5.Slices ![0, 1] S4096x1
  slices_S4096x5_o0_2_S4096x1 : S4096x5.Slices ![0, 2] S4096x1
  slices_S4096x5_o0_3_S4096x1 : S4096x5.Slices ![0, 3] S4096x1
  slices_S4096x5_o0_4_S4096x1 : S4096x5.Slices ![0, 4] S4096x1
  iota_S4096x181_d1_w32 : S4096x181.Iotas .tc 32 [1]
  broadcasts_S4096x1_S4096x181 : S4096x1.Broadcasts S4096x181
  concatenates_S4096x171_S4096x171_S4096x171_S4096x181_S4096x694_d1 : Shape.Concatenates [S4096x171, S4096x171, S4096x171, S4096x181] S4096x694 1
  inb_S694x256_S694x256_0_0 : ∀ a, (![0, 0] : Fin 2 → Nat) a + S694x256.size a ≤ S694x256.size a
  h_S694x256 : 0 < S694x256.numel
  shapeCasts_S694x256_S694x256 : S694x256.ShapeCasts S694x256
  inb_S256_S256_0 : ∀ a, (![0] : Fin 1 → Nat) a + S256.size a ≤ S256.size a
  h_S256 : 0 < S256.numel
  shapeCasts_S256_S1x256 : S256.ShapeCasts S1x256
  broadcasts_S1x256_S4096x256 : S1x256.Broadcasts S4096x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S128_S128_0 : ∀ a, (![0] : Fin 1 → Nat) a + S128.size a ≤ S128.size a
  h_S128 : 0 < S128.numel
  shapeCasts_S128_S1x128 : S128.ShapeCasts S1x128
  broadcasts_S1x128_S4096x128 : S1x128.Broadcasts S4096x128
  shapeCasts_S128_S128 : S128.ShapeCasts S128
  reduces_S4096x128_S4096 : S4096x128.Reduces [1] S4096
  inb_S1_S1_0 : ∀ a, (![0] : Fin 1 → Nat) a + S1.size a ≤ S1.size a
  h_S1 : 0 < S1.numel
  broadcasts_S1_S4096 : S1.Broadcasts S4096
  inb_S4096_S4096_0 : ∀ a, (![0] : Fin 1 → Nat) a + S4096.size a ≤ S4096.size a
  h_S4096 : 0 < S4096.numel
  dot_S171x64_S64x256_S171x256_1_0_0_1_n_n_wf : DotDims.WF S171x64 S64x256 S171x256 [1] [0] [0] [1] [] []
  dot_S33x16_S16x256_S33x256_1_0_0_1_n_n_wf : DotDims.WF S33x16 S16x256 S33x256 [1] [0] [0] [1] [] []
  dot_S9x16_S16x256_S9x256_1_0_0_1_n_n_wf : DotDims.WF S9x16 S16x256 S9x256 [1] [0] [0] [1] [] []
  dot_S65x16_S16x256_S65x256_1_0_0_1_n_n_wf : DotDims.WF S65x16 S16x256 S65x256 [1] [0] [0] [1] [] []
  dot_S4096x694_S694x256_S4096x256_1_0_0_1_n_n_wf : DotDims.WF S4096x694 S694x256 S4096x256 [1] [0] [0] [1] [] []
  dot_S4096x256_S256x128_S4096x128_1_0_0_1_n_n_wf : DotDims.WF S4096x256 S256x128 S4096x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x16.size a ≤ S262144x16.size a
  hwx0_0 : ∀ i : grid0.Coords, EltTy.bits .i32 = 32 ∨ (Rect.block (s := S262144x16) S4096x16.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S694x256.size a ≤ S694x256.size a
  hwx0_1 : ∀ i : grid0.Coords, EltTy.bits .bf16 = 32 ∨ (Rect.block (s := S694x256) S694x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x128.size a ≤ S256x128.size a
  hwx0_2 : ∀ i : grid0.Coords, EltTy.bits .bf16 = 32 ∨ (Rect.block (s := S256x128) S256x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256.size a ≤ S256.size a
  hwx0_3 : ∀ i : grid0.Coords, EltTy.bits .f32 = 32 ∨ (Rect.block (s := S256) S256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1.size a ≤ S1.size a
  hwx0_6 : ∀ i : grid0.Coords, EltTy.bits .f32 = 32 ∨ (Rect.block (s := S1) S1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S4096.size a ≤ S262144.size a
  hwx0_7 : ∀ i : grid0.Coords, EltTy.bits .f32 = 32 ∨ (Rect.block (s := S262144) S4096.size (cc0_transform_7 i) (hinb0_7 i)).WholeWords (EltTy.packing .f32)

variable [Facts₀]

def dot_S171x64_S64x256_S171x256_1_0_0_1_n_n : DotDims S171x64 S64x256 S171x256 where
  lhsContracting := [1]
  rhsContracting := [0]
  lhsNonContracting := [0]
  rhsNonContracting := [1]
  lhsBatch := []
  rhsBatch := []
  wf := dot_S171x64_S64x256_S171x256_1_0_0_1_n_n_wf
def dot_S33x16_S16x256_S33x256_1_0_0_1_n_n : DotDims S33x16 S16x256 S33x256 where
  lhsContracting := [1]
  rhsContracting := [0]
  lhsNonContracting := [0]
  rhsNonContracting := [1]
  lhsBatch := []
  rhsBatch := []
  wf := dot_S33x16_S16x256_S33x256_1_0_0_1_n_n_wf
def dot_S9x16_S16x256_S9x256_1_0_0_1_n_n : DotDims S9x16 S16x256 S9x256 where
  lhsContracting := [1]
  rhsContracting := [0]
  lhsNonContracting := [0]
  rhsNonContracting := [1]
  lhsBatch := []
  rhsBatch := []
  wf := dot_S9x16_S16x256_S9x256_1_0_0_1_n_n_wf
def dot_S65x16_S16x256_S65x256_1_0_0_1_n_n : DotDims S65x16 S16x256 S65x256 where
  lhsContracting := [1]
  rhsContracting := [0]
  lhsNonContracting := [0]
  rhsNonContracting := [1]
  lhsBatch := []
  rhsBatch := []
  wf := dot_S65x16_S16x256_S65x256_1_0_0_1_n_n_wf
def dot_S4096x694_S694x256_S4096x256_1_0_0_1_n_n : DotDims S4096x694 S694x256 S4096x256 where
  lhsContracting := [1]
  rhsContracting := [0]
  lhsNonContracting := [0]
  rhsNonContracting := [1]
  lhsBatch := []
  rhsBatch := []
  wf := dot_S4096x694_S694x256_S4096x256_1_0_0_1_n_n_wf
def dot_S4096x256_S256x128_S4096x128_1_0_0_1_n_n : DotDims S4096x256 S256x128 S4096x128 where
  lhsContracting := [1]
  rhsContracting := [0]
  lhsNonContracting := [0]
  rhsNonContracting := [1]
  lhsBatch := []
  rhsBatch := []
  wf := dot_S4096x256_S256x128_S4096x128_1_0_0_1_n_n_wf

abbrev win0_0 : Pipeline.Window sig grid0 :=
  Pipeline.Window.ofSpec (Memref.whole main_v2) S4096x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S694x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v21) S256x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg11) S256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg13) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v22) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg15) S1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v23) S4096.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S262144 : Shape := ⟨1, ![262144]⟩
abbrev S262144x4 : Shape := ⟨2, ![262144, 4]⟩
abbrev S262144x5 : Shape := ⟨2, ![262144, 5]⟩
abbrev S171x64 : Shape := ⟨2, ![171, 64]⟩
abbrev S33x16 : Shape := ⟨2, ![33, 16]⟩
abbrev S9x16 : Shape := ⟨2, ![9, 16]⟩
abbrev S65x16 : Shape := ⟨2, ![65, 16]⟩
abbrev S272x256 : Shape := ⟨2, ![272, 256]⟩
abbrev S256 : Shape := ⟨1, ![256]⟩
abbrev S256x128 : Shape := ⟨2, ![256, 128]⟩
abbrev S128 : Shape := ⟨1, ![128]⟩
abbrev S128x1 : Shape := ⟨2, ![128, 1]⟩
abbrev S1 : Shape := ⟨1, ![1]⟩
abbrev S_ : Shape := ⟨0, ![]⟩
abbrev S262144x1 : Shape := ⟨2, ![262144, 1]⟩
abbrev S262144x64 : Shape := ⟨2, ![262144, 64]⟩
abbrev S262144x4x1 : Shape := ⟨3, ![262144, 4, 1]⟩
abbrev S262144x4x64 : Shape := ⟨3, ![262144, 4, 64]⟩
abbrev S262144x5x1 : Shape := ⟨3, ![262144, 5, 1]⟩
abbrev S262144x5x64 : Shape := ⟨3, ![262144, 5, 64]⟩
abbrev S262144x16 : Shape := ⟨2, ![262144, 16]⟩
abbrev S262144x80 : Shape := ⟨2, ![262144, 80]⟩
abbrev S262144x272 : Shape := ⟨2, ![262144, 272]⟩
abbrev S262144x256 : Shape := ⟨2, ![262144, 256]⟩
abbrev S1x256 : Shape := ⟨2, ![1, 256]⟩
abbrev S262144x128 : Shape := ⟨2, ![262144, 128]⟩
abbrev S1x128 : Shape := ⟨2, ![1, 128]⟩
abbrev S1x1 : Shape := ⟨2, ![1, 1]⟩

abbrev nBuf : Space → Nat
  | .hbm => 179
  | .vmem => 0
  | .smem => 0
  | _ => 0

abbrev hbmTy0_0 (i : Nat) : BufTy := match i % 128 with
  | 0 => ⟨S262144, .i32⟩
  | 1 => ⟨S262144x4, .i32⟩
  | 2 => ⟨S262144x5, .i32⟩
  | 3 => ⟨S262144x5, .i32⟩
  | 4 => ⟨S171x64, .f32⟩
  | 5 => ⟨S33x16, .f32⟩
  | 6 => ⟨S9x16, .f32⟩
  | 7 => ⟨S9x16, .f32⟩
  | 8 => ⟨S65x16, .f32⟩
  | 9 => ⟨S65x16, .f32⟩
  | 10 => ⟨S272x256, .f32⟩
  | 11 => ⟨S256, .f32⟩
  | 12 => ⟨S256x128, .f32⟩
  | 13 => ⟨S128, .f32⟩
  | 14 => ⟨S128x1, .f32⟩
  | 15 => ⟨S1, .f32⟩
  | 16 => ⟨S_, .i32⟩
  | 17 => ⟨S262144, .i32⟩
  | 18 => ⟨S262144, .i1⟩
  | 19 => ⟨S_, .i32⟩
  | 20 => ⟨S_, .i32⟩
  | 21 => ⟨S262144, .i32⟩
  | 22 => ⟨S262144, .i32⟩
  | 23 => ⟨S_, .i32⟩
  | 24 => ⟨S262144, .i32⟩
  | 25 => ⟨S262144, .i1⟩
  | 26 => ⟨S_, .i32⟩
  | 27 => ⟨S262144, .i32⟩
  | 28 => ⟨S262144, .i32⟩
  | 29 => ⟨S262144, .i32⟩
  | 30 => ⟨S262144x1, .i32⟩
  | 31 => ⟨S262144x64, .f32⟩
  | 32 => ⟨S_, .i32⟩
  | 33 => ⟨S262144x4, .i32⟩
  | 34 => ⟨S262144x4, .i1⟩
  | 35 => ⟨S_, .i32⟩
  | 36 => ⟨S_, .i32⟩
  | 37 => ⟨S262144x4, .i32⟩
  | 38 => ⟨S262144x4, .i32⟩
  | 39 => ⟨S_, .i32⟩
  | 40 => ⟨S262144x4, .i32⟩
  | 41 => ⟨S262144x4, .i1⟩
  | 42 => ⟨S_, .i32⟩
  | 43 => ⟨S262144x4, .i32⟩
  | 44 => ⟨S262144x4, .i32⟩
  | 45 => ⟨S262144x4, .i32⟩
  | 46 => ⟨S262144x4x1, .i32⟩
  | 47 => ⟨S262144x4x64, .f32⟩
  | 48 => ⟨S_, .f32⟩
  | 49 => ⟨S262144x64, .f32⟩
  | 50 => ⟨S_, .i32⟩
  | 51 => ⟨S262144x5, .i32⟩
  | 52 => ⟨S262144x5, .i1⟩
  | 53 => ⟨S_, .i32⟩
  | 54 => ⟨S_, .i32⟩
  | 55 => ⟨S262144x5, .i32⟩
  | 56 => ⟨S262144x5, .i32⟩
  | 57 => ⟨S_, .i32⟩
  | 58 => ⟨S262144x5, .i32⟩
  | 59 => ⟨S262144x5, .i1⟩
  | 60 => ⟨S_, .i32⟩
  | 61 => ⟨S262144x5, .i32⟩
  | 62 => ⟨S262144x5, .i32⟩
  | 63 => ⟨S262144x5, .i32⟩
  | 64 => ⟨S262144x5x1, .i32⟩
  | 65 => ⟨S262144x5x64, .f32⟩
  | 66 => ⟨S_, .f32⟩
  | 67 => ⟨S262144x64, .f32⟩
  | 68 => ⟨S262144x1, .i32⟩
  | 69 => ⟨S262144, .i32⟩
  | 70 => ⟨S_, .i32⟩
  | 71 => ⟨S262144, .i32⟩
  | 72 => ⟨S262144, .i1⟩
  | 73 => ⟨S_, .i32⟩
  | 74 => ⟨S_, .i32⟩
  | 75 => ⟨S262144, .i32⟩
  | 76 => ⟨S262144, .i32⟩
  | 77 => ⟨S_, .i32⟩
  | 78 => ⟨S262144, .i32⟩
  | 79 => ⟨S262144, .i1⟩
  | 80 => ⟨S_, .i32⟩
  | 81 => ⟨S262144, .i32⟩
  | 82 => ⟨S262144, .i32⟩
  | 83 => ⟨S262144, .i32⟩
  | 84 => ⟨S262144x1, .i32⟩
  | 85 => ⟨S262144x16, .f32⟩
  | 86 => ⟨S262144x1, .i32⟩
  | 87 => ⟨S262144, .i32⟩
  | 88 => ⟨S_, .i32⟩
  | 89 => ⟨S262144, .i32⟩
  | 90 => ⟨S262144, .i1⟩
  | 91 => ⟨S_, .i32⟩
  | 92 => ⟨S_, .i32⟩
  | 93 => ⟨S262144, .i32⟩
  | 94 => ⟨S262144, .i32⟩
  | 95 => ⟨S_, .i32⟩
  | 96 => ⟨S262144, .i32⟩
  | 97 => ⟨S262144, .i1⟩
  | 98 => ⟨S_, .i32⟩
  | 99 => ⟨S262144, .i32⟩
  | 100 => ⟨S262144, .i32⟩
  | 101 => ⟨S262144, .i32⟩
  | 102 => ⟨S262144x1, .i32⟩
  | 103 => ⟨S262144x16, .f32⟩
  | 104 => ⟨S262144x1, .i32⟩
  | 105 => ⟨S262144, .i32⟩
  | 106 => ⟨S_, .i32⟩
  | 107 => ⟨S262144, .i32⟩
  | 108 => ⟨S262144, .i1⟩
  | 109 => ⟨S_, .i32⟩
  | 110 => ⟨S_, .i32⟩
  | 111 => ⟨S262144, .i32⟩
  | 112 => ⟨S262144, .i32⟩
  | 113 => ⟨S_, .i32⟩
  | 114 => ⟨S262144, .i32⟩
  | 115 => ⟨S262144, .i1⟩
  | 116 => ⟨S_, .i32⟩
  | 117 => ⟨S262144, .i32⟩
  | 118 => ⟨S262144, .i32⟩
  | 119 => ⟨S262144, .i32⟩
  | 120 => ⟨S262144x1, .i32⟩
  | 121 => ⟨S262144x16, .f32⟩
  | 122 => ⟨S262144x1, .i32⟩
  | 123 => ⟨S262144, .i32⟩
  | 124 => ⟨S_, .i32⟩
  | 125 => ⟨S262144, .i32⟩
  | 126 => ⟨S262144, .i1⟩
  | 127 => ⟨S_, .i32⟩
  | _ => ⟨S262144, .i32⟩

abbrev hbmTy0_1 (i : Nat) : BufTy := match i % 128 with
  | 0 => ⟨S_, .i32⟩
  | 1 => ⟨S262144, .i32⟩
  | 2 => ⟨S262144, .i32⟩
  | 3 => ⟨S_, .i32⟩
  | 4 => ⟨S262144, .i32⟩
  | 5 => ⟨S262144, .i1⟩
  | 6 => ⟨S_, .i32⟩
  | 7 => ⟨S262144, .i32⟩
  | 8 => ⟨S262144, .i32⟩
  | 9 => ⟨S262144, .i32⟩
  | 10 => ⟨S262144x1, .i32⟩
  | 11 => ⟨S262144x16, .f32⟩
  | 12 => ⟨S262144x1, .i32⟩
  | 13 => ⟨S262144, .i32⟩
  | 14 => ⟨S_, .i32⟩
  | 15 => ⟨S262144, .i32⟩
  | 16 => ⟨S262144, .i1⟩
  | 17 => ⟨S_, .i32⟩
  | 18 => ⟨S_, .i32⟩
  | 19 => ⟨S262144, .i32⟩
  | 20 => ⟨S262144, .i32⟩
  | 21 => ⟨S_, .i32⟩
  | 22 => ⟨S262144, .i32⟩
  | 23 => ⟨S262144, .i1⟩
  | 24 => ⟨S_, .i32⟩
  | 25 => ⟨S262144, .i32⟩
  | 26 => ⟨S262144, .i32⟩
  | 27 => ⟨S262144, .i32⟩
  | 28 => ⟨S262144x1, .i32⟩
  | 29 => ⟨S262144x16, .f32⟩
  | 30 => ⟨S262144x80, .f32⟩
  | 31 => ⟨S262144x272, .f32⟩
  | 32 => ⟨S262144x256, .f32⟩
  | 33 => ⟨S1x256, .f32⟩
  | 34 => ⟨S262144x256, .f32⟩
  | 35 => ⟨S262144x256, .f32⟩
  | 36 => ⟨S_, .f32⟩
  | 37 => ⟨S262144x256, .f32⟩
  | 38 => ⟨S262144x256, .f32⟩
  | 39 => ⟨S262144x128, .f32⟩
  | 40 => ⟨S1x128, .f32⟩
  | 41 => ⟨S262144x128, .f32⟩
  | 42 => ⟨S262144x128, .f32⟩
  | 43 => ⟨S_, .f32⟩
  | 44 => ⟨S262144x128, .f32⟩
  | 45 => ⟨S262144x128, .f32⟩
  | 46 => ⟨S262144x1, .f32⟩
  | 47 => ⟨S1x1, .f32⟩
  | 48 => ⟨S262144x1, .f32⟩
  | 49 => ⟨S262144x1, .f32⟩
  | 50 => ⟨S262144, .f32⟩
  | _ => ⟨S262144, .i32⟩

abbrev hbmTy (i : Nat) : BufTy := match i / 128 with
  | 0 => hbmTy0_0 i
  | 1 => hbmTy0_1 i
  | _ => ⟨S262144, .i32⟩

abbrev bufTy : (tb : Table) → Fin (tcTables nBuf tb) → BufTy
  | .hbm, ⟨i, _⟩ => hbmTy i
  | _, _ => ⟨S262144, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_c : Ref sig .tc := ⟨.hbm, 16, rfl⟩
abbrev main_v0 : Ref sig .tc := ⟨.hbm, 17, rfl⟩
abbrev main_v1 : Ref sig .tc := ⟨.hbm, 18, rfl⟩
abbrev main_c_0 : Ref sig .tc := ⟨.hbm, 19, rfl⟩
abbrev main_call0_v0 : Ref sig .tc := ⟨.hbm, 20, rfl⟩
abbrev main_call0_v1 : Ref sig .tc := ⟨.hbm, 21, rfl⟩
abbrev main_v2 : Ref sig .tc := ⟨.hbm, 22, rfl⟩
abbrev main_c_1 : Ref sig .tc := ⟨.hbm, 23, rfl⟩
abbrev main_v3 : Ref sig .tc := ⟨.hbm, 24, rfl⟩
abbrev main_v4 : Ref sig .tc := ⟨.hbm, 25, rfl⟩
abbrev main_c_2 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_c_3 : Ref sig .tc := ⟨.hbm, 32, rfl⟩
abbrev main_v10 : Ref sig .tc := ⟨.hbm, 33, rfl⟩
abbrev main_v11 : Ref sig .tc := ⟨.hbm, 34, rfl⟩
abbrev main_c_4 : Ref sig .tc := ⟨.hbm, 35, rfl⟩
abbrev main_call1_v0 : Ref sig .tc := ⟨.hbm, 36, rfl⟩
abbrev main_call1_v1 : Ref sig .tc := ⟨.hbm, 37, rfl⟩
abbrev main_v12 : Ref sig .tc := ⟨.hbm, 38, rfl⟩
abbrev main_c_5 : Ref sig .tc := ⟨.hbm, 39, rfl⟩
abbrev main_v13 : Ref sig .tc := ⟨.hbm, 40, rfl⟩
abbrev main_v14 : Ref sig .tc := ⟨.hbm, 41, rfl⟩
abbrev main_c_6 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_cst : Ref sig .tc := ⟨.hbm, 48, rfl⟩
abbrev main_v20 : Ref sig .tc := ⟨.hbm, 49, rfl⟩
abbrev main_c_7 : Ref sig .tc := ⟨.hbm, 50, rfl⟩
abbrev main_v21 : Ref sig .tc := ⟨.hbm, 51, rfl⟩
abbrev main_v22 : Ref sig .tc := ⟨.hbm, 52, rfl⟩
abbrev main_c_8 : Ref sig .tc := ⟨.hbm, 53, rfl⟩
abbrev main_call2_v0 : Ref sig .tc := ⟨.hbm, 54, rfl⟩
abbrev main_call2_v1 : Ref sig .tc := ⟨.hbm, 55, rfl⟩
abbrev main_v23 : Ref sig .tc := ⟨.hbm, 56, rfl⟩
abbrev main_c_9 : Ref sig .tc := ⟨.hbm, 57, rfl⟩
abbrev main_v24 : Ref sig .tc := ⟨.hbm, 58, rfl⟩
abbrev main_v25 : Ref sig .tc := ⟨.hbm, 59, rfl⟩
abbrev main_c_10 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_cst_11 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_c_12 : Ref sig .tc := ⟨.hbm, 70, rfl⟩
abbrev main_v34 : Ref sig .tc := ⟨.hbm, 71, rfl⟩
abbrev main_v35 : Ref sig .tc := ⟨.hbm, 72, rfl⟩
abbrev main_c_13 : Ref sig .tc := ⟨.hbm, 73, rfl⟩
abbrev main_call3_v0 : Ref sig .tc := ⟨.hbm, 74, rfl⟩
abbrev main_call3_v1 : Ref sig .tc := ⟨.hbm, 75, rfl⟩
abbrev main_v36 : Ref sig .tc := ⟨.hbm, 76, rfl⟩
abbrev main_c_14 : Ref sig .tc := ⟨.hbm, 77, rfl⟩
abbrev main_v37 : Ref sig .tc := ⟨.hbm, 78, rfl⟩
abbrev main_v38 : Ref sig .tc := ⟨.hbm, 79, rfl⟩
abbrev main_c_15 : Ref sig .tc := ⟨.hbm, 80, rfl⟩
abbrev main_v39 : Ref sig .tc := ⟨.hbm, 81, rfl⟩
abbrev main_v40 : Ref sig .tc := ⟨.hbm, 82, rfl⟩
abbrev main_v41 : Ref sig .tc := ⟨.hbm, 83, rfl⟩
abbrev main_v42 : Ref sig .tc := ⟨.hbm, 84, rfl⟩
abbrev main_v43 : Ref sig .tc := ⟨.hbm, 85, rfl⟩
abbrev main_v44 : Ref sig .tc := ⟨.hbm, 86, rfl⟩
abbrev main_v45 : Ref sig .tc := ⟨.hbm, 87, rfl⟩
abbrev main_c_16 : Ref sig .tc := ⟨.hbm, 88, rfl⟩
abbrev main_v46 : Ref sig .tc := ⟨.hbm, 89, rfl⟩
abbrev main_v47 : Ref sig .tc := ⟨.hbm, 90, rfl⟩
abbrev main_c_17 : Ref sig .tc := ⟨.hbm, 91, rfl⟩
abbrev main_call4_v0 : Ref sig .tc := ⟨.hbm, 92, rfl⟩
abbrev main_call4_v1 : Ref sig .tc := ⟨.hbm, 93, rfl⟩
abbrev main_v48 : Ref sig .tc := ⟨.hbm, 94, rfl⟩
abbrev main_c_18 : Ref sig .tc := ⟨.hbm, 95, rfl⟩
abbrev main_v49 : Ref sig .tc := ⟨.hbm, 96, rfl⟩
abbrev main_v50 : Ref sig .tc := ⟨.hbm, 97, rfl⟩
abbrev main_c_19 : Ref sig .tc := ⟨.hbm, 98, rfl⟩
abbrev main_v51 : Ref sig .tc := ⟨.hbm, 99, rfl⟩
abbrev main_v52 : Ref sig .tc := ⟨.hbm, 100, rfl⟩
abbrev main_v53 : Ref sig .tc := ⟨.hbm, 101, rfl⟩
abbrev main_v54 : Ref sig .tc := ⟨.hbm, 102, rfl⟩
abbrev main_v55 : Ref sig .tc := ⟨.hbm, 103, rfl⟩
abbrev main_v56 : Ref sig .tc := ⟨.hbm, 104, rfl⟩
abbrev main_v57 : Ref sig .tc := ⟨.hbm, 105, rfl⟩
abbrev main_c_20 : Ref sig .tc := ⟨.hbm, 106, rfl⟩
abbrev main_v58 : Ref sig .tc := ⟨.hbm, 107, rfl⟩
abbrev main_v59 : Ref sig .tc := ⟨.hbm, 108, rfl⟩
abbrev main_c_21 : Ref sig .tc := ⟨.hbm, 109, rfl⟩
abbrev main_call5_v0 : Ref sig .tc := ⟨.hbm, 110, rfl⟩
abbrev main_call5_v1 : Ref sig .tc := ⟨.hbm, 111, rfl⟩
abbrev main_v60 : Ref sig .tc := ⟨.hbm, 112, rfl⟩
abbrev main_c_22 : Ref sig .tc := ⟨.hbm, 113, rfl⟩
abbrev main_v61 : Ref sig .tc := ⟨.hbm, 114, rfl⟩
abbrev main_v62 : Ref sig .tc := ⟨.hbm, 115, rfl⟩
abbrev main_c_23 : Ref sig .tc := ⟨.hbm, 116, rfl⟩
abbrev main_v63 : Ref sig .tc := ⟨.hbm, 117, rfl⟩
abbrev main_v64 : Ref sig .tc := ⟨.hbm, 118, rfl⟩
abbrev main_v65 : Ref sig .tc := ⟨.hbm, 119, rfl⟩
abbrev main_v66 : Ref sig .tc := ⟨.hbm, 120, rfl⟩
abbrev main_v67 : Ref sig .tc := ⟨.hbm, 121, rfl⟩
abbrev main_v68 : Ref sig .tc := ⟨.hbm, 122, rfl⟩
abbrev main_v69 : Ref sig .tc := ⟨.hbm, 123, rfl⟩
abbrev main_c_24 : Ref sig .tc := ⟨.hbm, 124, rfl⟩
abbrev main_v70 : Ref sig .tc := ⟨.hbm, 125, rfl⟩
abbrev main_v71 : Ref sig .tc := ⟨.hbm, 126, rfl⟩
abbrev main_c_25 : Ref sig .tc := ⟨.hbm, 127, rfl⟩
abbrev main_call6_v0 : Ref sig .tc := ⟨.hbm, 128, rfl⟩
abbrev main_call6_v1 : Ref sig .tc := ⟨.hbm, 129, rfl⟩
abbrev main_v72 : Ref sig .tc := ⟨.hbm, 130, rfl⟩
abbrev main_c_26 : Ref sig .tc := ⟨.hbm, 131, rfl⟩
abbrev main_v73 : Ref sig .tc := ⟨.hbm, 132, rfl⟩
abbrev main_v74 : Ref sig .tc := ⟨.hbm, 133, rfl⟩
abbrev main_c_27 : Ref sig .tc := ⟨.hbm, 134, rfl⟩
abbrev main_v75 : Ref sig .tc := ⟨.hbm, 135, rfl⟩
abbrev main_v76 : Ref sig .tc := ⟨.hbm, 136, rfl⟩
abbrev main_v77 : Ref sig .tc := ⟨.hbm, 137, rfl⟩
abbrev main_v78 : Ref sig .tc := ⟨.hbm, 138, rfl⟩
abbrev main_v79 : Ref sig .tc := ⟨.hbm, 139, rfl⟩
abbrev main_v80 : Ref sig .tc := ⟨.hbm, 140, rfl⟩
abbrev main_v81 : Ref sig .tc := ⟨.hbm, 141, rfl⟩
abbrev main_c_28 : Ref sig .tc := ⟨.hbm, 142, rfl⟩
abbrev main_v82 : Ref sig .tc := ⟨.hbm, 143, rfl⟩
abbrev main_v83 : Ref sig .tc := ⟨.hbm, 144, rfl⟩
abbrev main_c_29 : Ref sig .tc := ⟨.hbm, 145, rfl⟩
abbrev main_call7_v0 : Ref sig .tc := ⟨.hbm, 146, rfl⟩
abbrev main_call7_v1 : Ref sig .tc := ⟨.hbm, 147, rfl⟩
abbrev main_v84 : Ref sig .tc := ⟨.hbm, 148, rfl⟩
abbrev main_c_30 : Ref sig .tc := ⟨.hbm, 149, rfl⟩
abbrev main_v85 : Ref sig .tc := ⟨.hbm, 150, rfl⟩
abbrev main_v86 : Ref sig .tc := ⟨.hbm, 151, rfl⟩
abbrev main_c_31 : Ref sig .tc := ⟨.hbm, 152, rfl⟩
abbrev main_v87 : Ref sig .tc := ⟨.hbm, 153, rfl⟩
abbrev main_v88 : Ref sig .tc := ⟨.hbm, 154, rfl⟩
abbrev main_v89 : Ref sig .tc := ⟨.hbm, 155, rfl⟩
abbrev main_v90 : Ref sig .tc := ⟨.hbm, 156, rfl⟩
abbrev main_v91 : Ref sig .tc := ⟨.hbm, 157, rfl⟩
abbrev main_v92 : Ref sig .tc := ⟨.hbm, 158, rfl⟩
abbrev main_v93 : Ref sig .tc := ⟨.hbm, 159, rfl⟩
abbrev main_v94 : Ref sig .tc := ⟨.hbm, 160, rfl⟩
abbrev main_v95 : Ref sig .tc := ⟨.hbm, 161, rfl⟩
abbrev main_v96 : Ref sig .tc := ⟨.hbm, 162, rfl⟩
abbrev main_v97 : Ref sig .tc := ⟨.hbm, 163, rfl⟩
abbrev main_call8_cst : Ref sig .tc := ⟨.hbm, 164, rfl⟩
abbrev main_call8_v0 : Ref sig .tc := ⟨.hbm, 165, rfl⟩
abbrev main_v98 : Ref sig .tc := ⟨.hbm, 166, rfl⟩
abbrev main_v99 : Ref sig .tc := ⟨.hbm, 167, rfl⟩
abbrev main_v100 : Ref sig .tc := ⟨.hbm, 168, rfl⟩
abbrev main_v101 : Ref sig .tc := ⟨.hbm, 169, rfl⟩
abbrev main_v102 : Ref sig .tc := ⟨.hbm, 170, rfl⟩
abbrev main_call9_cst : Ref sig .tc := ⟨.hbm, 171, rfl⟩
abbrev main_call9_v0 : Ref sig .tc := ⟨.hbm, 172, rfl⟩
abbrev main_v103 : Ref sig .tc := ⟨.hbm, 173, rfl⟩
abbrev main_v104 : Ref sig .tc := ⟨.hbm, 174, rfl⟩
abbrev main_v105 : Ref sig .tc := ⟨.hbm, 175, rfl⟩
abbrev main_v106 : Ref sig .tc := ⟨.hbm, 176, rfl⟩
abbrev main_v107 : Ref sig .tc := ⟨.hbm, 177, rfl⟩
abbrev main_v108 : Ref sig .tc := ⟨.hbm, 178, rfl⟩

abbrev nD : Nat := 1
abbrev τ : Topo := Topo.v7x

variable {F : FTy → Type} [FloatOps F]

class Facts₀ : Prop where
  bcast_S_S262144 : S_.BroadcastsInDim S262144 (![] : Fin 0 → Fin S262144.rank)
  bcast_S262144_S262144x1_0 : S262144.BroadcastsInDim S262144x1 (![0] : Fin 1 → Fin S262144x1.rank)
  bcast_S_S262144x4 : S_.BroadcastsInDim S262144x4 (![] : Fin 0 → Fin S262144x4.rank)
  bcast_S262144x4_S262144x4x1_0_1 : S262144x4.BroadcastsInDim S262144x4x1 (![0, 1] : Fin 2 → Fin S262144x4x1.rank)
  reducesTo_S262144x4x64_S262144x64_d1 : S262144x4x64.ReducesTo [1] S262144x64
  h_S_ : 0 < S_.numel
  bcast_S_S262144x5 : S_.BroadcastsInDim S262144x5 (![] : Fin 0 → Fin S262144x5.rank)
  bcast_S262144x5_S262144x5x1_0_1 : S262144x5.BroadcastsInDim S262144x5x1 (![0, 1] : Fin 2 → Fin S262144x5x1.rank)
  reducesTo_S262144x5x64_S262144x64_d1 : S262144x5x64.ReducesTo [1] S262144x64
  slices_S262144x5_S262144x1_0_0 : S262144x5.Slices ![0, 0] S262144x1
  shapeCasts_S262144x1_S262144 : S262144x1.ShapeCasts S262144
  slices_S262144x5_S262144x1_0_1 : S262144x5.Slices ![0, 1] S262144x1
  slices_S262144x5_S262144x1_0_2 : S262144x5.Slices ![0, 2] S262144x1
  slices_S262144x5_S262144x1_0_3 : S262144x5.Slices ![0, 3] S262144x1
  slices_S262144x5_S262144x1_0_4 : S262144x5.Slices ![0, 4] S262144x1
  concatenates_S262144x16_S262144x16_S262144x16_S262144x16_S262144x16_S262144x80_d1 : Shape.Concatenates [S262144x16, S262144x16, S262144x16, S262144x16, S262144x16] S262144x80 1
  concatenates_S262144x64_S262144x64_S262144x64_S262144x80_S262144x272_d1 : Shape.Concatenates [S262144x64, S262144x64, S262144x64, S262144x80] S262144x272 1
  bcast_S256_S1x256_1 : S256.BroadcastsInDim S1x256 (![1] : Fin 1 → Fin S1x256.rank)
  bcast_S1x256_S262144x256_0_1 : S1x256.BroadcastsInDim S262144x256 (![0, 1] : Fin 2 → Fin S262144x256.rank)
  bcast_S_S262144x256 : S_.BroadcastsInDim S262144x256 (![] : Fin 0 → Fin S262144x256.rank)
  bcast_S128_S1x128_1 : S128.BroadcastsInDim S1x128 (![1] : Fin 1 → Fin S1x128.rank)
  bcast_S1x128_S262144x128_0_1 : S1x128.BroadcastsInDim S262144x128 (![0, 1] : Fin 2 → Fin S262144x128.rank)
  bcast_S_S262144x128 : S_.BroadcastsInDim S262144x128 (![] : Fin 0 → Fin S262144x128.rank)
  bcast_S1_S1x1_1 : S1.BroadcastsInDim S1x1 (![1] : Fin 1 → Fin S1x1.rank)
  bcast_S1x1_S262144x1_0_1 : S1x1.BroadcastsInDim S262144x1 (![0, 1] : Fin 2 → Fin S262144x1.rank)
  gather_S171x64_S262144x1_S262144x64_1_0_n_n_0_1_164_wf : GatherDims.WF S171x64 S262144x1 S262144x64 [1] [0] [] [0] [] 1 ![1, 64]
  gather_S171x64_S262144x4x1_S262144x4x64_2_0_n_n_0_2_164_wf : GatherDims.WF S171x64 S262144x4x1 S262144x4x64 [2] [0] [] [0] [] 2 ![1, 64]
  gather_S171x64_S262144x5x1_S262144x5x64_2_0_n_n_0_2_164_wf : GatherDims.WF S171x64 S262144x5x1 S262144x5x64 [2] [0] [] [0] [] 2 ![1, 64]
  gather_S33x16_S262144x1_S262144x16_1_0_n_n_0_1_116_wf : GatherDims.WF S33x16 S262144x1 S262144x16 [1] [0] [] [0] [] 1 ![1, 16]
  gather_S9x16_S262144x1_S262144x16_1_0_n_n_0_1_116_wf : GatherDims.WF S9x16 S262144x1 S262144x16 [1] [0] [] [0] [] 1 ![1, 16]
  gather_S65x16_S262144x1_S262144x16_1_0_n_n_0_1_116_wf : GatherDims.WF S65x16 S262144x1 S262144x16 [1] [0] [] [0] [] 1 ![1, 16]
  dot_S262144x272_S272x256_S262144x256_1_0_0_1_n_n_wf : DotDims.WF S262144x272 S272x256 S262144x256 [1] [0] [0] [1] [] []
  dot_S262144x256_S256x128_S262144x128_1_0_0_1_n_n_wf : DotDims.WF S262144x256 S256x128 S262144x128 [1] [0] [0] [1] [] []
  dot_S262144x128_S128x1_S262144x1_1_0_0_1_n_n_wf : DotDims.WF S262144x128 S128x1 S262144x1 [1] [0] [0] [1] [] []

variable [Facts₀]

def gather_S171x64_S262144x1_S262144x64_1_0_n_n_0_1_164 : GatherDims S171x64 S262144x1 S262144x64 where
  offsetDims := [1]
  collapsedSliceDims := [0]
  operandBatchingDims := []
  startIndicesBatchingDims := []
  startIndexMap := [0]
  indexVectorDim := 1
  sliceSizes := ![1, 64]
  wf := gather_S171x64_S262144x1_S262144x64_1_0_n_n_0_1_164_wf
def gather_S171x64_S262144x4x1_S262144x4x64_2_0_n_n_0_2_164 : GatherDims S171x64 S262144x4x1 S262144x4x64 where
  offsetDims := [2]
  collapsedSliceDims := [0]
  operandBatchingDims := []
  startIndicesBatchingDims := []
  startIndexMap := [0]
  indexVectorDim := 2
  sliceSizes := ![1, 64]
  wf := gather_S171x64_S262144x4x1_S262144x4x64_2_0_n_n_0_2_164_wf
def gather_S171x64_S262144x5x1_S262144x5x64_2_0_n_n_0_2_164 : GatherDims S171x64 S262144x5x1 S262144x5x64 where
  offsetDims := [2]
  collapsedSliceDims := [0]
  operandBatchingDims := []
  startIndicesBatchingDims := []
  startIndexMap := [0]
  indexVectorDim := 2
  sliceSizes := ![1, 64]
  wf := gather_S171x64_S262144x5x1_S262144x5x64_2_0_n_n_0_2_164_wf
def gather_S33x16_S262144x1_S262144x16_1_0_n_n_0_1_116 : GatherDims S33x16 S262144x1 S262144x16 where
  offsetDims := [1]
  collapsedSliceDims := [0]
  operandBatchingDims := []
  startIndicesBatchingDims := []
  startIndexMap := [0]
  indexVectorDim := 1
  sliceSizes := ![1, 16]
  wf := gather_S33x16_S262144x1_S262144x16_1_0_n_n_0_1_116_wf
def gather_S9x16_S262144x1_S262144x16_1_0_n_n_0_1_116 : GatherDims S9x16 S262144x1 S262144x16 where
  offsetDims := [1]
  collapsedSliceDims := [0]
  operandBatchingDims := []
  startIndicesBatchingDims := []
  startIndexMap := [0]
  indexVectorDim := 1
  sliceSizes := ![1, 16]
  wf := gather_S9x16_S262144x1_S262144x16_1_0_n_n_0_1_116_wf
def gather_S65x16_S262144x1_S262144x16_1_0_n_n_0_1_116 : GatherDims S65x16 S262144x1 S262144x16 where
  offsetDims := [1]
  collapsedSliceDims := [0]
  operandBatchingDims := []
  startIndicesBatchingDims := []
  startIndexMap := [0]
  indexVectorDim := 1
  sliceSizes := ![1, 16]
  wf := gather_S65x16_S262144x1_S262144x16_1_0_n_n_0_1_116_wf
def dot_S262144x272_S272x256_S262144x256_1_0_0_1_n_n : DotDims S262144x272 S272x256 S262144x256 where
  lhsContracting := [1]
  rhsContracting := [0]
  lhsNonContracting := [0]
  rhsNonContracting := [1]
  lhsBatch := []
  rhsBatch := []
  wf := dot_S262144x272_S272x256_S262144x256_1_0_0_1_n_n_wf
def dot_S262144x256_S256x128_S262144x128_1_0_0_1_n_n : DotDims S262144x256 S256x128 S262144x128 where
  lhsContracting := [1]
  rhsContracting := [0]
  lhsNonContracting := [0]
  rhsNonContracting := [1]
  lhsBatch := []
  rhsBatch := []
  wf := dot_S262144x256_S256x128_S262144x128_1_0_0_1_n_n_wf
def dot_S262144x128_S128x1_S262144x1_1_0_0_1_n_n : DotDims S262144x128 S128x1 S262144x1 where
  lhsContracting := [1]
  rhsContracting := [0]
  lhsNonContracting := [0]
  rhsNonContracting := [1]
  lhsBatch := []
  rhsBatch := []
  wf := dot_S262144x128_S128x1_S262144x1_1_0_0_1_n_n_wf

class Facts : Prop extends Facts₀ where

variable [Facts]
-- ==== Proof.KernelRegion.lean ====
/-
  The launch side of `Kernel`'s one pallas_call, at any float instance `F`.

  @main is twenty-four host operations (the sixteen index columns packed into one [262144, 16] array; the eight
  embedding tables each multiplied into their slice of W1 and stacked into one [694, 256] weight; two format changes
  and a reshape) and then the call on a grid of 64 tiles of 4096 rows. A tile's body loads the seven input blocks whole,
  computes, and stores 4096 scores whole; nothing is carried from tile to tile. So: what the call finds in each buffer
  (`atEntry`), a window's block at a tile (`blockAt`), the 4096 scores of a tile as one function of the seven input
  blocks (`scoreBlock`), the body's triple, the pipeline's proof data, the run, and from the run: every argument array
  ends as launched.
-/
import proofs.«421530_j28664611733761_3_alg».proof.Proof.Gen.Kernel.Launch
import proofs.«421530_j28664611733761_3_alg».proof.Proof.Gen.Kernel.Skeleton
import proofs.«421530_j28664611733761_3_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Region

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the call -/

/-- Core `c`'s buffers when the call is entered: the launch contents after the twenty-four host operations. -/
abbrev atEntry (c : Dev nD) (b : Ref sig .tc) : Buf (Elt F) ((c : Thread nD τ).loc b) :=
  StableHlo.after (List.flatten [hostOps0]) (fun b => m (c, b)) b

theorem hostOps0_fresh : (hostOps0 : List (HloOp τ sig (Elt F))).Forall fun op => op.fresh = ∅ := by
  simp only [List.Forall]; repeat' constructor

/-- @main is its host operations, then the call. -/
theorem hmain (𝒱₀ : Variants) : Pipeline.HMain (Ix := Unit) (Name := ℕ) (U := UR sig nD τ) (Lvl := ℕ) cfgs 0 defs₀ 𝒱₀ m (main (F := F)) (atEntry m) :=
  Pipeline.hmain_prefixes cfgs 0 defs₀ 𝒱₀ m main [hostOps0] (by simp only [List.Forall]; exact hostOps0_sub)
    (by simp only [List.Forall]; exact hostOps0_fresh) main_chain

/-- No host operation ahead of the call writes argument 0: the call finds it as launched. -/
theorem atEntry_arg0 (c : Dev nD) : atEntry m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation ahead of the call writes argument 1: the call finds it as launched. -/
theorem atEntry_arg1 (c : Dev nD) : atEntry m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation ahead of the call writes argument 2: the call finds it as launched. -/
theorem atEntry_arg2 (c : Dev nD) : atEntry m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation ahead of the call writes argument 3: the call finds it as launched. -/
theorem atEntry_arg3 (c : Dev nD) : atEntry m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation ahead of the call writes argument 4: the call finds it as launched. -/
theorem atEntry_arg4 (c : Dev nD) : atEntry m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation ahead of the call writes argument 5: the call finds it as launched. -/
theorem atEntry_arg5 (c : Dev nD) : atEntry m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation ahead of the call writes argument 6: the call finds it as launched. -/
theorem atEntry_arg6 (c : Dev nD) : atEntry m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation ahead of the call writes argument 7: the call finds it as launched. -/
theorem atEntry_arg7 (c : Dev nD) : atEntry m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation ahead of the call writes argument 8: the call finds it as launched. -/
theorem atEntry_arg8 (c : Dev nD) : atEntry m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation ahead of the call writes argument 9: the call finds it as launched. -/
theorem atEntry_arg9 (c : Dev nD) : atEntry m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation ahead of the call writes argument 10: the call finds it as launched. -/
theorem atEntry_arg10 (c : Dev nD) : atEntry m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation ahead of the call writes argument 11: the call finds it as launched. -/
theorem atEntry_arg11 (c : Dev nD) : atEntry m c main_arg11 = m ((c : Thread nD τ).loc main_arg11) :=
  StableHlo.after_of_forall_not_mem (b := Proc.devRef .tc main_arg11) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation ahead of the call writes argument 12: the call finds it as launched. -/
theorem atEntry_arg12 (c : Dev nD) : atEntry m c main_arg12 = m ((c : Thread nD τ).loc main_arg12) :=
  StableHlo.after_of_forall_not_mem (b := Proc.devRef .tc main_arg12) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation ahead of the call writes argument 13: the call finds it as launched. -/
theorem atEntry_arg13 (c : Dev nD) : atEntry m c main_arg13 = m ((c : Thread nD τ).loc main_arg13) :=
  StableHlo.after_of_forall_not_mem (b := Proc.devRef .tc main_arg13) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation ahead of the call writes argument 14: the call finds it as launched. -/
theorem atEntry_arg14 (c : Dev nD) : atEntry m c main_arg14 = m ((c : Thread nD τ).loc main_arg14) :=
  StableHlo.after_of_forall_not_mem (b := Proc.devRef .tc main_arg14) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation ahead of the call writes argument 15: the call finds it as launched. -/
theorem atEntry_arg15 (c : Dev nD) : atEntry m c main_arg15 = m ((c : Thread nD τ).loc main_arg15) :=
  StableHlo.after_of_forall_not_mem (b := Proc.devRef .tc main_arg15) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-! ## The windows' blocks -/

/-- Window `w`'s block at tile `t`, read off its array as the call finds it. -/
def blockAt (c : Dev nD) (w : Fin cfg0.W) (t : Fin cfg0.N) : ((cfg0.win w).xblock (cfg0.grid.coords t)).Idx → Elt F (cfg0.win w).elt :=
  ((cfg0.win w).blk t).view.read (Elt F) (atEntry m c (Pipeline.arrRef spec0 w))

/-- Input window 0's current staging buffer holds its block at every grid point, fetched there or not. -/
theorem staged0_of {c : Dev nD} (dat : Dat τ (Elt F) Unit ℕ (UR sig nD τ) ℕ cfg0 c) (hA : dat.A 0 = atEntry m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
/-- Input window 1's current staging buffer holds its block at every grid point, fetched there or not. -/
theorem staged1_of {c : Dev nD} (dat : Dat τ (Elt F) Unit ℕ (UR sig nD τ) ℕ cfg0 c) (hA : dat.A 1 = atEntry m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)
/-- Input window 2's current staging buffer holds its block at every grid point, fetched there or not. -/
theorem staged2_of {c : Dev nD} (dat : Dat τ (Elt F) Unit ℕ (UR sig nD τ) ℕ cfg0 c) (hA : dat.A 2 = atEntry m c (Pipeline.arrRef spec0 2))
    (hafter : ∀ t, dat.after 2 t = blockAt m c 2 t) (t : Fin cfg0.N) (d) : dat.before 2 t d = blockAt m c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)
/-- Input window 3's current staging buffer holds its block at every grid point, fetched there or not. -/
theorem staged3_of {c : Dev nD} (dat : Dat τ (Elt F) Unit ℕ (UR sig nD τ) ℕ cfg0 c) (hA : dat.A 3 = atEntry m c (Pipeline.arrRef spec0 3))
    (hafter : ∀ t, dat.after 3 t = blockAt m c 3 t) (t : Fin cfg0.N) (d) : dat.before 3 t d = blockAt m c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)
/-- Input window 4's current staging buffer holds its block at every grid point, fetched there or not. -/
theorem staged4_of {c : Dev nD} (dat : Dat τ (Elt F) Unit ℕ (UR sig nD τ) ℕ cfg0 c) (hA : dat.A 4 = atEntry m c (Pipeline.arrRef spec0 4))
    (hafter : ∀ t, dat.after 4 t = blockAt m c 4 t) (t : Fin cfg0.N) (d) : dat.before 4 t d = blockAt m c 4 t :=
  (dat.before_in_eq_fetched 4 rfl (fun _ => rfl) (fun _ _ _ => rfl) (fun t => by rw [hafter]; unfold Dat.blockOf blockAt; rw [hA]; try rfl) t d).trans
    (by unfold Dat.fetched Dat.blockOf blockAt; rw [hA]; try rfl)
/-- Input window 5's current staging buffer holds its block at every grid point, fetched there or not. -/
theorem staged5_of {c : Dev nD} (dat : Dat τ (Elt F) Unit ℕ (UR sig nD τ) ℕ cfg0 c) (hA : dat.A 5 = atEntry m c (Pipeline.arrRef spec0 5))
    (hafter : ∀ t, dat.after 5 t = blockAt m c 5 t) (t : Fin cfg0.N) (d) : dat.before 5 t d = blockAt m c 5 t :=
  (dat.before_in_eq_fetched 5 rfl (fun _ => rfl) (fun _ _ _ => rfl) (fun t => by rw [hafter]; unfold Dat.blockOf blockAt; rw [hA]; try rfl) t d).trans
    (by unfold Dat.fetched Dat.blockOf blockAt; rw [hA]; try rfl)
/-- Input window 6's current staging buffer holds its block at every grid point, fetched there or not. -/
theorem staged6_of {c : Dev nD} (dat : Dat τ (Elt F) Unit ℕ (UR sig nD τ) ℕ cfg0 c) (hA : dat.A 6 = atEntry m c (Pipeline.arrRef spec0 6))
    (hafter : ∀ t, dat.after 6 t = blockAt m c 6 t) (t : Fin cfg0.N) (d) : dat.before 6 t d = blockAt m c 6 t :=
  (dat.before_in_eq_fetched 6 rfl (fun _ => rfl) (fun _ _ _ => rfl) (fun t => by rw [hafter]; unfold Dat.blockOf blockAt; rw [hA]; try rfl) t d).trans
    (by unfold Dat.fetched Dat.blockOf blockAt; rw [hA]; try rfl)

/-! ## The arguments end as launched, from a run to the library's frame post -/

theorem args_kept_of (dats : (p : Fin 1) → (c : Dev nD) → Dat τ (Elt F) Unit ℕ (UR sig nD τ) ℕ (cfgs p) c)
    (hA : ∀ c w, (dats 0 c).A w = atEntry m c (Pipeline.arrRef spec0 w))
    (h : θ_run defs (onTc (τ := τ) (main (F := F))) (s₀ m ρ) (Pipeline.FramePost cfgs dats 0 (atEntry m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun _ h c => ⟨((h c).2 main_arg0 (Pipeline.mem_restRefs_of main_arg0 (by decide) (by decide))).trans (atEntry_arg0 m c),
      ((h c).2 main_arg1 (Pipeline.mem_restRefs_of main_arg1 (by decide) (by decide))).trans (atEntry_arg1 m c),
      ((h c).2 main_arg2 (Pipeline.mem_restRefs_of main_arg2 (by decide) (by decide))).trans (atEntry_arg2 m c),
      ((h c).2 main_arg3 (Pipeline.mem_restRefs_of main_arg3 (by decide) (by decide))).trans (atEntry_arg3 m c),
      ((h c).2 main_arg4 (Pipeline.mem_restRefs_of main_arg4 (by decide) (by decide))).trans (atEntry_arg4 m c),
      ((h c).2 main_arg5 (Pipeline.mem_restRefs_of main_arg5 (by decide) (by decide))).trans (atEntry_arg5 m c),
      ((h c).2 main_arg6 (Pipeline.mem_restRefs_of main_arg6 (by decide) (by decide))).trans (atEntry_arg6 m c),
      ((h c).2 main_arg7 (Pipeline.mem_restRefs_of main_arg7 (by decide) (by decide))).trans (atEntry_arg7 m c),
      ((h c).2 main_arg8 (Pipeline.mem_restRefs_of main_arg8 (by decide) (by decide))).trans (atEntry_arg8 m c),
      ((h c).2 main_arg9 (Pipeline.mem_restRefs_of main_arg9 (by decide) (by decide))).trans (atEntry_arg9 m c),
      ((h c).2 main_arg10 (Pipeline.mem_restRefs_of main_arg10 (by decide) (by decide))).trans (atEntry_arg10 m c),
      ((h c).1 3).trans (((dats 0 c).arrAt_in 3 rfl _).trans ((hA c 3).trans (atEntry_arg11 m c))),
      ((h c).2 main_arg12 (Pipeline.mem_restRefs_of main_arg12 (by decide) (by decide))).trans (atEntry_arg12 m c),
      ((h c).1 4).trans (((dats 0 c).arrAt_in 4 rfl _).trans ((hA c 4).trans (atEntry_arg13 m c))),
      ((h c).2 main_arg14 (Pipeline.mem_restRefs_of main_arg14 (by decide) (by decide))).trans (atEntry_arg14 m c),
      ((h c).1 6).trans (((dats 0 c).arrAt_in 6 rfl _).trans ((hA c 6).trans (atEntry_arg15 m c)))⟩) h

/-! ## The body's accesses: each buffer whole -/

abbrev rIdx : Rect S4096x16 := Rect.unit (s := S4096x16) ![0, 0] S4096x16.size inb_S4096x16_S4096x16_0_0
abbrev rW1 : Rect S694x256 := Rect.unit (s := S694x256) ![0, 0] S694x256.size inb_S694x256_S694x256_0_0
abbrev rW2 : Rect S256x128 := Rect.unit (s := S256x128) ![0, 0] S256x128.size inb_S256x128_S256x128_0_0
abbrev rB1 : Rect S256 := Rect.unit (s := S256) ![0] S256.size inb_S256_S256_0
abbrev rV128 : Rect S128 := Rect.unit (s := S128) ![0] S128.size inb_S128_S128_0
abbrev rB3 : Rect S1 := Rect.unit (s := S1) ![0] S1.size inb_S1_S1_0
abbrev rOut : Rect S4096 := Rect.unit (s := S4096) ![0] S4096.size inb_S4096_S4096_0

/-! ## A tile's 4096 scores -/

/-- The lane numbers 0 … 170 along each row. -/
abbrev lanes171 : IVec S4096x171 32 := iota .tc S4096x171 32 [1] iota_S4096x171_d1_w32
/-- The lane numbers 0 … 180 along each row. -/
abbrev lanes181 : IVec S4096x181 32 := iota .tc S4096x181 32 [1] iota_S4096x181_d1_w32

/-- The value the body stores, from the seven loaded blocks: the index block `ix` gives the four multi-hot pieces
    (own champion; allies' counts; enemies' counts; the five miscellaneous cards' counts), which go with the stacked
    weight, the two biases, the second weight, the last layer's row and its bias through the three layers. -/
def scores (ix : Vec F S4096x16 .i32) (w1 : Vec F S694x256 .bf16) (w2 : Vec F S256x128 .bf16) (b1 : Vec F S256 .f32) (b2 : Vec F S128 .f32)
    (w3 : Vec F S128 .f32) (b3 : Vec F S1 .f32) : FVec F S4096 .f32 :=
  k0_pay1 (k0_pay6 ix)
    (k0_pay9 (k0_pay3 ix) lanes171 (k0_pay7 ix) (k0_pay8 ix))
    (k0_pay14 lanes171 (k0_pay11 (k0_pay4 ix) lanes171 (k0_pay10 (F := F) (k0_pay4 ix) lanes171)) (k0_pay12 (k0_pay4 ix)) (k0_pay13 (k0_pay4 ix)) 170#32)
    (k0_pay17 (k0_pay5 ix) lanes181 (k0_pay15 (F := F) (k0_pay5 ix)) (k0_pay16 (k0_pay5 ix)) 0#32)
    w1 b1 w2 b2 w3 b3

/-- The output window's staging buffer after the body: its one store, of the scores of the loaded blocks. -/
def scoreBlock (x0 : Vec F S4096x16 .i32) (x1 : Vec F S694x256 .bf16) (x2 : Vec F S256x128 .bf16) (x3 : Vec F S256 .f32) (x4 : Vec F S128 .f32)
    (x5 : Vec F S128 .f32) (x6 : Vec F S1 .f32) : Vec F S4096 .f32 :=
  View.canon [⟨rOut, scores (View.ld x0 rIdx) (View.ld x1 rW1) (View.ld x2 rW2) (View.ld x3 rB1) (View.ld x4 rV128) (View.ld x5 rV128) (View.ld x6 rB3)⟩]

/-- The one store covers the buffer. -/
theorem store_covers (p0 : Vec F S4096 .f32) (y : S4096.Idx) :
    ∃ pc ∈ ([⟨rOut, p0⟩] : List (View.Piece (Elt F) S4096 .f32)), y ∈ pc.1.set :=
  View.cover_of_tiled [⟨rOut, p0⟩] S4096.size (by rfl) y

/-! ## The body's triple -/

set_option maxHeartbeats 4000000 in
/-- The body on whole staging memrefs, the inputs' at contents `xW` and the output's at anything, runs to the continuation
    holding the inputs' as they were and the output's at `scoreBlock` of the inputs'. -/
theorem tile_triple (c : Dev nD) (E : Set ℕ) (i : grid0.Coords)
    (arg1 : Memref sig .tc .vmem S4096x16 .i32) (harg1 : arg1.IsWhole) (arg2 : Memref sig .tc .vmem S694x256 .bf16) (harg2 : arg2.IsWhole)
    (arg3 : Memref sig .tc .vmem S256x128 .bf16) (harg3 : arg3.IsWhole) (arg4 : Memref sig .tc .vmem S256 .f32) (harg4 : arg4.IsWhole)
    (arg5 : Memref sig .tc .vmem S128 .f32) (harg5 : arg5.IsWhole) (arg6 : Memref sig .tc .vmem S128 .f32) (harg6 : arg6.IsWhole)
    (arg7 : Memref sig .tc .vmem S1 .f32) (harg7 : arg7.IsWhole) (arg8 : Memref sig .tc .vmem S4096 .f32) (harg8 : arg8.IsWhole)
    (x0 : Vec F S4096x16 .i32) (x1 : Vec F S694x256 .bf16) (x2 : Vec F S256x128 .bf16) (x3 : Vec F S256 .f32) (x4 : Vec F S128 .f32)
    (x5 : Vec F S128 .f32) (x6 : Vec F S1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare (scoreBlock x0 x1 x2 x3 x4 x5 x6)) -∗ K ⟨⟩))
      ⊢ wp frame (wpE (defs₀ (F := F)) Variants.none c none) E (cc0__kernel i arg1 harg1 arg2 harg2 arg3 harg3 arg4 harg4 arg5 harg5 arg6 harg6 arg7 harg7 arg8 harg8) K := by
  simp only [cc0__kernel_eq_skeleton]; unfold cc0__kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (store_covers _)

/-! ## The pipeline's proof data -/

/-- On core `c`: the arrays as the call finds them; after the body at tile `t` each input's buffer at its block and the
    output's at the scores of the input blocks; nothing of the body's own is kept between tiles. -/
def pdata (_ : Fin 1) (c : Dev nD) : Dat τ (Elt F) Unit ℕ (UR sig nD τ) ℕ cfg0 c where
  A w := atEntry m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => blockAt m c 4 t
    | ⟨5, _⟩ => blockAt m c 5 t
    | ⟨6, _⟩ => blockAt m c 6 t
    | ⟨7, _⟩ => scoreBlock (blockAt m c 0 t) (blockAt m c 1 t) (blockAt m c 2 t) (blockAt m c 3 t) (blockAt m c 4 t) (blockAt m c 5 t) (blockAt m c 6 t)
  Φ _ := Pipeline.ΦA spec0 c
  q _ := fullShare
  owed _ := 0

theorem pdata_A (c : Dev nD) (w : Fin cfg0.W) : (pdata m 0 c).A w = atEntry m c (Pipeline.arrRef spec0 w) := by
  dsimp only [pdata]

theorem after_in0 (c : Dev nD) (t : Fin cfg0.N) : (pdata m 0 c).after 0 t = blockAt m c 0 t := by dsimp only [pdata]
theorem after_in1 (c : Dev nD) (t : Fin cfg0.N) : (pdata m 0 c).after 1 t = blockAt m c 1 t := by dsimp only [pdata]
theorem after_in2 (c : Dev nD) (t : Fin cfg0.N) : (pdata m 0 c).after 2 t = blockAt m c 2 t := by dsimp only [pdata]
theorem after_in3 (c : Dev nD) (t : Fin cfg0.N) : (pdata m 0 c).after 3 t = blockAt m c 3 t := by dsimp only [pdata]
theorem after_in4 (c : Dev nD) (t : Fin cfg0.N) : (pdata m 0 c).after 4 t = blockAt m c 4 t := by dsimp only [pdata]
theorem after_in5 (c : Dev nD) (t : Fin cfg0.N) : (pdata m 0 c).after 5 t = blockAt m c 5 t := by dsimp only [pdata]
theorem after_in6 (c : Dev nD) (t : Fin cfg0.N) : (pdata m 0 c).after 6 t = blockAt m c 6 t := by dsimp only [pdata]
theorem after_out (c : Dev nD) (t : Fin cfg0.N) : (pdata m 0 c).after 7 t
    = scoreBlock (blockAt m c 0 t) (blockAt m c 1 t) (blockAt m c 2 t) (blockAt m c 3 t) (blockAt m c 4 t) (blockAt m c 5 t) (blockAt m c 6 t) := by dsimp only [pdata]

theorem staged0 (c : Dev nD) (t : Fin cfg0.N) (d) : (pdata m 0 c).before 0 t d = blockAt m c 0 t :=
  staged0_of m (pdata m 0 c) (pdata_A m c 0) (after_in0 m c) t d
theorem staged1 (c : Dev nD) (t : Fin cfg0.N) (d) : (pdata m 0 c).before 1 t d = blockAt m c 1 t :=
  staged1_of m (pdata m 0 c) (pdata_A m c 1) (after_in1 m c) t d
theorem staged2 (c : Dev nD) (t : Fin cfg0.N) (d) : (pdata m 0 c).before 2 t d = blockAt m c 2 t :=
  staged2_of m (pdata m 0 c) (pdata_A m c 2) (after_in2 m c) t d
theorem staged3 (c : Dev nD) (t : Fin cfg0.N) (d) : (pdata m 0 c).before 3 t d = blockAt m c 3 t :=
  staged3_of m (pdata m 0 c) (pdata_A m c 3) (after_in3 m c) t d
theorem staged4 (c : Dev nD) (t : Fin cfg0.N) (d) : (pdata m 0 c).before 4 t d = blockAt m c 4 t :=
  staged4_of m (pdata m 0 c) (pdata_A m c 4) (after_in4 m c) t d
theorem staged5 (c : Dev nD) (t : Fin cfg0.N) (d) : (pdata m 0 c).before 5 t d = blockAt m c 5 t :=
  staged5_of m (pdata m 0 c) (pdata_A m c 5) (after_in5 m c) t d
theorem staged6 (c : Dev nD) (t : Fin cfg0.N) (d) : (pdata m 0 c).before 6 t d = blockAt m c 6 t :=
  staged6_of m (pdata m 0 c) (pdata_A m c 6) (after_in6 m c) t d

/-! ## The body obligation, at any tile -/

def bodyPre (c : Dev nD) (t : Fin cfg0.N) : sProp 𝕄 :=
  iprop((pdata m 0 c).Φ t.castSucc ∗ (pdata m 0 c).owesAt () t.castSucc
    ∗ (∃ d, owns (c : Thread nD τ) (st0_0 t) fullShare ((pdata m 0 c).before 0 t d))
    ∗ (∃ d, owns (c : Thread nD τ) (st0_1 t) fullShare ((pdata m 0 c).before 1 t d))
    ∗ (∃ d, owns (c : Thread nD τ) (st0_2 t) fullShare ((pdata m 0 c).before 2 t d))
    ∗ (∃ d, owns (c : Thread nD τ) (st0_3 t) fullShare ((pdata m 0 c).before 3 t d))
    ∗ (∃ d, owns (c : Thread nD τ) (st0_4 t) fullShare ((pdata m 0 c).before 4 t d))
    ∗ (∃ d, owns (c : Thread nD τ) (st0_5 t) fullShare ((pdata m 0 c).before 5 t d))
    ∗ (∃ d, owns (c : Thread nD τ) (st0_6 t) fullShare ((pdata m 0 c).before 6 t d))
    ∗ (∃ d, owns (c : Thread nD τ) (st0_7 t) fullShare ((pdata m 0 c).before 7 t d)))

def bodyPost (c : Dev nD) (t : Fin cfg0.N) : sProp 𝕄 :=
  iprop((pdata m 0 c).Φ t.succ ∗ (pdata m 0 c).owesAt () t.succ
    ∗ owns (c : Thread nD τ) (st0_0 t) fullShare ((pdata m 0 c).after 0 t)
    ∗ owns (c : Thread nD τ) (st0_1 t) fullShare ((pdata m 0 c).after 1 t)
    ∗ owns (c : Thread nD τ) (st0_2 t) fullShare ((pdata m 0 c).after 2 t)
    ∗ owns (c : Thread nD τ) (st0_3 t) fullShare ((pdata m 0 c).after 3 t)
    ∗ owns (c : Thread nD τ) (st0_4 t) fullShare ((pdata m 0 c).after 4 t)
    ∗ owns (c : Thread nD τ) (st0_5 t) fullShare ((pdata m 0 c).after 5 t)
    ∗ owns (c : Thread nD τ) (st0_6 t) fullShare ((pdata m 0 c).after 6 t)
    ∗ owns (c : Thread nD τ) (st0_7 t) fullShare ((pdata m 0 c).after 7 t))

set_option maxHeartbeats 1000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [staged0, staged1, staged2, staged3, staged4, staged5, staged6]
  rw [show (pdata m 0 c).Φ t.succ = (pdata m 0 c).Φ t.castSucc from rfl,
    show (pdata m 0 c).owesAt () t.succ = (pdata m 0 c).owesAt () t.castSucc from rfl,
    after_in0, after_in1, after_in2, after_in3, after_in4, after_in5, after_in6, after_out]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (tile_triple c Set.univ (grid0.coords t) _ _ _ _ _ _ _ _ _ _ _ _ _ _ _ _
    (blockAt m c 0 t) (blockAt m c 1 t) (blockAt m c 2 t) (blockAt m c 3 t) (blockAt m c 4 t) (blockAt m c 5 t) (blockAt m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation (c : Dev nD) : BodyObligation (pdata (F := F) m 0 c) (defs₀ (F := F)) Variants.none () Set.univ := fun t => by
  rw [bigSep_W0, bigSep_W0]
  exact sound_body m c t

/-! ## The run, and the arguments kept -/

set_option backward.isDefEq.respectTransparency.types false in
/-- Every weakly fair execution of @main terminates, with every array the call stages at what the proof data gives and
    every other unscoped buffer as the call found it. -/
theorem run_region : θ_run defs (onTc (τ := τ) (main (F := F))) (s₀ m ρ) (Pipeline.FramePost cfgs (pdata m) 0 (atEntry m)) :=
  Pipeline.θ_run_frame cfgs (pdata m) (0 : Fin 1) launch0 defs₀ Variants.none m ρ main
    (hbody := fun c => (body_obligation m c).loose) (hshare := fun c => (pdata m 0 c).share_full fun _ => rfl)
    (howed := fun _ _ => rfl) (V := atEntry m) (hmain := hmain m Variants.none) (hA := pdata_A m) (hΦ := fun _ _ => rfl)

/-- The program runs, faults nowhere, and leaves its sixteen argument arrays as launched. -/
theorem args_kept : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  args_kept_of m ρ (pdata m) (pdata_A m) (run_region m ρ)

/-- The same run with the result array named: it ends at what the sixty-four write-backs of the proof data leave in it. -/
theorem run_result : θ_run defs (onTc (τ := τ) (main (F := F))) ⟨m, fun _ => 0, ρ⟩ (fun r => ∀ c : Dev nD,
      r.2.mem ((c.tc : Thread nD τ).loc main_v23) = (pdata m 0 c).arrAt 7 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun _ h c => ⟨(h c).1 7,
      ((h c).2 main_arg0 (Pipeline.mem_restRefs_of main_arg0 (by decide) (by decide))).trans (atEntry_arg0 m c),
      ((h c).2 main_arg1 (Pipeline.mem_restRefs_of main_arg1 (by decide) (by decide))).trans (atEntry_arg1 m c),
      ((h c).2 main_arg2 (Pipeline.mem_restRefs_of main_arg2 (by decide) (by decide))).trans (atEntry_arg2 m c),
      ((h c).2 main_arg3 (Pipeline.mem_restRefs_of main_arg3 (by decide) (by decide))).trans (atEntry_arg3 m c),
      ((h c).2 main_arg4 (Pipeline.mem_restRefs_of main_arg4 (by decide) (by decide))).trans (atEntry_arg4 m c),
      ((h c).2 main_arg5 (Pipeline.mem_restRefs_of main_arg5 (by decide) (by decide))).trans (atEntry_arg5 m c),
      ((h c).2 main_arg6 (Pipeline.mem_restRefs_of main_arg6 (by decide) (by decide))).trans (atEntry_arg6 m c),
      ((h c).2 main_arg7 (Pipeline.mem_restRefs_of main_arg7 (by decide) (by decide))).trans (atEntry_arg7 m c),
      ((h c).2 main_arg8 (Pipeline.mem_restRefs_of main_arg8 (by decide) (by decide))).trans (atEntry_arg8 m c),
      ((h c).2 main_arg9 (Pipeline.mem_restRefs_of main_arg9 (by decide) (by decide))).trans (atEntry_arg9 m c),
      ((h c).2 main_arg10 (Pipeline.mem_restRefs_of main_arg10 (by decide) (by decide))).trans (atEntry_arg10 m c),
      ((h c).1 3).trans (((pdata m 0 c).arrAt_in 3 rfl _).trans ((pdata_A m c 3).trans (atEntry_arg11 m c))),
      ((h c).2 main_arg12 (Pipeline.mem_restRefs_of main_arg12 (by decide) (by decide))).trans (atEntry_arg12 m c),
      ((h c).1 4).trans (((pdata m 0 c).arrAt_in 4 rfl _).trans ((pdata_A m c 4).trans (atEntry_arg13 m c))),
      ((h c).2 main_arg14 (Pipeline.mem_restRefs_of main_arg14 (by decide) (by decide))).trans (atEntry_arg14 m c),
      ((h c).1 6).trans (((pdata m 0 c).arrAt_in 6 rfl _).trans ((pdata_A m c 6).trans (atEntry_arg15 m c)))⟩) (run_region m ρ)

end Cert.Kernel.Region

end
-- ==== Proof.KernelIdealRegion.lean ====
/-
  The launch side of `KernelIdeal`'s one pallas_call, at any float instance `F`.

  @main is twenty-four host operations (the sixteen index columns packed into one [262144, 16] array; the eight
  embedding tables each multiplied into their slice of W1 and stacked into one [694, 256] weight; two format changes
  and a reshape) and then the call on a grid of 64 tiles of 4096 rows. A tile's body loads the seven input blocks whole,
  computes, and stores 4096 scores whole; nothing is carried from tile to tile. So: what the call finds in each buffer
  (`atEntry`), a window's block at a tile (`blockAt`), the 4096 scores of a tile as one function of the seven input
  blocks (`scoreBlock`), the body's triple, the pipeline's proof data, the run, and from the run: every argument array
  ends as launched.
-/
import proofs.«421530_j28664611733761_3_alg».proof.Proof.Gen.KernelIdeal.Launch
import proofs.«421530_j28664611733761_3_alg».proof.Proof.Gen.KernelIdeal.Skeleton
import proofs.«421530_j28664611733761_3_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Region

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the call -/

/-- Core `c`'s buffers when the call is entered: the launch contents after the twenty-four host operations. -/
abbrev atEntry (c : Dev nD) (b : Ref sig .tc) : Buf (Elt F) ((c : Thread nD τ).loc b) :=
  StableHlo.after (List.flatten [hostOps0]) (fun b => m (c, b)) b

theorem hostOps0_fresh : (hostOps0 : List (HloOp τ sig (Elt F))).Forall fun op => op.fresh = ∅ := by
  simp only [List.Forall]; repeat' constructor

/-- @main is its host operations, then the call. -/
theorem hmain (𝒱₀ : Variants) : Pipeline.HMain (Ix := Unit) (Name := ℕ) (U := UR sig nD τ) (Lvl := ℕ) cfgs 0 defs₀ 𝒱₀ m (main (F := F)) (atEntry m) :=
  Pipeline.hmain_prefixes cfgs 0 defs₀ 𝒱₀ m main [hostOps0] (by simp only [List.Forall]; exact hostOps0_sub)
    (by simp only [List.Forall]; exact hostOps0_fresh) main_chain

/-- No host operation ahead of the call writes argument 0: the call finds it as launched. -/
theorem atEntry_arg0 (c : Dev nD) : atEntry m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation ahead of the call writes argument 1: the call finds it as launched. -/
theorem atEntry_arg1 (c : Dev nD) : atEntry m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation ahead of the call writes argument 2: the call finds it as launched. -/
theorem atEntry_arg2 (c : Dev nD) : atEntry m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation ahead of the call writes argument 3: the call finds it as launched. -/
theorem atEntry_arg3 (c : Dev nD) : atEntry m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation ahead of the call writes argument 4: the call finds it as launched. -/
theorem atEntry_arg4 (c : Dev nD) : atEntry m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation ahead of the call writes argument 5: the call finds it as launched. -/
theorem atEntry_arg5 (c : Dev nD) : atEntry m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation ahead of the call writes argument 6: the call finds it as launched. -/
theorem atEntry_arg6 (c : Dev nD) : atEntry m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation ahead of the call writes argument 7: the call finds it as launched. -/
theorem atEntry_arg7 (c : Dev nD) : atEntry m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation ahead of the call writes argument 8: the call finds it as launched. -/
theorem atEntry_arg8 (c : Dev nD) : atEntry m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation ahead of the call writes argument 9: the call finds it as launched. -/
theorem atEntry_arg9 (c : Dev nD) : atEntry m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation ahead of the call writes argument 10: the call finds it as launched. -/
theorem atEntry_arg10 (c : Dev nD) : atEntry m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation ahead of the call writes argument 11: the call finds it as launched. -/
theorem atEntry_arg11 (c : Dev nD) : atEntry m c main_arg11 = m ((c : Thread nD τ).loc main_arg11) :=
  StableHlo.after_of_forall_not_mem (b := Proc.devRef .tc main_arg11) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation ahead of the call writes argument 12: the call finds it as launched. -/
theorem atEntry_arg12 (c : Dev nD) : atEntry m c main_arg12 = m ((c : Thread nD τ).loc main_arg12) :=
  StableHlo.after_of_forall_not_mem (b := Proc.devRef .tc main_arg12) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation ahead of the call writes argument 13: the call finds it as launched. -/
theorem atEntry_arg13 (c : Dev nD) : atEntry m c main_arg13 = m ((c : Thread nD τ).loc main_arg13) :=
  StableHlo.after_of_forall_not_mem (b := Proc.devRef .tc main_arg13) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation ahead of the call writes argument 14: the call finds it as launched. -/
theorem atEntry_arg14 (c : Dev nD) : atEntry m c main_arg14 = m ((c : Thread nD τ).loc main_arg14) :=
  StableHlo.after_of_forall_not_mem (b := Proc.devRef .tc main_arg14) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation ahead of the call writes argument 15: the call finds it as launched. -/
theorem atEntry_arg15 (c : Dev nD) : atEntry m c main_arg15 = m ((c : Thread nD τ).loc main_arg15) :=
  StableHlo.after_of_forall_not_mem (b := Proc.devRef .tc main_arg15) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-! ## The windows' blocks -/

/-- Window `w`'s block at tile `t`, read off its array as the call finds it. -/
def blockAt (c : Dev nD) (w : Fin cfg0.W) (t : Fin cfg0.N) : ((cfg0.win w).xblock (cfg0.grid.coords t)).Idx → Elt F (cfg0.win w).elt :=
  ((cfg0.win w).blk t).view.read (Elt F) (atEntry m c (Pipeline.arrRef spec0 w))

/-- Input window 0's current staging buffer holds its block at every grid point, fetched there or not. -/
theorem staged0_of {c : Dev nD} (dat : Dat τ (Elt F) Unit ℕ (UR sig nD τ) ℕ cfg0 c) (hA : dat.A 0 = atEntry m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
/-- Input window 1's current staging buffer holds its block at every grid point, fetched there or not. -/
theorem staged1_of {c : Dev nD} (dat : Dat τ (Elt F) Unit ℕ (UR sig nD τ) ℕ cfg0 c) (hA : dat.A 1 = atEntry m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)
/-- Input window 2's current staging buffer holds its block at every grid point, fetched there or not. -/
theorem staged2_of {c : Dev nD} (dat : Dat τ (Elt F) Unit ℕ (UR sig nD τ) ℕ cfg0 c) (hA : dat.A 2 = atEntry m c (Pipeline.arrRef spec0 2))
    (hafter : ∀ t, dat.after 2 t = blockAt m c 2 t) (t : Fin cfg0.N) (d) : dat.before 2 t d = blockAt m c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)
/-- Input window 3's current staging buffer holds its block at every grid point, fetched there or not. -/
theorem staged3_of {c : Dev nD} (dat : Dat τ (Elt F) Unit ℕ (UR sig nD τ) ℕ cfg0 c) (hA : dat.A 3 = atEntry m c (Pipeline.arrRef spec0 3))
    (hafter : ∀ t, dat.after 3 t = blockAt m c 3 t) (t : Fin cfg0.N) (d) : dat.before 3 t d = blockAt m c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)
/-- Input window 4's current staging buffer holds its block at every grid point, fetched there or not. -/
theorem staged4_of {c : Dev nD} (dat : Dat τ (Elt F) Unit ℕ (UR sig nD τ) ℕ cfg0 c) (hA : dat.A 4 = atEntry m c (Pipeline.arrRef spec0 4))
    (hafter : ∀ t, dat.after 4 t = blockAt m c 4 t) (t : Fin cfg0.N) (d) : dat.before 4 t d = blockAt m c 4 t :=
  (dat.before_in_eq_fetched 4 rfl (fun _ => rfl) (fun _ _ _ => rfl) (fun t => by rw [hafter]; unfold Dat.blockOf blockAt; rw [hA]; try rfl) t d).trans
    (by unfold Dat.fetched Dat.blockOf blockAt; rw [hA]; try rfl)
/-- Input window 5's current staging buffer holds its block at every grid point, fetched there or not. -/
theorem staged5_of {c : Dev nD} (dat : Dat τ (Elt F) Unit ℕ (UR sig nD τ) ℕ cfg0 c) (hA : dat.A 5 = atEntry m c (Pipeline.arrRef spec0 5))
    (hafter : ∀ t, dat.after 5 t = blockAt m c 5 t) (t : Fin cfg0.N) (d) : dat.before 5 t d = blockAt m c 5 t :=
  (dat.before_in_eq_fetched 5 rfl (fun _ => rfl) (fun _ _ _ => rfl) (fun t => by rw [hafter]; unfold Dat.blockOf blockAt; rw [hA]; try rfl) t d).trans
    (by unfold Dat.fetched Dat.blockOf blockAt; rw [hA]; try rfl)
/-- Input window 6's current staging buffer holds its block at every grid point, fetched there or not. -/
theorem staged6_of {c : Dev nD} (dat : Dat τ (Elt F) Unit ℕ (UR sig nD τ) ℕ cfg0 c) (hA : dat.A 6 = atEntry m c (Pipeline.arrRef spec0 6))
    (hafter : ∀ t, dat.after 6 t = blockAt m c 6 t) (t : Fin cfg0.N) (d) : dat.before 6 t d = blockAt m c 6 t :=
  (dat.before_in_eq_fetched 6 rfl (fun _ => rfl) (fun _ _ _ => rfl) (fun t => by rw [hafter]; unfold Dat.blockOf blockAt; rw [hA]; try rfl) t d).trans
    (by unfold Dat.fetched Dat.blockOf blockAt; rw [hA]; try rfl)

/-! ## The arguments end as launched, from a run to the library's frame post -/

theorem args_kept_of (dats : (p : Fin 1) → (c : Dev nD) → Dat τ (Elt F) Unit ℕ (UR sig nD τ) ℕ (cfgs p) c)
    (hA : ∀ c w, (dats 0 c).A w = atEntry m c (Pipeline.arrRef spec0 w))
    (h : θ_run defs (onTc (τ := τ) (main (F := F))) (s₀ m ρ) (Pipeline.FramePost cfgs dats 0 (atEntry m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun _ h c => ⟨((h c).2 main_arg0 (Pipeline.mem_restRefs_of main_arg0 (by decide) (by decide))).trans (atEntry_arg0 m c),
      ((h c).2 main_arg1 (Pipeline.mem_restRefs_of main_arg1 (by decide) (by decide))).trans (atEntry_arg1 m c),
      ((h c).2 main_arg2 (Pipeline.mem_restRefs_of main_arg2 (by decide) (by decide))).trans (atEntry_arg2 m c),
      ((h c).2 main_arg3 (Pipeline.mem_restRefs_of main_arg3 (by decide) (by decide))).trans (atEntry_arg3 m c),
      ((h c).2 main_arg4 (Pipeline.mem_restRefs_of main_arg4 (by decide) (by decide))).trans (atEntry_arg4 m c),
      ((h c).2 main_arg5 (Pipeline.mem_restRefs_of main_arg5 (by decide) (by decide))).trans (atEntry_arg5 m c),
      ((h c).2 main_arg6 (Pipeline.mem_restRefs_of main_arg6 (by decide) (by decide))).trans (atEntry_arg6 m c),
      ((h c).2 main_arg7 (Pipeline.mem_restRefs_of main_arg7 (by decide) (by decide))).trans (atEntry_arg7 m c),
      ((h c).2 main_arg8 (Pipeline.mem_restRefs_of main_arg8 (by decide) (by decide))).trans (atEntry_arg8 m c),
      ((h c).2 main_arg9 (Pipeline.mem_restRefs_of main_arg9 (by decide) (by decide))).trans (atEntry_arg9 m c),
      ((h c).2 main_arg10 (Pipeline.mem_restRefs_of main_arg10 (by decide) (by decide))).trans (atEntry_arg10 m c),
      ((h c).1 3).trans (((dats 0 c).arrAt_in 3 rfl _).trans ((hA c 3).trans (atEntry_arg11 m c))),
      ((h c).2 main_arg12 (Pipeline.mem_restRefs_of main_arg12 (by decide) (by decide))).trans (atEntry_arg12 m c),
      ((h c).1 4).trans (((dats 0 c).arrAt_in 4 rfl _).trans ((hA c 4).trans (atEntry_arg13 m c))),
      ((h c).2 main_arg14 (Pipeline.mem_restRefs_of main_arg14 (by decide) (by decide))).trans (atEntry_arg14 m c),
      ((h c).1 6).trans (((dats 0 c).arrAt_in 6 rfl _).trans ((hA c 6).trans (atEntry_arg15 m c)))⟩) h

/-! ## The body's accesses: each buffer whole -/

abbrev rIdx : Rect S4096x16 := Rect.unit (s := S4096x16) ![0, 0] S4096x16.size inb_S4096x16_S4096x16_0_0
abbrev rW1 : Rect S694x256 := Rect.unit (s := S694x256) ![0, 0] S694x256.size inb_S694x256_S694x256_0_0
abbrev rW2 : Rect S256x128 := Rect.unit (s := S256x128) ![0, 0] S256x128.size inb_S256x128_S256x128_0_0
abbrev rB1 : Rect S256 := Rect.unit (s := S256) ![0] S256.size inb_S256_S256_0
abbrev rV128 : Rect S128 := Rect.unit (s := S128) ![0] S128.size inb_S128_S128_0
abbrev rB3 : Rect S1 := Rect.unit (s := S1) ![0] S1.size inb_S1_S1_0
abbrev rOut : Rect S4096 := Rect.unit (s := S4096) ![0] S4096.size inb_S4096_S4096_0

/-! ## A tile's 4096 scores -/

/-- The lane numbers 0 … 170 along each row. -/
abbrev lanes171 : IVec S4096x171 32 := iota .tc S4096x171 32 [1] iota_S4096x171_d1_w32
/-- The lane numbers 0 … 180 along each row. -/
abbrev lanes181 : IVec S4096x181 32 := iota .tc S4096x181 32 [1] iota_S4096x181_d1_w32

/-- The value the body stores, from the seven loaded blocks: the index block `ix` gives the four multi-hot pieces
    (own champion; allies' counts; enemies' counts; the five miscellaneous cards' counts), which go with the stacked
    weight, the two biases, the second weight, the last layer's row and its bias through the three layers. -/
def scores (ix : Vec F S4096x16 .i32) (w1 : Vec F S694x256 .bf16) (w2 : Vec F S256x128 .bf16) (b1 : Vec F S256 .f32) (b2 : Vec F S128 .f32)
    (w3 : Vec F S128 .f32) (b3 : Vec F S1 .f32) : FVec F S4096 .f32 :=
  k0_pay1 (k0_pay6 ix)
    (k0_pay9 (k0_pay3 ix) lanes171 (k0_pay7 ix) (k0_pay8 ix))
    (k0_pay14 lanes171 (k0_pay11 (k0_pay4 ix) lanes171 (k0_pay10 (F := F) (k0_pay4 ix) lanes171)) (k0_pay12 (k0_pay4 ix)) (k0_pay13 (k0_pay4 ix)) 170#32)
    (k0_pay17 (k0_pay5 ix) lanes181 (k0_pay15 (F := F) (k0_pay5 ix)) (k0_pay16 (k0_pay5 ix)) 0#32)
    w1 b1 w2 b2 w3 b3

/-- The output window's staging buffer after the body: its one store, of the scores of the loaded blocks. -/
def scoreBlock (x0 : Vec F S4096x16 .i32) (x1 : Vec F S694x256 .bf16) (x2 : Vec F S256x128 .bf16) (x3 : Vec F S256 .f32) (x4 : Vec F S128 .f32)
    (x5 : Vec F S128 .f32) (x6 : Vec F S1 .f32) : Vec F S4096 .f32 :=
  View.canon [⟨rOut, scores (View.ld x0 rIdx) (View.ld x1 rW1) (View.ld x2 rW2) (View.ld x3 rB1) (View.ld x4 rV128) (View.ld x5 rV128) (View.ld x6 rB3)⟩]

/-- The one store covers the buffer. -/
theorem store_covers (p0 : Vec F S4096 .f32) (y : S4096.Idx) :
    ∃ pc ∈ ([⟨rOut, p0⟩] : List (View.Piece (Elt F) S4096 .f32)), y ∈ pc.1.set :=
  View.cover_of_tiled [⟨rOut, p0⟩] S4096.size (by rfl) y

/-! ## The body's triple -/

set_option maxHeartbeats 4000000 in
/-- The body on whole staging memrefs, the inputs' at contents `xW` and the output's at anything, runs to the continuation
    holding the inputs' as they were and the output's at `scoreBlock` of the inputs'. -/
theorem tile_triple (c : Dev nD) (E : Set ℕ) (i : grid0.Coords)
    (arg1 : Memref sig .tc .vmem S4096x16 .i32) (harg1 : arg1.IsWhole) (arg2 : Memref sig .tc .vmem S694x256 .bf16) (harg2 : arg2.IsWhole)
    (arg3 : Memref sig .tc .vmem S256x128 .bf16) (harg3 : arg3.IsWhole) (arg4 : Memref sig .tc .vmem S256 .f32) (harg4 : arg4.IsWhole)
    (arg5 : Memref sig .tc .vmem S128 .f32) (harg5 : arg5.IsWhole) (arg6 : Memref sig .tc .vmem S128 .f32) (harg6 : arg6.IsWhole)
    (arg7 : Memref sig .tc .vmem S1 .f32) (harg7 : arg7.IsWhole) (arg8 : Memref sig .tc .vmem S4096 .f32) (harg8 : arg8.IsWhole)
    (x0 : Vec F S4096x16 .i32) (x1 : Vec F S694x256 .bf16) (x2 : Vec F S256x128 .bf16) (x3 : Vec F S256 .f32) (x4 : Vec F S128 .f32)
    (x5 : Vec F S128 .f32) (x6 : Vec F S1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare (scoreBlock x0 x1 x2 x3 x4 x5 x6)) -∗ K ⟨⟩))
      ⊢ wp frame (wpE (defs₀ (F := F)) Variants.none c none) E (cc0__kernel i arg1 harg1 arg2 harg2 arg3 harg3 arg4 harg4 arg5 harg5 arg6 harg6 arg7 harg7 arg8 harg8) K := by
  simp only [cc0__kernel_eq_skeleton]; unfold cc0__kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (store_covers _)

/-! ## The pipeline's proof data -/

/-- On core `c`: the arrays as the call finds them; after the body at tile `t` each input's buffer at its block and the
    output's at the scores of the input blocks; nothing of the body's own is kept between tiles. -/
def pdata (_ : Fin 1) (c : Dev nD) : Dat τ (Elt F) Unit ℕ (UR sig nD τ) ℕ cfg0 c where
  A w := atEntry m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => blockAt m c 4 t
    | ⟨5, _⟩ => blockAt m c 5 t
    | ⟨6, _⟩ => blockAt m c 6 t
    | ⟨7, _⟩ => scoreBlock (blockAt m c 0 t) (blockAt m c 1 t) (blockAt m c 2 t) (blockAt m c 3 t) (blockAt m c 4 t) (blockAt m c 5 t) (blockAt m c 6 t)
  Φ _ := Pipeline.ΦA spec0 c
  q _ := fullShare
  owed _ := 0

theorem pdata_A (c : Dev nD) (w : Fin cfg0.W) : (pdata m 0 c).A w = atEntry m c (Pipeline.arrRef spec0 w) := by
  dsimp only [pdata]

theorem after_in0 (c : Dev nD) (t : Fin cfg0.N) : (pdata m 0 c).after 0 t = blockAt m c 0 t := by dsimp only [pdata]
theorem after_in1 (c : Dev nD) (t : Fin cfg0.N) : (pdata m 0 c).after 1 t = blockAt m c 1 t := by dsimp only [pdata]
theorem after_in2 (c : Dev nD) (t : Fin cfg0.N) : (pdata m 0 c).after 2 t = blockAt m c 2 t := by dsimp only [pdata]
theorem after_in3 (c : Dev nD) (t : Fin cfg0.N) : (pdata m 0 c).after 3 t = blockAt m c 3 t := by dsimp only [pdata]
theorem after_in4 (c : Dev nD) (t : Fin cfg0.N) : (pdata m 0 c).after 4 t = blockAt m c 4 t := by dsimp only [pdata]
theorem after_in5 (c : Dev nD) (t : Fin cfg0.N) : (pdata m 0 c).after 5 t = blockAt m c 5 t := by dsimp only [pdata]
theorem after_in6 (c : Dev nD) (t : Fin cfg0.N) : (pdata m 0 c).after 6 t = blockAt m c 6 t := by dsimp only [pdata]
theorem after_out (c : Dev nD) (t : Fin cfg0.N) : (pdata m 0 c).after 7 t
    = scoreBlock (blockAt m c 0 t) (blockAt m c 1 t) (blockAt m c 2 t) (blockAt m c 3 t) (blockAt m c 4 t) (blockAt m c 5 t) (blockAt m c 6 t) := by dsimp only [pdata]

theorem staged0 (c : Dev nD) (t : Fin cfg0.N) (d) : (pdata m 0 c).before 0 t d = blockAt m c 0 t :=
  staged0_of m (pdata m 0 c) (pdata_A m c 0) (after_in0 m c) t d
theorem staged1 (c : Dev nD) (t : Fin cfg0.N) (d) : (pdata m 0 c).before 1 t d = blockAt m c 1 t :=
  staged1_of m (pdata m 0 c) (pdata_A m c 1) (after_in1 m c) t d
theorem staged2 (c : Dev nD) (t : Fin cfg0.N) (d) : (pdata m 0 c).before 2 t d = blockAt m c 2 t :=
  staged2_of m (pdata m 0 c) (pdata_A m c 2) (after_in2 m c) t d
theorem staged3 (c : Dev nD) (t : Fin cfg0.N) (d) : (pdata m 0 c).before 3 t d = blockAt m c 3 t :=
  staged3_of m (pdata m 0 c) (pdata_A m c 3) (after_in3 m c) t d
theorem staged4 (c : Dev nD) (t : Fin cfg0.N) (d) : (pdata m 0 c).before 4 t d = blockAt m c 4 t :=
  staged4_of m (pdata m 0 c) (pdata_A m c 4) (after_in4 m c) t d
theorem staged5 (c : Dev nD) (t : Fin cfg0.N) (d) : (pdata m 0 c).before 5 t d = blockAt m c 5 t :=
  staged5_of m (pdata m 0 c) (pdata_A m c 5) (after_in5 m c) t d
theorem staged6 (c : Dev nD) (t : Fin cfg0.N) (d) : (pdata m 0 c).before 6 t d = blockAt m c 6 t :=
  staged6_of m (pdata m 0 c) (pdata_A m c 6) (after_in6 m c) t d

/-! ## The body obligation, at any tile -/

def bodyPre (c : Dev nD) (t : Fin cfg0.N) : sProp 𝕄 :=
  iprop((pdata m 0 c).Φ t.castSucc ∗ (pdata m 0 c).owesAt () t.castSucc
    ∗ (∃ d, owns (c : Thread nD τ) (st0_0 t) fullShare ((pdata m 0 c).before 0 t d))
    ∗ (∃ d, owns (c : Thread nD τ) (st0_1 t) fullShare ((pdata m 0 c).before 1 t d))
    ∗ (∃ d, owns (c : Thread nD τ) (st0_2 t) fullShare ((pdata m 0 c).before 2 t d))
    ∗ (∃ d, owns (c : Thread nD τ) (st0_3 t) fullShare ((pdata m 0 c).before 3 t d))
    ∗ (∃ d, owns (c : Thread nD τ) (st0_4 t) fullShare ((pdata m 0 c).before 4 t d))
    ∗ (∃ d, owns (c : Thread nD τ) (st0_5 t) fullShare ((pdata m 0 c).before 5 t d))
    ∗ (∃ d, owns (c : Thread nD τ) (st0_6 t) fullShare ((pdata m 0 c).before 6 t d))
    ∗ (∃ d, owns (c : Thread nD τ) (st0_7 t) fullShare ((pdata m 0 c).before 7 t d)))

def bodyPost (c : Dev nD) (t : Fin cfg0.N) : sProp 𝕄 :=
  iprop((pdata m 0 c).Φ t.succ ∗ (pdata m 0 c).owesAt () t.succ
    ∗ owns (c : Thread nD τ) (st0_0 t) fullShare ((pdata m 0 c).after 0 t)
    ∗ owns (c : Thread nD τ) (st0_1 t) fullShare ((pdata m 0 c).after 1 t)
    ∗ owns (c : Thread nD τ) (st0_2 t) fullShare ((pdata m 0 c).after 2 t)
    ∗ owns (c : Thread nD τ) (st0_3 t) fullShare ((pdata m 0 c).after 3 t)
    ∗ owns (c : Thread nD τ) (st0_4 t) fullShare ((pdata m 0 c).after 4 t)
    ∗ owns (c : Thread nD τ) (st0_5 t) fullShare ((pdata m 0 c).after 5 t)
    ∗ owns (c : Thread nD τ) (st0_6 t) fullShare ((pdata m 0 c).after 6 t)
    ∗ owns (c : Thread nD τ) (st0_7 t) fullShare ((pdata m 0 c).after 7 t))

set_option maxHeartbeats 1000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [staged0, staged1, staged2, staged3, staged4, staged5, staged6]
  rw [show (pdata m 0 c).Φ t.succ = (pdata m 0 c).Φ t.castSucc from rfl,
    show (pdata m 0 c).owesAt () t.succ = (pdata m 0 c).owesAt () t.castSucc from rfl,
    after_in0, after_in1, after_in2, after_in3, after_in4, after_in5, after_in6, after_out]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (tile_triple c Set.univ (grid0.coords t) _ _ _ _ _ _ _ _ _ _ _ _ _ _ _ _
    (blockAt m c 0 t) (blockAt m c 1 t) (blockAt m c 2 t) (blockAt m c 3 t) (blockAt m c 4 t) (blockAt m c 5 t) (blockAt m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation (c : Dev nD) : BodyObligation (pdata (F := F) m 0 c) (defs₀ (F := F)) Variants.none () Set.univ := fun t => by
  rw [bigSep_W0, bigSep_W0]
  exact sound_body m c t

/-! ## The run, and the arguments kept -/

set_option backward.isDefEq.respectTransparency.types false in
/-- Every weakly fair execution of @main terminates, with every array the call stages at what the proof data gives and
    every other unscoped buffer as the call found it. -/
theorem run_region : θ_run defs (onTc (τ := τ) (main (F := F))) (s₀ m ρ) (Pipeline.FramePost cfgs (pdata m) 0 (atEntry m)) :=
  Pipeline.θ_run_frame cfgs (pdata m) (0 : Fin 1) launch0 defs₀ Variants.none m ρ main
    (hbody := fun c => (body_obligation m c).loose) (hshare := fun c => (pdata m 0 c).share_full fun _ => rfl)
    (howed := fun _ _ => rfl) (V := atEntry m) (hmain := hmain m Variants.none) (hA := pdata_A m) (hΦ := fun _ _ => rfl)

/-- The program runs, faults nowhere, and leaves its sixteen argument arrays as launched. -/
theorem args_kept : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  args_kept_of m ρ (pdata m) (pdata_A m) (run_region m ρ)

/-- The same run with the result array named: it ends at what the sixty-four write-backs of the proof data leave in it. -/
theorem run_result : θ_run defs (onTc (τ := τ) (main (F := F))) ⟨m, fun _ => 0, ρ⟩ (fun r => ∀ c : Dev nD,
      r.2.mem ((c.tc : Thread nD τ).loc main_v23) = (pdata m 0 c).arrAt 7 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun _ h c => ⟨(h c).1 7,
      ((h c).2 main_arg0 (Pipeline.mem_restRefs_of main_arg0 (by decide) (by decide))).trans (atEntry_arg0 m c),
      ((h c).2 main_arg1 (Pipeline.mem_restRefs_of main_arg1 (by decide) (by decide))).trans (atEntry_arg1 m c),
      ((h c).2 main_arg2 (Pipeline.mem_restRefs_of main_arg2 (by decide) (by decide))).trans (atEntry_arg2 m c),
      ((h c).2 main_arg3 (Pipeline.mem_restRefs_of main_arg3 (by decide) (by decide))).trans (atEntry_arg3 m c),
      ((h c).2 main_arg4 (Pipeline.mem_restRefs_of main_arg4 (by decide) (by decide))).trans (atEntry_arg4 m c),
      ((h c).2 main_arg5 (Pipeline.mem_restRefs_of main_arg5 (by decide) (by decide))).trans (atEntry_arg5 m c),
      ((h c).2 main_arg6 (Pipeline.mem_restRefs_of main_arg6 (by decide) (by decide))).trans (atEntry_arg6 m c),
      ((h c).2 main_arg7 (Pipeline.mem_restRefs_of main_arg7 (by decide) (by decide))).trans (atEntry_arg7 m c),
      ((h c).2 main_arg8 (Pipeline.mem_restRefs_of main_arg8 (by decide) (by decide))).trans (atEntry_arg8 m c),
      ((h c).2 main_arg9 (Pipeline.mem_restRefs_of main_arg9 (by decide) (by decide))).trans (atEntry_arg9 m c),
      ((h c).2 main_arg10 (Pipeline.mem_restRefs_of main_arg10 (by decide) (by decide))).trans (atEntry_arg10 m c),
      ((h c).1 3).trans (((pdata m 0 c).arrAt_in 3 rfl _).trans ((pdata_A m c 3).trans (atEntry_arg11 m c))),
      ((h c).2 main_arg12 (Pipeline.mem_restRefs_of main_arg12 (by decide) (by decide))).trans (atEntry_arg12 m c),
      ((h c).1 4).trans (((pdata m 0 c).arrAt_in 4 rfl _).trans ((pdata_A m c 4).trans (atEntry_arg13 m c))),
      ((h c).2 main_arg14 (Pipeline.mem_restRefs_of main_arg14 (by decide) (by decide))).trans (atEntry_arg14 m c),
      ((h c).1 6).trans (((pdata m 0 c).arrAt_in 6 rfl _).trans ((pdata_A m c 6).trans (atEntry_arg15 m c)))⟩) (run_region m ρ)

end Cert.KernelIdeal.Region

end
-- ==== Proof.Spec.lean ====
/-
  The mathematics both programs compute, over plain finite index types.

  A batch row carries sixteen index words; fifteen of them each select a row of an embedding table (a negative word, or
  one past the table's end, selects the table's last row). The reference gathers those rows — own champion; the four
  allies' rows summed; the five enemies' rows summed; one row of each of five small tables — into 272 features and
  multiplies by W1. The kernel instead multiplies a 694-wide multi-hot row (an indicator, two count vectors, five
  indicators) by the stacked products "table times its slice of W1". Both then add a bias, clip at zero, multiply by W2,
  add a bias, clip at zero, and take the inner product with W3's column plus a bias. `pre_eq` (in the next module) is the
  one law that joins them: a multi-hot row times (table · slice) is the gathered rows times the slice.
-/
import Idealize.ShloMosaic.Lib.ValueIdx

noncomputable section

open scoped BigOperators

namespace Cert.Spec

open Idealize.ShloMosaic Idealize.ShloMosaic.ValueIdx

/-- Which of a table's `n` rows an index word selects: the word read as a signed integer, a negative one sent to the
    last row, and anything past the end held at the last row. -/
def rowOf (n : ℕ) (x : BitVec 32) : ℕ := min (if x.toInt < 0 then n - 1 else x.toInt.toNat) (n - 1)

theorem rowOf_lt {n : ℕ} (hn : 0 < n) (x : BitVec 32) : rowOf n x < n :=
  Nat.lt_of_le_of_lt (Nat.min_le_right _ _) (Nat.sub_lt hn Nat.one_pos)

/-- The selected row as an element of `Fin n`. -/
def rowFin (n : ℕ) (hn : 0 < n) (x : BitVec 32) : Fin n := ⟨rowOf n x, rowOf_lt hn x⟩

/-- The table rows one batch row selects. -/
structure Sel where
  my : Fin 171
  ally : Fin 4 → Fin 171
  enem : Fin 5 → Fin 171
  sp : Fin 33
  pri : Fin 9
  sub : Fin 9
  key : Fin 65
  pat : Fin 65

/-- The selection made by a row's sixteen packed words: word 0 the own champion, 1–4 the allies, 5–9 the enemies,
    10–14 the five small tables (word 15 is padding). -/
def Sel.ofWords (w : Fin 16 → BitVec 32) : Sel where
  my := rowFin 171 (by decide) (w 0)
  ally c := rowFin 171 (by decide) (w ⟨1 + c.val, by omega⟩)
  enem c := rowFin 171 (by decide) (w ⟨5 + c.val, by omega⟩)
  sp := rowFin 33 (by decide) (w 10)
  pri := rowFin 9 (by decide) (w 11)
  sub := rowFin 9 (by decide) (w 12)
  key := rowFin 65 (by decide) (w 13)
  pat := rowFin 65 (by decide) (w 14)

/-- The six embedding tables and the first layer's weight, as extended reals. -/
structure Tables where
  champ : Fin 171 → Fin 64 → EReal
  sp : Fin 33 → Fin 16 → EReal
  pri : Fin 9 → Fin 16 → EReal
  sub : Fin 9 → Fin 16 → EReal
  key : Fin 65 → Fin 16 → EReal
  pat : Fin 65 → Fin 16 → EReal
  W1 : Fin 272 → Fin 256 → EReal

/-- Every entry of every table is a real number. -/
def Tables.IsReal (t : Tables) : Prop :=
  (∀ j i, ∃ v : ℝ, t.champ j i = (v : EReal)) ∧ (∀ j i, ∃ v : ℝ, t.sp j i = (v : EReal)) ∧ (∀ j i, ∃ v : ℝ, t.pri j i = (v : EReal))
    ∧ (∀ j i, ∃ v : ℝ, t.sub j i = (v : EReal)) ∧ (∀ j i, ∃ v : ℝ, t.key j i = (v : EReal)) ∧ (∀ j i, ∃ v : ℝ, t.pat j i = (v : EReal))
    ∧ (∀ i k, ∃ v : ℝ, t.W1 i k = (v : EReal))

/-- What follows the first matrix product: two biases, the second weight, the last layer's column and its bias. -/
structure Tail where
  b1 : Fin 256 → EReal
  W2 : Fin 256 → Fin 128 → EReal
  b2 : Fin 128 → EReal
  w3 : Fin 128 → EReal
  b3 : EReal

/-- The indicator of `a = j`. -/
def hot {n : ℕ} (a j : Fin n) : EReal := if a = j then 1 else 0

/-- The 694-wide multi-hot row of a selection: lanes 0–170 the own champion's indicator, 171–341 the allies' counts,
    342–512 the enemies' counts, then the five small tables' indicators at 513, 546, 555, 564 and 629. -/
def mhot (s : Sel) (j : Fin 694) : EReal :=
  if h : j.val < 171 then hot s.my ⟨j.val, h⟩
  else if h : j.val < 342 then ∑ c : Fin 4, hot (s.ally c) ⟨j.val - 171, by omega⟩
  else if h : j.val < 513 then ∑ c : Fin 5, hot (s.enem c) ⟨j.val - 342, by omega⟩
  else if h : j.val < 546 then hot s.sp ⟨j.val - 513, by omega⟩
  else if h : j.val < 555 then hot s.pri ⟨j.val - 546, by omega⟩
  else if h : j.val < 564 then hot s.sub ⟨j.val - 555, by omega⟩
  else if h : j.val < 629 then hot s.key ⟨j.val - 564, by omega⟩
  else hot s.pat ⟨j.val - 629, by have := j.isLt; omega⟩

/-- Row `j` of a table times the `d` rows of W1 that start at `off`, at column `k`. -/
def wrow {n d : ℕ} (T : Fin n → Fin d → EReal) (W1 : Fin 272 → Fin 256 → EReal) (off : ℕ) (hoff : off + d ≤ 272) (j : Fin n) (k : Fin 256) : EReal :=
  ∑ i : Fin d, T j i * W1 ⟨off + i.val, by have := i.isLt; omega⟩ k

/-- The stacked 694 × 256 weight: the champion table against W1's rows 0–63, 64–127 and 128–191, then the five small
    tables against rows 192, 208, 224, 240 and 256 onwards. -/
def fused (t : Tables) (j : Fin 694) (k : Fin 256) : EReal :=
  if h : j.val < 171 then wrow t.champ t.W1 0 (by decide) ⟨j.val, h⟩ k
  else if h : j.val < 342 then wrow t.champ t.W1 64 (by decide) ⟨j.val - 171, by omega⟩ k
  else if h : j.val < 513 then wrow t.champ t.W1 128 (by decide) ⟨j.val - 342, by omega⟩ k
  else if h : j.val < 546 then wrow t.sp t.W1 192 (by decide) ⟨j.val - 513, by omega⟩ k
  else if h : j.val < 555 then wrow t.pri t.W1 208 (by decide) ⟨j.val - 546, by omega⟩ k
  else if h : j.val < 564 then wrow t.sub t.W1 224 (by decide) ⟨j.val - 555, by omega⟩ k
  else if h : j.val < 629 then wrow t.key t.W1 240 (by decide) ⟨j.val - 564, by omega⟩ k
  else wrow t.pat t.W1 256 (by decide) ⟨j.val - 629, by have := j.isLt; omega⟩ k

/-- The 272 gathered features of a selection: the own champion's row; the allies' rows summed; the enemies' rows
    summed; the selected row of each small table. -/
def feat (t : Tables) (s : Sel) (i : Fin 272) : EReal :=
  if h : i.val < 64 then t.champ s.my ⟨i.val, h⟩
  else if h : i.val < 128 then ∑ c : Fin 4, t.champ (s.ally c) ⟨i.val - 64, by omega⟩
  else if h : i.val < 192 then ∑ c : Fin 5, t.champ (s.enem c) ⟨i.val - 128, by omega⟩
  else if h : i.val < 208 then t.sp s.sp ⟨i.val - 192, by omega⟩
  else if h : i.val < 224 then t.pri s.pri ⟨i.val - 208, by omega⟩
  else if h : i.val < 240 then t.sub s.sub ⟨i.val - 224, by omega⟩
  else if h : i.val < 256 then t.key s.key ⟨i.val - 240, by omega⟩
  else t.pat s.pat ⟨i.val - 256, by have := i.isLt; omega⟩

/-- The two later layers on a row's 256 first-layer sums `pre`. -/
def mlp (u : Tail) (pre : Fin 256 → EReal) : EReal :=
  (∑ n : Fin 128, max ((∑ k : Fin 256, max (pre k + u.b1 k) 0 * u.W2 k n) + u.b2 n) 0 * u.w3 n) + u.b3

/-! ## The argument arrays as tables -/

/-- Row `r`'s sixteen words of a sixteen-column array of index words. -/
def rowW {R : ℕ} (X : (⟨2, ![R, 16]⟩ : Shape).Idx → BitVec 32) (r : Fin R) : Fin 16 → BitVec 32 := fun a => X (ix2 r a)

/-- A row's sixteen packed words from the four index arrays: [my | ally ×4 | enemy ×5 | misc ×5 | 0]. -/
def packWords (x0 : (⟨1, ![262144]⟩ : Shape).Idx → BitVec 32) (x1 : (⟨2, ![262144, 4]⟩ : Shape).Idx → BitVec 32)
    (x2 x3 : (⟨2, ![262144, 5]⟩ : Shape).Idx → BitVec 32) (r : Fin 262144) (a : Fin 16) : BitVec 32 :=
  if a.val = 0 then x0 (ix1 r)
  else if h : a.val < 5 then x1 (ix2 r ⟨a.val - 1, by omega⟩)
  else if h : a.val < 10 then x2 (ix2 r ⟨a.val - 5, by omega⟩)
  else if h : a.val < 15 then x3 (ix2 r ⟨a.val - 10, by omega⟩)
  else 0#32

def tablesOf (x4 : (⟨2, ![171, 64]⟩ : Shape).Idx → EReal) (x5 : (⟨2, ![33, 16]⟩ : Shape).Idx → EReal)
    (x6 x7 : (⟨2, ![9, 16]⟩ : Shape).Idx → EReal) (x8 x9 : (⟨2, ![65, 16]⟩ : Shape).Idx → EReal)
    (x10 : (⟨2, ![272, 256]⟩ : Shape).Idx → EReal) : Tables where
  champ j i := x4 (ix2 j i)
  sp j i := x5 (ix2 j i)
  pri j i := x6 (ix2 j i)
  sub j i := x7 (ix2 j i)
  key j i := x8 (ix2 j i)
  pat j i := x9 (ix2 j i)
  W1 i k := x10 (ix2 i k)

def tailOf (x11 : (⟨1, ![256]⟩ : Shape).Idx → EReal) (x12 : (⟨2, ![256, 128]⟩ : Shape).Idx → EReal)
    (x13 : (⟨1, ![128]⟩ : Shape).Idx → EReal) (x14 : (⟨2, ![128, 1]⟩ : Shape).Idx → EReal)
    (x15 : (⟨1, ![1]⟩ : Shape).Idx → EReal) : Tail where
  b1 k := x11 (ix1 k)
  W2 k n := x12 (ix2 k n)
  b2 n := x13 (ix1 n)
  w3 n := x14 (ix2 n (0 : Fin 1))
  b3 := x15 (ix1 (0 : Fin 1))

end Cert.Spec

end
-- ==== Proof.BodyTail.lean ====
/-
  The kernel body after its multi-hot pieces, read at one row of a tile, at the ideal values: the four pieces are laid
  side by side into a 694-wide row, multiplied into the stacked weight (a sum over the 694 lanes), and then pass the
  bias, the clip at zero, the second weight (a sum over 256), its bias and clip, and the inner product with the last
  layer's row (a sum over 128) plus its bias.
-/
import proofs.«421530_j28664611733761_3_alg».proof.Proof.Gen.KernelIdeal.Skeleton
import proofs.«421530_j28664611733761_3_alg».proof.Proof.Spec
import Idealize.ShloMosaic.Lib.Pipeline.Value
import Idealize.ShloMosaic.Lib.ValueLayout
import Idealize.ShloMosaic.PureOps.Ideal.Laws

noncomputable section

open scoped BigOperators

namespace Cert.KernelIdeal.Body

open Idealize.ShloMosaic Idealize.ShloMosaic.ValueIdx Cert.KernelIdeal Cert.KernelIdeal.Gen

/-- Lane `j` of row `p` of the four pieces laid side by side (widths 171, 171, 171, 181). -/
def catRow (v19 v80 v156 : FVec Ideal S4096x171 .bf16) (v243 : FVec Ideal S4096x181 .bf16) (p : Fin 4096) (j : Fin 694) : EReal :=
  if h : j.val < 171 then v19 (ix2 p ⟨j.val, h⟩)
  else if h : j.val < 342 then v80 (ix2 p ⟨j.val - 171, by omega⟩)
  else if h : j.val < 513 then v156 (ix2 p ⟨j.val - 342, by omega⟩)
  else v243 (ix2 p ⟨j.val - 513, by have := j.isLt; omega⟩)

/-- The later layers' parameters as the body holds them in its loaded blocks. -/
def blockTail (w2 : FVec Ideal S256x128 .bf16) (b1 : FVec Ideal S256 .f32) (b2 w3 : FVec Ideal S128 .f32) (b3 : FVec Ideal S1 .f32) : Spec.Tail where
  b1 k := b1 (ix1 k)
  W2 k n := w2 (ix2 k n)
  b2 n := b2 (ix1 n)
  w3 n := w3 (ix1 n)
  b3 := b3 (ix1 (0 : Fin 1))

/-! ## The side-by-side row -/

/-- The concatenation along the lanes, read at row `p` and lane `j`: the piece whose span holds `j`, at `j` less the
    widths before it. -/
private theorem cat_apply (v19 v80 v156 : FVec Ideal S4096x171 .bf16) (v243 : FVec Ideal S4096x181 .bf16) (p : Fin 4096) (j : Fin 694) :
    concatenate S4096x694 1 [⟨S4096x171, v19⟩, ⟨S4096x171, v80⟩, ⟨S4096x171, v156⟩, ⟨S4096x181, v243⟩] concatenates_S4096x171_S4096x171_S4096x171_S4096x181_S4096x694_d1 (ix2 p j)
      = catRow v19 v80 v156 v243 p j := by
  unfold catRow
  by_cases h1 : j.val < 171
  · rw [dif_pos h1]
    refine concatenate_apply_piece (t := S4096x694) (1 : Fin 2) [⟨S4096x171, v19⟩, ⟨S4096x171, v80⟩, ⟨S4096x171, v156⟩, ⟨S4096x181, v243⟩] concatenates_S4096x171_S4096x171_S4096x171_S4096x181_S4096x694_d1 (ix2 p j) 0 (show 0 < 4 by omega) S4096x171 v19 rfl rfl 0 rfl
      (ix2 p ⟨j.val, h1⟩) (fun b hb => ?_) ?_
    · match b with
      | ⟨0, _⟩ => rfl
      | ⟨1, _⟩ => exact absurd rfl hb
    · show 0 + j.val = j.val
      omega
  · rw [dif_neg h1]
    by_cases h2 : j.val < 342
    · rw [dif_pos h2]
      refine concatenate_apply_piece (t := S4096x694) (1 : Fin 2) [⟨S4096x171, v19⟩, ⟨S4096x171, v80⟩, ⟨S4096x171, v156⟩, ⟨S4096x181, v243⟩] concatenates_S4096x171_S4096x171_S4096x171_S4096x181_S4096x694_d1 (ix2 p j) 1 (show 1 < 4 by omega) S4096x171 v80 rfl rfl 171 rfl
        (ix2 p ⟨j.val - 171, by omega⟩) (fun b hb => ?_) ?_
      · match b with
        | ⟨0, _⟩ => rfl
        | ⟨1, _⟩ => exact absurd rfl hb
      · show 171 + (j.val - 171) = j.val
        omega
    · rw [dif_neg h2]
      by_cases h3 : j.val < 513
      · rw [dif_pos h3]
        refine concatenate_apply_piece (t := S4096x694) (1 : Fin 2) [⟨S4096x171, v19⟩, ⟨S4096x171, v80⟩, ⟨S4096x171, v156⟩, ⟨S4096x181, v243⟩] concatenates_S4096x171_S4096x171_S4096x171_S4096x181_S4096x694_d1 (ix2 p j) 2 (show 2 < 4 by omega) S4096x171 v156 rfl rfl 342 rfl
          (ix2 p ⟨j.val - 342, by omega⟩) (fun b hb => ?_) ?_
        · match b with
          | ⟨0, _⟩ => rfl
          | ⟨1, _⟩ => exact absurd rfl hb
        · show 342 + (j.val - 342) = j.val
          omega
      · rw [dif_neg h3]
        refine concatenate_apply_piece (t := S4096x694) (1 : Fin 2) [⟨S4096x171, v19⟩, ⟨S4096x171, v80⟩, ⟨S4096x171, v156⟩, ⟨S4096x181, v243⟩] concatenates_S4096x171_S4096x171_S4096x171_S4096x181_S4096x694_d1 (ix2 p j) 3 (show 3 < 4 by omega) S4096x181 v243 rfl rfl 513 rfl
          (ix2 p ⟨j.val - 513, by have := j.isLt; omega⟩) (fun b hb => ?_) ?_
        · match b with
          | ⟨0, _⟩ => rfl
          | ⟨1, _⟩ => exact absurd rfl hb
        · show 513 + (j.val - 513) = j.val
          omega

/-! ## The two matrix products at an entry -/

/-- Row axis of the first product's left operand: the output's row. -/
private theorem lhs1_0 (i : S4096x256.Idx) (q : dot_S4096x694_S694x256_S4096x256_1_0_0_1_n_n.contr.Idx) :
    (dot_S4096x694_S694x256_S4096x256_1_0_0_1_n_n.lhsIdx i q 0).val = (i 0).val := by
  unfold DotDims.lhsIdx
  rw [dif_neg (show ¬(0 : Fin S4096x694.rank) ∈ dot_S4096x694_S694x256_S4096x256_1_0_0_1_n_n.lhsBatch by decide), dif_pos (show (0 : Fin S4096x694.rank) ∈ dot_S4096x694_S694x256_S4096x256_1_0_0_1_n_n.lhsNonContracting by decide)]
  rfl
/-- Lane axis of the first product's left operand: the contracted coordinate. -/
private theorem lhs1_1 (i : S4096x256.Idx) (q : dot_S4096x694_S694x256_S4096x256_1_0_0_1_n_n.contr.Idx) :
    (dot_S4096x694_S694x256_S4096x256_1_0_0_1_n_n.lhsIdx i q 1).val = (q ⟨0, by decide⟩).val :=
  dot_S4096x694_S694x256_S4096x256_1_0_0_1_n_n.lhsIdx_val_of_single rfl i q
/-- Row axis of the first product's right operand: the contracted coordinate. -/
private theorem rhs1_0 (i : S4096x256.Idx) (q : dot_S4096x694_S694x256_S4096x256_1_0_0_1_n_n.contr.Idx) :
    (dot_S4096x694_S694x256_S4096x256_1_0_0_1_n_n.rhsIdx i q 0).val = (q ⟨0, by decide⟩).val :=
  dot_S4096x694_S694x256_S4096x256_1_0_0_1_n_n.rhsIdx_val_of_single rfl i q
/-- Column axis of the first product's right operand: the output's column. -/
private theorem rhs1_1 (i : S4096x256.Idx) (q : dot_S4096x694_S694x256_S4096x256_1_0_0_1_n_n.contr.Idx) :
    (dot_S4096x694_S694x256_S4096x256_1_0_0_1_n_n.rhsIdx i q 1).val = (i 1).val := by
  unfold DotDims.rhsIdx
  rw [dif_neg (show ¬(1 : Fin S694x256.rank) ∈ dot_S4096x694_S694x256_S4096x256_1_0_0_1_n_n.rhsBatch by decide), dif_pos (show (1 : Fin S694x256.rank) ∈ dot_S4096x694_S694x256_S4096x256_1_0_0_1_n_n.rhsNonContracting by decide)]
  rfl

/-- The 4096×694 by 694×256 product into the zero accumulator at (p, k): the sum over the 694 lanes. -/
private theorem mm1_apply (A : FVec Ideal S4096x694 .bf16) (B : FVec Ideal S694x256 .bf16) (p : Fin 4096) (k : Fin 256) :
    matmul (F := Ideal) dot_S4096x694_S694x256_S4096x256_1_0_0_1_n_n none A B (constant S4096x256 .f32 0x00000000#32) (ix2 p k)
      = ∑ j : Fin 694, A (ix2 p j) * B (ix2 j k) := by
  show FloatOps.matmul dot_S4096x694_S694x256_S4096x256_1_0_0_1_n_n none A B (constant S4096x256 .f32 0x00000000#32) (ix2 p k) = _
  rw [Ideal.matmul_constant_zero_apply, ← Equiv.sum_comp (contrEquiv1 dot_S4096x694_S694x256_S4096x256_1_0_0_1_n_n 694 rfl rfl).symm]
  refine Finset.sum_congr rfl fun j _ => ?_
  have hk := contrEquiv1_symm_val dot_S4096x694_S694x256_S4096x256_1_0_0_1_n_n 694 rfl rfl j
  have el : dot_S4096x694_S694x256_S4096x256_1_0_0_1_n_n.lhsIdx (ix2 p k) ((contrEquiv1 dot_S4096x694_S694x256_S4096x256_1_0_0_1_n_n 694 rfl rfl).symm j) = ix2 p j := funext fun a => Fin.ext (by
    match a with
    | ⟨0, _⟩ => exact lhs1_0 _ _
    | ⟨1, _⟩ => exact (lhs1_1 _ _).trans hk)
  have er : dot_S4096x694_S694x256_S4096x256_1_0_0_1_n_n.rhsIdx (ix2 p k) ((contrEquiv1 dot_S4096x694_S694x256_S4096x256_1_0_0_1_n_n 694 rfl rfl).symm j) = ix2 j k := funext fun a => Fin.ext (by
    match a with
    | ⟨0, _⟩ => exact (rhs1_0 _ _).trans hk
    | ⟨1, _⟩ => exact rhs1_1 _ _)
  rw [el, er]

/-- Row axis of the second product's left operand: the output's row. -/
private theorem lhs2_0 (i : S4096x128.Idx) (q : dot_S4096x256_S256x128_S4096x128_1_0_0_1_n_n.contr.Idx) :
    (dot_S4096x256_S256x128_S4096x128_1_0_0_1_n_n.lhsIdx i q 0).val = (i 0).val := by
  unfold DotDims.lhsIdx
  rw [dif_neg (show ¬(0 : Fin S4096x256.rank) ∈ dot_S4096x256_S256x128_S4096x128_1_0_0_1_n_n.lhsBatch by decide), dif_pos (show (0 : Fin S4096x256.rank) ∈ dot_S4096x256_S256x128_S4096x128_1_0_0_1_n_n.lhsNonContracting by decide)]
  rfl
/-- Lane axis of the second product's left operand: the contracted coordinate. -/
private theorem lhs2_1 (i : S4096x128.Idx) (q : dot_S4096x256_S256x128_S4096x128_1_0_0_1_n_n.contr.Idx) :
    (dot_S4096x256_S256x128_S4096x128_1_0_0_1_n_n.lhsIdx i q 1).val = (q ⟨0, by decide⟩).val :=
  dot_S4096x256_S256x128_S4096x128_1_0_0_1_n_n.lhsIdx_val_of_single rfl i q
/-- Row axis of the second product's right operand: the contracted coordinate. -/
private theorem rhs2_0 (i : S4096x128.Idx) (q : dot_S4096x256_S256x128_S4096x128_1_0_0_1_n_n.contr.Idx) :
    (dot_S4096x256_S256x128_S4096x128_1_0_0_1_n_n.rhsIdx i q 0).val = (q ⟨0, by decide⟩).val :=
  dot_S4096x256_S256x128_S4096x128_1_0_0_1_n_n.rhsIdx_val_of_single rfl i q
/-- Column axis of the second product's right operand: the output's column. -/
private theorem rhs2_1 (i : S4096x128.Idx) (q : dot_S4096x256_S256x128_S4096x128_1_0_0_1_n_n.contr.Idx) :
    (dot_S4096x256_S256x128_S4096x128_1_0_0_1_n_n.rhsIdx i q 1).val = (i 1).val := by
  unfold DotDims.rhsIdx
  rw [dif_neg (show ¬(1 : Fin S256x128.rank) ∈ dot_S4096x256_S256x128_S4096x128_1_0_0_1_n_n.rhsBatch by decide), dif_pos (show (1 : Fin S256x128.rank) ∈ dot_S4096x256_S256x128_S4096x128_1_0_0_1_n_n.rhsNonContracting by decide)]
  rfl

/-- The 4096×256 by 256×128 product into the zero accumulator at (p, n): the sum over the 256 hidden units. -/
private theorem mm2_apply (A : FVec Ideal S4096x256 .bf16) (B : FVec Ideal S256x128 .bf16) (p : Fin 4096) (n : Fin 128) :
    matmul (F := Ideal) dot_S4096x256_S256x128_S4096x128_1_0_0_1_n_n none A B (constant S4096x128 .f32 0x00000000#32) (ix2 p n)
      = ∑ k : Fin 256, A (ix2 p k) * B (ix2 k n) := by
  show FloatOps.matmul dot_S4096x256_S256x128_S4096x128_1_0_0_1_n_n none A B (constant S4096x128 .f32 0x00000000#32) (ix2 p n) = _
  rw [Ideal.matmul_constant_zero_apply, ← Equiv.sum_comp (contrEquiv1 dot_S4096x256_S256x128_S4096x128_1_0_0_1_n_n 256 rfl rfl).symm]
  refine Finset.sum_congr rfl fun k _ => ?_
  have hk := contrEquiv1_symm_val dot_S4096x256_S256x128_S4096x128_1_0_0_1_n_n 256 rfl rfl k
  have el : dot_S4096x256_S256x128_S4096x128_1_0_0_1_n_n.lhsIdx (ix2 p n) ((contrEquiv1 dot_S4096x256_S256x128_S4096x128_1_0_0_1_n_n 256 rfl rfl).symm k) = ix2 p k := funext fun a => Fin.ext (by
    match a with
    | ⟨0, _⟩ => exact lhs2_0 _ _
    | ⟨1, _⟩ => exact (lhs2_1 _ _).trans hk)
  have er : dot_S4096x256_S256x128_S4096x128_1_0_0_1_n_n.rhsIdx (ix2 p n) ((contrEquiv1 dot_S4096x256_S256x128_S4096x128_1_0_0_1_n_n 256 rfl rfl).symm k) = ix2 k n := funext fun a => Fin.ext (by
    match a with
    | ⟨0, _⟩ => exact (rhs2_0 _ _).trans hk
    | ⟨1, _⟩ => exact rhs2_1 _ _)
  rw [el, er]

/-! ## A vector laid as one row and copied down the rows; the lane sum; the scalar copied down a column -/

/-- A length-`n` vector viewed as a 1×n row and copied into every row of an m×n matrix: entry (r, k) is the vector's
    entry k. -/
private theorem row_bcast_apply {α : Type} {m n : Nat} (x : (⟨1, ![n]⟩ : Shape).Idx → α)
    (hc : (⟨1, ![n]⟩ : Shape).ShapeCasts ⟨2, ![1, n]⟩) (hb : (⟨2, ![1, n]⟩ : Shape).Broadcasts ⟨2, ![m, n]⟩) (hn : n ≠ 1)
    (r : Fin m) (k : Fin n) :
    broadcastTo ⟨2, ![m, n]⟩ (shapeCast ⟨2, ![1, n]⟩ x hc) hb (ix2 r k) = x (ix1 k) := by
  refine (broadcastTo_apply _ hb (ix2 r k) (ix2 ⟨0, Nat.one_pos⟩ k) (fun ax => ?_)).trans ?_
  · match ax with
    | ⟨0, _⟩ => show (0 : Nat) = if (1 : Nat) = 1 then 0 else _; rw [if_pos rfl]
    | ⟨1, _⟩ => show k.val = if n = 1 then 0 else k.val; rw [if_neg hn]
  · refine shapeCast_apply x hc _ (ix1 k) ?_
    rw [Shape.rowMajor_val_one, Shape.rowMajor_val_two]
    show k.val = 0 * n + k.val
    omega

/-- The sum along the 128 lanes of a 4096×128 matrix, at row `p`. -/
private theorem rowsum_apply (src : FVec Ideal S4096x128 .f32) (p : Fin 4096) :
    multiReduction (F := Ideal) .add [1] S4096 src 0x00000000#32 reduces_S4096x128_S4096 (.inl rfl) rfl (ix1 p)
      = ∑ n : Fin 128, src (ix2 p n) := by
  refine (Ideal.multiReduction_add_single src _ reduces_S4096x128_S4096 _ _ (ix1 p)).trans ?_
  refine Finset.sum_congr rfl fun n _ => congrArg src (funext fun a => Fin.ext ?_)
  match a with
  | ⟨0, _⟩ => rfl
  | ⟨1, _⟩ => rfl

/-- A one-entry vector copied to every entry of a length-4096 vector. -/
private theorem one_bcast_apply {α : Type} (x : S1.Idx → α) (p : Fin 4096) :
    broadcastTo S4096 x broadcasts_S1_S4096 (ix1 p) = x (ix1 (0 : Fin 1)) :=
  broadcastTo_apply x broadcasts_S1_S4096 (ix1 p) (ix1 (0 : Fin 1)) (fun ax => by
    match ax with
    | ⟨0, _⟩ => show (0 : Nat) = if (1 : Nat) = 1 then 0 else _; rw [if_pos rfl])

/-- The zero word of the 32-bit format, as a scalar, is the number zero. -/
private theorem scalar_zero_f32 : Scalar.ofBits (F := Ideal) .f32 0x00000000#32 = (0 : EReal) :=
  Ideal.ofBits_zero_f32

/-! ## The three stages of the body after the row is laid out -/

/-- First stage: the row times the stacked weight, plus the first bias, clipped at zero. -/
private def stage1 (X : FVec Ideal S4096x694 .bf16) (w1 : FVec Ideal S694x256 .bf16) (b1 : FVec Ideal S256 .f32) : FVec Ideal S4096x256 .bf16 :=
  truncf .bf16 (maximumf (addf (matmul dot_S4096x694_S694x256_S4096x256_1_0_0_1_n_n none X (shapeCast S694x256 w1 shapeCasts_S694x256_S694x256) (constant (F := Ideal) S4096x256 .f32 0x00000000#32))
    (broadcastTo S4096x256 (shapeCast S1x256 b1 shapeCasts_S256_S1x256) broadcasts_S1x256_S4096x256))
    (broadcast S4096x256 (Scalar.ofBits (F := Ideal) .f32 0x00000000#32))) bitsLt_bf16_f32

/-- Second stage: the hidden row times the second weight, plus the second bias, clipped at zero. -/
private def stage2 (H : FVec Ideal S4096x256 .bf16) (w2 : FVec Ideal S256x128 .bf16) (b2 : FVec Ideal S128 .f32) : FVec Ideal S4096x128 .f32 :=
  maximumf (addf (matmul dot_S4096x256_S256x128_S4096x128_1_0_0_1_n_n none H (shapeCast S256x128 w2 shapeCasts_S256x128_S256x128) (constant (F := Ideal) S4096x128 .f32 0x00000000#32))
    (broadcastTo S4096x128 (shapeCast S1x128 b2 shapeCasts_S128_S1x128) broadcasts_S1x128_S4096x128))
    (broadcast S4096x128 (Scalar.ofBits (F := Ideal) .f32 0x00000000#32))

/-- Third stage: the inner product with the last layer's row, plus the last bias. -/
private def stage3 (G : FVec Ideal S4096x128 .f32) (w3 : FVec Ideal S128 .f32) (b3 : FVec Ideal S1 .f32) : FVec Ideal S4096 .f32 :=
  addf (multiReduction (F := Ideal) .add [1] S4096
      (mulf G (broadcastTo S4096x128 (shapeCast S1x128 (shapeCast S128 w3 shapeCasts_S128_S128) shapeCasts_S128_S1x128) broadcasts_S1x128_S4096x128))
      0x00000000#32 reduces_S4096x128_S4096 (.inl rfl) rfl)
    (broadcastTo S4096 b3 broadcasts_S1_S4096)

/-- The first stage at (p, k): max(∑ⱼ X(p, j) · w1(j, k) + b1(k), 0). The cast of the weight to its own shape is the
    identity, the product is the lane sum, the bias row reads its entry k. -/
private theorem stage1_apply (X : FVec Ideal S4096x694 .bf16) (w1 : FVec Ideal S694x256 .bf16) (b1 : FVec Ideal S256 .f32)
    (p : Fin 4096) (k : Fin 256) :
    stage1 X w1 b1 (ix2 p k) = max ((∑ j : Fin 694, X (ix2 p j) * w1 (ix2 j k)) + b1 (ix1 k)) 0 := by
  unfold stage1
  rw [shapeCast_self]
  show max (matmul (F := Ideal) dot_S4096x694_S694x256_S4096x256_1_0_0_1_n_n none X w1 (constant (F := Ideal) S4096x256 .f32 0x00000000#32) (ix2 p k)
      + broadcastTo S4096x256 (shapeCast S1x256 b1 shapeCasts_S256_S1x256) broadcasts_S1x256_S4096x256 (ix2 p k))
    (Scalar.ofBits (F := Ideal) .f32 0x00000000#32) = _
  rw [mm1_apply, row_bcast_apply b1 shapeCasts_S256_S1x256 broadcasts_S1x256_S4096x256 (by decide), scalar_zero_f32]

/-- The second stage at (p, n): max(∑ₖ H(p, k) · w2(k, n) + b2(n), 0). -/
private theorem stage2_apply (H : FVec Ideal S4096x256 .bf16) (w2 : FVec Ideal S256x128 .bf16) (b2 : FVec Ideal S128 .f32)
    (p : Fin 4096) (n : Fin 128) :
    stage2 H w2 b2 (ix2 p n) = max ((∑ k : Fin 256, H (ix2 p k) * w2 (ix2 k n)) + b2 (ix1 n)) 0 := by
  unfold stage2
  rw [shapeCast_self]
  show max (matmul (F := Ideal) dot_S4096x256_S256x128_S4096x128_1_0_0_1_n_n none H w2 (constant (F := Ideal) S4096x128 .f32 0x00000000#32) (ix2 p n)
      + broadcastTo S4096x128 (shapeCast S1x128 b2 shapeCasts_S128_S1x128) broadcasts_S1x128_S4096x128 (ix2 p n))
    (Scalar.ofBits (F := Ideal) .f32 0x00000000#32) = _
  rw [mm2_apply, row_bcast_apply b2 shapeCasts_S128_S1x128 broadcasts_S1x128_S4096x128 (by decide), scalar_zero_f32]

/-- The third stage at row p: ∑ₙ G(p, n) · w3(n) + b3. -/
private theorem stage3_apply (G : FVec Ideal S4096x128 .f32) (w3 : FVec Ideal S128 .f32) (b3 : FVec Ideal S1 .f32) (p : Fin 4096) :
    stage3 G w3 b3 (ix1 p) = (∑ n : Fin 128, G (ix2 p n) * w3 (ix1 n)) + b3 (ix1 (0 : Fin 1)) := by
  unfold stage3
  rw [shapeCast_self]
  show multiReduction (F := Ideal) .add [1] S4096
      (mulf G (broadcastTo S4096x128 (shapeCast S1x128 w3 shapeCasts_S128_S1x128) broadcasts_S1x128_S4096x128))
      0x00000000#32 reduces_S4096x128_S4096 (.inl rfl) rfl (ix1 p)
    + broadcastTo S4096 b3 broadcasts_S1_S4096 (ix1 p) = _
  rw [rowsum_apply, one_bcast_apply]
  refine congrArg (· + b3 (ix1 (0 : Fin 1))) (Finset.sum_congr rfl fun n _ => ?_)
  show G (ix2 p n) * broadcastTo S4096x128 (shapeCast S1x128 w3 shapeCasts_S128_S1x128) broadcasts_S1x128_S4096x128 (ix2 p n) = _
  rw [row_bcast_apply w3 shapeCasts_S128_S1x128 broadcasts_S1x128_S4096x128 (by decide)]

/-- The stored value is the three stages applied to the side-by-side row: the definitions unfold to the same term. -/
private theorem pay1_eq_stages (v19 v80 v156 : FVec Ideal S4096x171 .bf16) (v243 : FVec Ideal S4096x181 .bf16)
    (w1 : FVec Ideal S694x256 .bf16) (b1 : FVec Ideal S256 .f32) (w2 : FVec Ideal S256x128 .bf16) (b2 w3 : FVec Ideal S128 .f32) (b3 : FVec Ideal S1 .f32) :
    k0_pay1 (F := Ideal) v19 v80 v156 v243 w1 b1 w2 b2 w3 b3
      = stage3 (stage2 (stage1 (concatenate S4096x694 1 [⟨S4096x171, v19⟩, ⟨S4096x171, v80⟩, ⟨S4096x171, v156⟩, ⟨S4096x181, v243⟩] concatenates_S4096x171_S4096x171_S4096x171_S4096x181_S4096x694_d1) w1 b1) w2 b2) w3 b3 :=
  rfl

theorem pay1_apply (v19 v80 v156 : FVec Ideal S4096x171 .bf16) (v243 : FVec Ideal S4096x181 .bf16)
    (w1 : FVec Ideal S694x256 .bf16) (b1 : FVec Ideal S256 .f32) (w2 : FVec Ideal S256x128 .bf16) (b2 w3 : FVec Ideal S128 .f32) (b3 : FVec Ideal S1 .f32)
    (p : Fin 4096) :
    k0_pay1 (F := Ideal) v19 v80 v156 v243 w1 b1 w2 b2 w3 b3 (ix1 p)
      = Spec.mlp (blockTail w2 b1 b2 w3 b3) (fun k => ∑ j : Fin 694, catRow v19 v80 v156 v243 p j * w1 (ix2 j k)) := by
  rw [pay1_eq_stages, stage3_apply]
  show _ = (∑ n : Fin 128, max ((∑ k : Fin 256, max ((∑ j : Fin 694, catRow v19 v80 v156 v243 p j * w1 (ix2 j k)) + b1 (ix1 k)) 0
      * w2 (ix2 k n)) + b2 (ix1 n)) 0 * w3 (ix1 n)) + b3 (ix1 (0 : Fin 1))
  simp only [stage2_apply, stage1_apply, cat_apply]

end Cert.KernelIdeal.Body

end
-- ==== Proof.BodyHot.lean ====
/-
  The first three multi-hot pieces of the kernel body, read at row `p`, lane `j`, at the ideal values. Each compares a
  column of the row's index words — a negative word replaced by 170, then held at 170 — with the lane number, and turns
  the one-bit answer into 1 or 0: the own champion's indicator; the four allies' indicators added up from zero; the five
  enemies' likewise.
-/
import proofs.«421530_j28664611733761_3_alg».proof.Proof.Gen.KernelIdeal.Skeleton
import proofs.«421530_j28664611733761_3_alg».proof.Proof.Spec
import Idealize.ShloMosaic.Lib.Pipeline.Value
import Idealize.ShloMosaic.Lib.ValueLayout
import Idealize.ShloMosaic.PureOps.Ideal.Laws

noncomputable section

open scoped BigOperators

namespace Cert.KernelIdeal.Body

open Idealize.ShloMosaic Idealize.ShloMosaic.ValueIdx Cert.KernelIdeal Cert.KernelIdeal.Gen

/-! ## Words: the clamped index word against a lane number -/

/-- A column's index word as the kernel uses it: a negative word replaced by 170, then held at 170. -/
private def fixw (x : BitVec 32) : BitVec 32 :=
  IntOp.minsi (Scalar.select (IntOp.cmpi .slt x 0#32) 170#32 x) 170#32

private theorem toInt_170 : (170#32 : BitVec 32).toInt = 170 := by decide
private theorem toInt_0 : (0#32 : BitVec 32).toInt = 0 := by decide

/-- Read as a signed integer the clamped word is the row of a 171-row table the word selects. -/
private theorem fixw_toInt (x : BitVec 32) : (fixw x).toInt = (Spec.rowOf 171 x : ℕ) := by
  unfold fixw IntOp.minsi IntOp.cmpi Scalar.select Spec.rowOf
  simp only [BitVec.slt, toInt_0, toInt_170]
  by_cases h : x.toInt < 0
  · simp [h, toInt_170]
  · simp only [h, decide_false, BitVec.ofBool_false]
    by_cases h2 : x.toInt < 170
    · simp [h2]
      omega
    · simp [h2, toInt_170]
      omega

/-- A lane number below 171 read back as a signed integer. -/
private theorem ofNat_toInt (j : ℕ) (hj : j < 171) : (BitVec.ofNat 32 j).toInt = (j : ℤ) := by
  have hn : (BitVec.ofNat 32 j).toNat = j := by rw [BitVec.toNat_ofNat]; omega
  rw [BitVec.toInt_eq_toNat_of_lt (by rw [hn]; omega), hn]

/-- The clamped word is lane `j`'s number exactly when the word selects row `j`. -/
private theorem fixw_eq_iff (x : BitVec 32) (j : ℕ) (hj : j < 171) : fixw x = BitVec.ofNat 32 j ↔ Spec.rowOf 171 x = j := by
  rw [← BitVec.toInt_inj, fixw_toInt, ofNat_toInt j hj]
  exact Int.ofNat_inj

/-- The one-bit answer of the comparison, widened and converted, is the indicator of the selected row at the lane. -/
private theorem lane_word (x : BitVec 32) (j : Fin 171) :
    (FloatOps.sitofp (F := Ideal) .f32 ((IntOp.cmpi .eq (fixw x) (BitVec.ofNat 32 j.val)).setWidth 32) : Ideal .f32)
      = Spec.hot (Spec.rowFin 171 (by decide) x) j := by
  show (((((IntOp.cmpi .eq (fixw x) (BitVec.ofNat 32 j.val)).setWidth 32).toInt : ℤ) : ℝ) : EReal) = _
  unfold Spec.hot Spec.rowFin IntOp.cmpi
  by_cases h : Spec.rowOf 171 x = j.val
  · have e : fixw x = BitVec.ofNat 32 j.val := (fixw_eq_iff x j.val j.isLt).2 h
    rw [if_pos (Fin.ext h), e]
    simp
  · have e : ¬ fixw x = BitVec.ofNat 32 j.val := fun e => h ((fixw_eq_iff x j.val j.isLt).1 e)
    have eb : (fixw x == BitVec.ofNat 32 j.val) = false := by simpa using e
    rw [if_neg (fun e' => h (congrArg Fin.val e')), eb]
    simp

/-! ## One column's lanes -/

/-- A column of index words, each clamped. -/
private def clampCol (col : IVec S4096 32) : IVec S4096 32 :=
  minsi (select (cmpi .slt col (broadcast S4096 0#32)) (broadcast S4096 170#32) col) (broadcast S4096 170#32)

/-- The clamped column spread along the 171 lanes and compared with the lane numbers. -/
private def eqLane (col : IVec S4096 32) : IVec S4096x171 1 :=
  cmpi .eq (broadcastTo S4096x171 (shapeCast S4096x1 (clampCol col) shapeCasts_S4096_S4096x1) broadcasts_S4096x1_S4096x171)
    (iota .tc S4096x171 32 [1] iota_S4096x171_d1_w32)

/-- The comparison's bits as numbers. -/
private def hotLane (m : IVec S4096x171 1) : FVec Ideal S4096x171 .bf16 :=
  truncf .bf16 (sitofp (F := Ideal) .f32 (extui 32 m natLt_1_32)) bitsLt_bf16_f32

/-- Row `p`, lane `j` of a column's comparison, as a number, is the indicator of the row that column's word selects. -/
private theorem hotLane_apply (col : IVec S4096 32) (p : Fin 4096) (j : Fin 171) :
    hotLane (eqLane col) (ix2 p j) = Spec.hot (Spec.rowFin 171 (by decide) (col (ix1 p))) j := by
  have hb : broadcastTo S4096x171 (shapeCast S4096x1 (clampCol col) shapeCasts_S4096_S4096x1) broadcasts_S4096x1_S4096x171 (ix2 p j)
      = fixw (col (ix1 p)) := by
    refine (broadcastTo_apply _ _ (ix2 p j) (ix2 p (0 : Fin 1)) ?_).trans ?_
    · intro a
      match a with
      | ⟨0, _⟩ => rfl
      | ⟨1, _⟩ => rfl
    refine (shapeCast_apply _ _ (ix2 p (0 : Fin 1)) (ix1 p) ?_).trans ?_
    · rw [Shape.rowMajor_val_one, Shape.rowMajor_val_two]
      show p.val = p.val * 1 + 0
      omega
    rfl
  have hi : iota .tc S4096x171 32 [1] iota_S4096x171_d1_w32 (ix2 p j) = BitVec.ofNat 32 j.val :=
    iota_single_apply _ _ _ _ _ _
  show FloatOps.sitofp (F := Ideal) .f32 ((IntOp.cmpi .eq
      (broadcastTo S4096x171 (shapeCast S4096x1 (clampCol col) shapeCasts_S4096_S4096x1) broadcasts_S4096x1_S4096x171 (ix2 p j))
      (iota .tc S4096x171 32 [1] iota_S4096x171_d1_w32 (ix2 p j))).setWidth 32) = _
  rw [hb, hi]
  exact lane_word _ j

/-! ## The columns of the block -/

/-- Column `c` of a 4096-row array of words, as a vector of 4096 words, reads row `p`'s word `c`. -/
private theorem col_apply {w : ℕ} (X : (⟨2, ![4096, w]⟩ : Shape).Idx → BitVec 32) (c : ℕ) (hc : c < w)
    (h : (⟨2, ![4096, w]⟩ : Shape).Slices ![0, c] S4096x1) (p : Fin 4096) :
    shapeCast S4096 (extractStridedSlice S4096x1 ![0, c] X h) shapeCasts_S4096x1_S4096 (ix1 p) = X (ix2 p ⟨c, hc⟩) := by
  refine (shapeCast_apply _ _ (ix1 p) (ix2 p (0 : Fin 1)) ?_).trans ?_
  · rw [Shape.rowMajor_val_one, Shape.rowMajor_val_two]
    show p.val * 1 + 0 = p.val
    omega
  refine extractStridedSlice_apply _ _ _ (ix2 p (0 : Fin 1)) (ix2 p ⟨c, hc⟩) ?_
  intro a
  match a with
  | ⟨0, _⟩ => exact (Nat.zero_add _).symm
  | ⟨1, _⟩ => rfl

/-- The block's words, cast to their own shape, are the block's words. -/
private theorem pay2_eq (ix : Vec Ideal S4096x16 .i32) : k0_pay2 (F := Ideal) ix = ix := shapeCast_self _ _

/-- The allies' four columns are the block's columns 1 to 4. -/
private theorem pay3_apply (ix : Vec Ideal S4096x16 .i32) (p : Fin 4096) (c : Fin 4) :
    k0_pay3 (F := Ideal) ix (ix2 p c) = ix (ix2 p (⟨1 + c.val, by omega⟩ : Fin 16)) := by
  show extractStridedSlice S4096x4 ![0, 1] (k0_pay2 ix) slices_S4096x16_o0_1_S4096x4 (ix2 p c) = _
  refine (extractStridedSlice_apply _ _ _ (ix2 p c) (ix2 p (⟨1 + c.val, by omega⟩ : Fin 16)) ?_).trans (congrFun (pay2_eq ix) _)
  intro a
  match a with
  | ⟨0, _⟩ => exact (Nat.zero_add _).symm
  | ⟨1, _⟩ => rfl

/-- The enemies' five columns are the block's columns 5 to 9. -/
private theorem pay4_apply (ix : Vec Ideal S4096x16 .i32) (p : Fin 4096) (c : Fin 5) :
    k0_pay4 (F := Ideal) ix (ix2 p c) = ix (ix2 p (⟨5 + c.val, by omega⟩ : Fin 16)) := by
  show extractStridedSlice S4096x5 ![0, 5] (k0_pay2 ix) slices_S4096x16_o0_5_S4096x5 (ix2 p c) = _
  refine (extractStridedSlice_apply _ _ _ (ix2 p c) (ix2 p (⟨5 + c.val, by omega⟩ : Fin 16)) ?_).trans (congrFun (pay2_eq ix) _)
  intro a
  match a with
  | ⟨0, _⟩ => exact (Nat.zero_add _).symm
  | ⟨1, _⟩ => rfl

/-- The bf16 zero pattern is the extended real `0`. -/
private theorem zero_bf16 : (Scalar.ofBits (F := Ideal) .bf16 0x0000#16 : Ideal .bf16) = 0 := by
  show Ideal.ofBits .bf16 0x0000#16 = 0
  simp [Ideal.ofBits, Ideal.ieee]

/-! ## The three pieces -/

/-- At a lane shifted up by a whole table and back, the indicator is the lane's. -/
private theorem hot_shift (a j : Fin 171) (k : ℕ) (h : k + j.val - k < 171) : Spec.hot a ⟨k + j.val - k, h⟩ = Spec.hot a j := by
  congr 1
  exact Fin.ext (Nat.add_sub_cancel_left k j.val)

theorem hot_my (ix : Vec Ideal S4096x16 .i32) (p : Fin 4096) (j : Fin 171) :
    k0_pay6 (F := Ideal) ix (ix2 p j) = Spec.mhot (Spec.Sel.ofWords (Spec.rowW ix p)) ⟨j.val, by have := j.isLt; omega⟩ := by
  have hl : k0_pay6 (F := Ideal) ix (ix2 p j)
      = hotLane (eqLane (shapeCast S4096 (extractStridedSlice S4096x1 ![0, 0] (k0_pay2 ix) slices_S4096x16_o0_0_S4096x1) shapeCasts_S4096x1_S4096)) (ix2 p j) := rfl
  rw [hl, hotLane_apply, col_apply (k0_pay2 ix) 0 (by decide), pay2_eq]
  unfold Spec.mhot
  rw [dif_pos (show (⟨j.val, by have := j.isLt; omega⟩ : Fin 694).val < 171 from j.isLt)]
  rfl

theorem hot_ally (ix : Vec Ideal S4096x16 .i32) (p : Fin 4096) (j : Fin 171) :
    k0_pay9 (F := Ideal) (k0_pay3 ix) (iota .tc S4096x171 32 [1] iota_S4096x171_d1_w32) (k0_pay7 ix) (k0_pay8 ix) (ix2 p j)
      = Spec.mhot (Spec.Sel.ofWords (Spec.rowW ix p)) ⟨171 + j.val, by have := j.isLt; omega⟩ := by
  have hl : k0_pay9 (F := Ideal) (k0_pay3 ix) (iota .tc S4096x171 32 [1] iota_S4096x171_d1_w32) (k0_pay7 ix) (k0_pay8 ix) (ix2 p j)
      = (((Scalar.ofBits (F := Ideal) .bf16 0x0000#16
        + hotLane (eqLane (shapeCast S4096 (extractStridedSlice S4096x1 ![0, 0] (k0_pay3 ix) slices_S4096x4_o0_0_S4096x1) shapeCasts_S4096x1_S4096)) (ix2 p j))
        + hotLane (eqLane (shapeCast S4096 (extractStridedSlice S4096x1 ![0, 1] (k0_pay3 ix) slices_S4096x4_o0_1_S4096x1) shapeCasts_S4096x1_S4096)) (ix2 p j))
        + hotLane (eqLane (shapeCast S4096 (extractStridedSlice S4096x1 ![0, 2] (k0_pay3 ix) slices_S4096x4_o0_2_S4096x1) shapeCasts_S4096x1_S4096)) (ix2 p j))
        + hotLane (eqLane (shapeCast S4096 (extractStridedSlice S4096x1 ![0, 3] (k0_pay3 ix) slices_S4096x4_o0_3_S4096x1) shapeCasts_S4096x1_S4096)) (ix2 p j) := rfl
  rw [hl, zero_bf16, zero_add, hotLane_apply, hotLane_apply, hotLane_apply, hotLane_apply,
    col_apply (k0_pay3 ix) 0 (by decide), col_apply (k0_pay3 ix) 1 (by decide), col_apply (k0_pay3 ix) 2 (by decide),
    col_apply (k0_pay3 ix) 3 (by decide), pay3_apply, pay3_apply, pay3_apply, pay3_apply]
  unfold Spec.mhot
  rw [dif_neg (show ¬ (⟨171 + j.val, by have := j.isLt; omega⟩ : Fin 694).val < 171 from Nat.not_lt.2 (Nat.le_add_right _ _)),
    dif_pos (show (⟨171 + j.val, by have := j.isLt; omega⟩ : Fin 694).val < 342 from by have := j.isLt; show 171 + j.val < 342; omega),
    Fin.sum_univ_four]
  simp only [hot_shift]
  rfl

theorem hot_enem (ix : Vec Ideal S4096x16 .i32) (p : Fin 4096) (j : Fin 171) :
    k0_pay14 (F := Ideal) (iota .tc S4096x171 32 [1] iota_S4096x171_d1_w32)
        (k0_pay11 (k0_pay4 ix) (iota .tc S4096x171 32 [1] iota_S4096x171_d1_w32) (k0_pay10 (F := Ideal) (k0_pay4 ix) (iota .tc S4096x171 32 [1] iota_S4096x171_d1_w32)))
        (k0_pay12 (k0_pay4 ix)) (k0_pay13 (k0_pay4 ix)) 170#32 (ix2 p j)
      = Spec.mhot (Spec.Sel.ofWords (Spec.rowW ix p)) ⟨342 + j.val, by have := j.isLt; omega⟩ := by
  have hl : k0_pay14 (F := Ideal) (iota .tc S4096x171 32 [1] iota_S4096x171_d1_w32)
        (k0_pay11 (k0_pay4 ix) (iota .tc S4096x171 32 [1] iota_S4096x171_d1_w32) (k0_pay10 (F := Ideal) (k0_pay4 ix) (iota .tc S4096x171 32 [1] iota_S4096x171_d1_w32)))
        (k0_pay12 (k0_pay4 ix)) (k0_pay13 (k0_pay4 ix)) 170#32 (ix2 p j)
      = ((((Scalar.ofBits (F := Ideal) .bf16 0x0000#16
        + hotLane (eqLane (shapeCast S4096 (extractStridedSlice S4096x1 ![0, 0] (k0_pay4 ix) slices_S4096x5_o0_0_S4096x1) shapeCasts_S4096x1_S4096)) (ix2 p j))
        + hotLane (eqLane (shapeCast S4096 (extractStridedSlice S4096x1 ![0, 1] (k0_pay4 ix) slices_S4096x5_o0_1_S4096x1) shapeCasts_S4096x1_S4096)) (ix2 p j))
        + hotLane (eqLane (shapeCast S4096 (extractStridedSlice S4096x1 ![0, 2] (k0_pay4 ix) slices_S4096x5_o0_2_S4096x1) shapeCasts_S4096x1_S4096)) (ix2 p j))
        + hotLane (eqLane (shapeCast S4096 (extractStridedSlice S4096x1 ![0, 3] (k0_pay4 ix) slices_S4096x5_o0_3_S4096x1) shapeCasts_S4096x1_S4096)) (ix2 p j))
        + hotLane (eqLane (shapeCast S4096 (extractStridedSlice S4096x1 ![0, 4] (k0_pay4 ix) slices_S4096x5_o0_4_S4096x1) shapeCasts_S4096x1_S4096)) (ix2 p j) := rfl
  rw [hl, zero_bf16, zero_add, hotLane_apply, hotLane_apply, hotLane_apply, hotLane_apply, hotLane_apply,
    col_apply (k0_pay4 ix) 0 (by decide), col_apply (k0_pay4 ix) 1 (by decide), col_apply (k0_pay4 ix) 2 (by decide),
    col_apply (k0_pay4 ix) 3 (by decide), col_apply (k0_pay4 ix) 4 (by decide),
    pay4_apply, pay4_apply, pay4_apply, pay4_apply, pay4_apply]
  unfold Spec.mhot
  rw [dif_neg (show ¬ (⟨342 + j.val, by have := j.isLt; omega⟩ : Fin 694).val < 171 from by show ¬ 342 + j.val < 171; omega),
    dif_neg (show ¬ (⟨342 + j.val, by have := j.isLt; omega⟩ : Fin 694).val < 342 from Nat.not_lt.2 (Nat.le_add_right _ _)),
    dif_pos (show (⟨342 + j.val, by have := j.isLt; omega⟩ : Fin 694).val < 513 from by have := j.isLt; show 342 + j.val < 513; omega),
    Fin.sum_univ_five]
  simp only [hot_shift]
  rfl

end Cert.KernelIdeal.Body

end
-- ==== Proof.BodyHotMisc.lean ====
/-
  The fourth multi-hot piece of the kernel body, read at row `p`, lane `j` of 181, at the ideal values: the five small
  tables' indicators side by side. Column 10 + q of the row's index words — a negative word replaced by the table's last
  row, then held there — is moved by the table's offset (0, 33, 42, 51, 116) and compared with the lane number; the five
  one-bit answers are added up from zero. A lane lies in exactly one table's span, so at most one of the five is set.
-/
import proofs.«421530_j28664611733761_3_alg».proof.Proof.Gen.KernelIdeal.Skeleton
import proofs.«421530_j28664611733761_3_alg».proof.Proof.Spec
import Idealize.ShloMosaic.Lib.Pipeline.Value
import Idealize.ShloMosaic.Lib.ValueLayout
import Idealize.ShloMosaic.PureOps.Ideal.Laws

noncomputable section

open scoped BigOperators

namespace Cert.KernelIdeal.Body

open Idealize.ShloMosaic Idealize.ShloMosaic.ValueIdx Cert.KernelIdeal Cert.KernelIdeal.Gen

/-! ## Words -/

private theorem toNat_ofNat_small (m : ℕ) (hm : m < 2 ^ 31) : (BitVec.ofNat 32 m).toNat = m := by
  rw [BitVec.toNat_ofNat]; exact Nat.mod_eq_of_lt (by omega)

private theorem toInt_ofNat_small (m : ℕ) (hm : m < 2 ^ 31) : (BitVec.ofNat 32 m).toInt = (m : Int) := by
  rw [BitVec.toInt_eq_toNat_of_lt (by rw [toNat_ofNat_small m hm]; omega), toNat_ofNat_small m hm]

/-- A word with the negative ones sent to `m` and then held at `m` (signed) is the row it selects among `m + 1`. -/
private theorem clamp_eq (m : ℕ) (hm : m < 2 ^ 31) (x : BitVec 32) :
    IntOp.minsi (Scalar.select (IntOp.cmpi .slt x 0#32) (BitVec.ofNat 32 m) x) (BitVec.ofNat 32 m)
      = BitVec.ofNat 32 (Spec.rowOf (m + 1) x) := by
  have hmI := toInt_ofNat_small m hm
  unfold Spec.rowOf IntOp.minsi IntOp.cmpi Scalar.select
  by_cases hx : x.toInt < 0
  · have h1 : x.slt 0#32 = true := by
      rw [BitVec.slt_eq_decide, BitVec.toInt_zero]; exact decide_eq_true hx
    have h2 : (BitVec.ofNat 32 m).slt (BitVec.ofNat 32 m) = false := by
      rw [BitVec.slt_eq_decide]; exact decide_eq_false (lt_irrefl _)
    simp only [h1, h2, BitVec.ofBool_true, if_true, if_pos hx, ite_self, Nat.add_sub_cancel, Nat.min_self]
  · have h1 : x.slt 0#32 = false := by
      rw [BitVec.slt_eq_decide, BitVec.toInt_zero]; exact decide_eq_false hx
    have h01 : ¬ ((0 : BitVec 1) = 1) := by decide
    simp only [h1, BitVec.ofBool_false, if_neg h01, if_neg hx, Nat.add_sub_cancel]
    by_cases hlt : x.toInt < (m : Int)
    · have h2 : x.slt (BitVec.ofNat 32 m) = true := by
        rw [BitVec.slt_eq_decide, hmI]; exact decide_eq_true hlt
      have hxN : x.toInt = (x.toNat : Int) := by
        have := BitVec.toInt_eq_toNat_cond x
        split at this
        · exact this
        · have := x.isLt; omega
      rw [h2, if_pos rfl, Nat.min_eq_left (by omega), hxN, Int.toNat_natCast, BitVec.ofNat_toNat, BitVec.setWidth_eq]
    · have h2 : x.slt (BitVec.ofNat 32 m) = false := by
        rw [BitVec.slt_eq_decide, hmI]; exact decide_eq_false hlt
      rw [h2, if_neg (by decide), Nat.min_eq_right (by omega)]

/-- The selected row moved by the table's offset meets a lane number exactly when the naturals agree: nothing wraps. -/
private theorem moved_eq_iff (m off j : ℕ) (hm : m < 2 ^ 31 - 200) (hoff : off < 200) (hj : j < 181) (x : BitVec 32) :
    IntOp.addi (IntOp.minsi (Scalar.select (IntOp.cmpi .slt x 0#32) (BitVec.ofNat 32 m) x) (BitVec.ofNat 32 m)) (BitVec.ofNat 32 off)
      = BitVec.ofNat 32 j ↔ Spec.rowOf (m + 1) x + off = j := by
  rw [clamp_eq m (by omega) x]
  have hr : Spec.rowOf (m + 1) x < m + 1 := Spec.rowOf_lt (Nat.succ_pos m) x
  unfold IntOp.addi
  rw [BitVec.ofNat_add_ofNat, ← BitVec.toNat_inj, toNat_ofNat_small _ (by omega), toNat_ofNat_small _ (by omega)]

/-- A one-bit answer widened to a word and read as a signed integer is 1 or 0. -/
private theorem bit_val (b : Bool) : ((((BitVec.ofBool b).setWidth 32).toInt : ℝ) : EReal) = if b then 1 else 0 := by
  cases b
  · have h : ((BitVec.ofBool false).setWidth 32).toInt = 0 := by decide
    rw [h]; simp
  · have h : ((BitVec.ofBool true).setWidth 32).toInt = 1 := by decide
    rw [h]; simp

/-- The all-zero bf16 pattern is the number zero. -/
private theorem zero_bf16 : Ideal.ofBits .bf16 0x0000#16 = 0 := by simp [Ideal.ofBits, Ideal.ieee]

/-- Column `q` of the five small-table words, as a vector over the rows. -/
private def colw (off : Fin 2 → ℕ) (h : S4096x5.Slices off S4096x1) (v6 : IVec S4096x5 32) : IVec S4096 32 :=
  shapeCast S4096 (extractStridedSlice S4096x1 off v6 h) shapeCasts_S4096x1_S4096

/-- One table's one-bit answer on every lane. -/
private def term (w : IVec S4096 32) (z m off : BitVec 32) : FVec Ideal S4096x181 .bf16 :=
  truncf .bf16 (sitofp .f32 (extui 32 (cmpi .eq (broadcastTo S4096x181 (shapeCast S4096x1 (addi (minsi (select (cmpi .slt w (broadcast S4096 z)) (broadcast S4096 m) w) (broadcast S4096 m)) (broadcast S4096 off)) shapeCasts_S4096_S4096x1) broadcasts_S4096x1_S4096x181) (iota .tc S4096x181 32 [1] iota_S4096x181_d1_w32)) natLt_1_32)) bitsLt_bf16_f32

private theorem pay15_eq (v6 : IVec S4096x5 32) :
    k0_pay15 (F := Ideal) v6 = addf (addf (broadcast S4096x181 (Scalar.ofBits .bf16 0x0000#16))
      (term (colw ![0, 0] slices_S4096x5_o0_0_S4096x1 v6) 0#32 32#32 0#32))
      (term (colw ![0, 1] slices_S4096x5_o0_1_S4096x1 v6) 0#32 8#32 33#32) := rfl

private theorem pay17_eq (v6 : IVec S4096x5 32) (v192 : FVec Ideal S4096x181 .bf16) (v194 : IVec S4096 32) (z : BitVec 32) :
    k0_pay17 (F := Ideal) v6 (iota .tc S4096x181 32 [1] iota_S4096x181_d1_w32) v192 v194 z
      = addf (addf (addf v192 (term v194 z 8#32 42#32))
          (term (colw ![0, 3] slices_S4096x5_o0_3_S4096x1 v6) 0#32 64#32 51#32))
          (term (colw ![0, 4] slices_S4096x5_o0_4_S4096x1 v6) 0#32 64#32 116#32) := rfl

private theorem pay16_eq (v6 : IVec S4096x5 32) : k0_pay16 v6 = colw ![0, 2] slices_S4096x5_o0_2_S4096x1 v6 := rfl

/-- A row vector stood up as a column and spread over the lanes reads its row. -/
private theorem spread_apply (A : IVec S4096 32) (p : Fin 4096) (j : Fin 181) :
    broadcastTo S4096x181 (shapeCast S4096x1 A shapeCasts_S4096_S4096x1) broadcasts_S4096x1_S4096x181 (ix2 p j) = A (ix1 p) := by
  refine (broadcastTo_apply _ _ (ix2 p j) (ix2 p (0 : Fin 1)) ?_).trans ?_
  · intro a
    match a with
    | ⟨0, _⟩ => rfl
    | ⟨1, _⟩ => rfl
  · refine shapeCast_apply _ _ _ (ix1 p) ?_
    rw [Shape.rowMajor_val_two, Shape.rowMajor_val_one]
    show p.val = p.val * 1 + 0
    omega

/-- Column `q` of the five words of row `p` is word `10 + q` of the row. -/
private theorem colw_apply (ix : Vec Ideal S4096x16 .i32) (q : Fin 5) (off : Fin 2 → ℕ) (h0 : off 0 = 0) (h1 : off 1 = q.val)
    (h : S4096x5.Slices off S4096x1) (p : Fin 4096) :
    colw off h (k0_pay5 ix) (ix1 p) = ix (ix2 p ⟨10 + q.val, by have := q.isLt; omega⟩) := by
  unfold colw
  refine (shapeCast_apply _ _ (ix1 p) (ix2 p (0 : Fin 1)) ?_).trans ?_
  · rw [Shape.rowMajor_val_two, Shape.rowMajor_val_one]
    show p.val * 1 + 0 = p.val
    omega
  refine (extractStridedSlice_apply off _ h (ix2 p (0 : Fin 1)) (ix2 p q) ?_).trans ?_
  · intro a
    match a with
    | ⟨0, _⟩ => show p.val = off 0 + p.val; omega
    | ⟨1, _⟩ => show q.val = off 1 + 0; omega
  unfold k0_pay5 k0_pay2
  refine (extractStridedSlice_apply _ _ _ (ix2 p q) (ix2 p ⟨10 + q.val, by have := q.isLt; omega⟩) ?_).trans ?_
  · intro a
    match a with
    | ⟨0, _⟩ => show p.val = 0 + p.val; omega
    | ⟨1, _⟩ => show 10 + q.val = 10 + q.val; rfl
  exact congrFun (shapeCast_self _ _) _

/-- One table's answer at row `p`, lane `j`: 1 when the moved row is the lane, else 0. -/
private theorem term_apply (w : IVec S4096 32) (z m off : BitVec 32) (p : Fin 4096) (j : Fin 181) :
    term w z m off (ix2 p j) =
      if IntOp.addi (IntOp.minsi (Scalar.select (IntOp.cmpi .slt (w (ix1 p)) z) m (w (ix1 p))) m) off = BitVec.ofNat 32 j.val
        then 1 else 0 := by
  unfold term
  show FloatOps.sitofp (F := Ideal) .f32 ((IntOp.cmpi .eq (broadcastTo S4096x181 _ broadcasts_S4096x1_S4096x181 (ix2 p j))
    (iota .tc S4096x181 32 [1] iota_S4096x181_d1_w32 (ix2 p j))).setWidth 32) = _
  rw [spread_apply, iota_single_apply]
  show ((((BitVec.ofBool (_ == BitVec.ofNat 32 j.val)).setWidth 32).toInt : ℝ) : EReal) = _
  rw [bit_val]
  simp only [beq_iff_eq]
  rfl

/-- Lane `513 + j` of the multi-hot row: the five small tables' indicators, each moved by its offset, added up from
    zero. A lane lies in one table's span, where the other four cannot be set. -/
private theorem mhot_misc (s : Spec.Sel) (j : Fin 181) :
    Spec.mhot s ⟨513 + j.val, by have := j.isLt; omega⟩ =
      (((((0 : EReal) + (if s.sp.val + 0 = j.val then 1 else 0)) + (if s.pri.val + 33 = j.val then 1 else 0))
        + (if s.sub.val + 42 = j.val then 1 else 0)) + (if s.key.val + 51 = j.val then 1 else 0))
        + (if s.pat.val + 116 = j.val then 1 else 0) := by
  have h0 := s.sp.isLt
  have h1 := s.pri.isLt
  have h2 := s.sub.isLt
  have h3 := s.key.isLt
  have h4 := s.pat.isLt
  have hj := j.isLt
  unfold Spec.mhot Spec.hot
  simp only [Fin.ext_iff]
  by_cases c0 : j.val < 33
  · rw [dif_neg (by omega), dif_neg (by omega), dif_neg (by omega), dif_pos (by omega),
      if_neg (show ¬ (s.pri.val + 33 = j.val) by omega), if_neg (show ¬ (s.sub.val + 42 = j.val) by omega),
      if_neg (show ¬ (s.key.val + 51 = j.val) by omega), if_neg (show ¬ (s.pat.val + 116 = j.val) by omega)]
    simp only [add_zero, zero_add]
    exact if_congr (by omega) rfl rfl
  by_cases c1 : j.val < 42
  · rw [dif_neg (by omega), dif_neg (by omega), dif_neg (by omega), dif_neg (by omega), dif_pos (by omega),
      if_neg (show ¬ (s.sp.val + 0 = j.val) by omega), if_neg (show ¬ (s.sub.val + 42 = j.val) by omega),
      if_neg (show ¬ (s.key.val + 51 = j.val) by omega), if_neg (show ¬ (s.pat.val + 116 = j.val) by omega)]
    simp only [add_zero, zero_add]
    exact if_congr (by omega) rfl rfl
  by_cases c2 : j.val < 51
  · rw [dif_neg (by omega), dif_neg (by omega), dif_neg (by omega), dif_neg (by omega), dif_neg (by omega), dif_pos (by omega),
      if_neg (show ¬ (s.sp.val + 0 = j.val) by omega), if_neg (show ¬ (s.pri.val + 33 = j.val) by omega),
      if_neg (show ¬ (s.key.val + 51 = j.val) by omega), if_neg (show ¬ (s.pat.val + 116 = j.val) by omega)]
    simp only [add_zero, zero_add]
    exact if_congr (by omega) rfl rfl
  by_cases c3 : j.val < 116
  · rw [dif_neg (by omega), dif_neg (by omega), dif_neg (by omega), dif_neg (by omega), dif_neg (by omega), dif_neg (by omega),
      dif_pos (by omega),
      if_neg (show ¬ (s.sp.val + 0 = j.val) by omega), if_neg (show ¬ (s.pri.val + 33 = j.val) by omega),
      if_neg (show ¬ (s.sub.val + 42 = j.val) by omega), if_neg (show ¬ (s.pat.val + 116 = j.val) by omega)]
    simp only [add_zero, zero_add]
    exact if_congr (by omega) rfl rfl
  · rw [dif_neg (by omega), dif_neg (by omega), dif_neg (by omega), dif_neg (by omega), dif_neg (by omega), dif_neg (by omega),
      dif_neg (by omega),
      if_neg (show ¬ (s.sp.val + 0 = j.val) by omega), if_neg (show ¬ (s.pri.val + 33 = j.val) by omega),
      if_neg (show ¬ (s.sub.val + 42 = j.val) by omega), if_neg (show ¬ (s.key.val + 51 = j.val) by omega)]
    simp only [add_zero, zero_add]
    exact if_congr (by omega) rfl rfl

theorem hot_misc (ix : Vec Ideal S4096x16 .i32) (p : Fin 4096) (j : Fin 181) :
    k0_pay17 (F := Ideal) (k0_pay5 ix) (iota .tc S4096x181 32 [1] iota_S4096x181_d1_w32) (k0_pay15 (F := Ideal) (k0_pay5 ix)) (k0_pay16 (k0_pay5 ix)) 0#32 (ix2 p j)
      = Spec.mhot (Spec.Sel.ofWords (Spec.rowW ix p)) ⟨513 + j.val, by have := j.isLt; omega⟩ := by
  rw [pay17_eq, pay15_eq, pay16_eq]
  show ((((broadcast S4096x181 (Scalar.ofBits (F := Ideal) .bf16 0x0000#16) (ix2 p j) + term _ _ _ _ (ix2 p j)) + term _ _ _ _ (ix2 p j))
    + term _ _ _ _ (ix2 p j)) + term _ _ _ _ (ix2 p j)) + term _ _ _ _ (ix2 p j) = _
  rw [term_apply, term_apply, term_apply, term_apply, term_apply,
    colw_apply ix 0 ![0, 0] rfl rfl, colw_apply ix 1 ![0, 1] rfl rfl, colw_apply ix 2 ![0, 2] rfl rfl,
    colw_apply ix 3 ![0, 3] rfl rfl, colw_apply ix 4 ![0, 4] rfl rfl]
  have hz : broadcast S4096x181 (FloatOps.ofBits (F := Ideal) FTy.bf16 0x0000#16) (ix2 p j) = (0 : EReal) := zero_bf16
  rw [hz]
  simp only [moved_eq_iff 32 0 j.val (by omega) (by omega) j.isLt, moved_eq_iff 8 33 j.val (by omega) (by omega) j.isLt,
    moved_eq_iff 8 42 j.val (by omega) (by omega) j.isLt, moved_eq_iff 64 51 j.val (by omega) (by omega) j.isLt,
    moved_eq_iff 64 116 j.val (by omega) (by omega) j.isLt]
  exact (mhot_misc (Spec.Sel.ofWords (Spec.rowW ix p)) j).symm

end Cert.KernelIdeal.Body

end
-- ==== Proof.KernelIdealArray.lean ====
/-
  From a tile's 4096 scores to the whole result array, at the ideal values. Tile `t` of 64 stores rows 4096·t … 4096·t + 4095
  of the result; the index window's block at tile `t` is those same rows of the packed index array, and every other input
  window's block is its whole array at every tile. So if a row's score depends only on that row of the index block (and
  on the other blocks whole), the result array's entry `r` is that function of row `r` of the packed index array.
-/
import proofs.«421530_j28664611733761_3_alg».proof.Proof.KernelIdealRegion
import proofs.«421530_j28664611733761_3_alg».proof.Proof.Spec
import Idealize.ShloMosaic.Lib.Pipeline.Value

noncomputable section

open scoped BigOperators

namespace Cert.KernelIdeal.Arr

open Idealize.ShloMosaic Idealize.ShloMosaic.TcCoe Idealize.ShloMosaic.ValueIdx Idealize.SL.Sem Cert.KernelIdeal Cert.KernelIdeal.Gen

variable (m : (ℓ : Loc nD τ sig) → Buf (Elt Ideal) ℓ)

/-! ## Zero offsets, however spelt -/

private theorem zero1 : (![0] : Fin 1 → Nat) = fun _ => 0 := funext fun a => by fin_cases a <;> rfl
private theorem zero2 : (![0, 0] : Fin 2 → Nat) = fun _ => 0 := funext fun a => by fin_cases a <;> rfl

/-! ## The index maps, decided once over the 64 tiles -/

/-- The index window and the result window move with the tile: block `t` on the row axis, block 0 on the column axis. -/
private theorem moving_maps : ∀ t : Fin cfg0.N, win0_0.index t (0 : Fin 2) = t.val ∧ win0_0.index t (1 : Fin 2) = 0
    ∧ win0_7.index t (0 : Fin 1) = t.val :=
  (by decide +kernel : ∀ t : Fin grid0.N, _)

/-- Every other input window sits at block 0 on every axis at every tile. -/
private theorem fixed_maps : ∀ t : Fin cfg0.N, win0_1.index t (0 : Fin 2) = 0 ∧ win0_1.index t (1 : Fin 2) = 0
    ∧ win0_2.index t (0 : Fin 2) = 0 ∧ win0_2.index t (1 : Fin 2) = 0
    ∧ win0_3.index t (0 : Fin 1) = 0 ∧ win0_4.index t (0 : Fin 1) = 0
    ∧ win0_5.index t (0 : Fin 1) = 0 ∧ win0_6.index t (0 : Fin 1) = 0 :=
  (by decide +kernel : ∀ t : Fin grid0.N, _)

/-! ## What a tile stores, over any seven blocks -/

/-- The one whole-buffer store of the scores of seven whole-buffer loads leaves the scores of the blocks themselves. -/
private theorem scoreBlock_eq (x0 : Vec Ideal S4096x16 .i32) (x1 : Vec Ideal S694x256 .bf16) (x2 : Vec Ideal S256x128 .bf16)
    (x3 : Vec Ideal S256 .f32) (x4 x5 : Vec Ideal S128 .f32) (x6 : Vec Ideal S1 .f32) :
    Region.scoreBlock (F := Ideal) x0 x1 x2 x3 x4 x5 x6 = Region.scores (F := Ideal) x0 x1 x2 x3 x4 x5 x6 := by
  unfold Region.scoreBlock
  rw [View.canon_unit_zero zero1]
  simp only [View.ld_unit_zero (S := S4096x16) zero2, View.ld_unit_zero (S := S694x256) zero2, View.ld_unit_zero (S := S256x128) zero2,
    View.ld_unit_zero (S := S256) zero1, View.ld_unit_zero (S := S128) zero1, View.ld_unit_zero (S := S1) zero1]

/-! ## The input blocks as parts of their arrays -/

/-- Row `p`, column `a` of the index window's block at tile `t` is row `4096·t + p`, column `a` of the packed index array:
    a block's coordinate is the block index times the block's size plus the coordinate inside the block. -/
private theorem idx_block_apply (c : Dev nD) (t : Fin cfg0.N) (p : Fin 4096) (a : Fin 16) (h : 4096 * t.val + p.val < 262144) :
    (Region.blockAt m c 0 t : Vec Ideal S4096x16 .i32) (ix2 p a)
      = (Region.atEntry m c main_v2 : S262144x16.Idx → BitVec 32) (ix2 ⟨4096 * t.val + p.val, h⟩ a) := by
  obtain ⟨e0, e1, -⟩ := moving_maps t
  unfold Region.blockAt
  rw [View.read_apply]
  show Region.atEntry m c main_v2 (((cfg0.win 0).blk t).view.emb (ix2 p a)) = _
  refine congrArg _ ?_
  funext d; apply Fin.ext
  match d with
  | ⟨0, _⟩ => show win0_0.index t (0 : Fin 2) * 4096 + 1 * p.val = 4096 * t.val + p.val; omega
  | ⟨1, _⟩ => show win0_0.index t (1 : Fin 2) * 16 + 1 * a.val = a.val; omega

/-- The stacked first-layer weight's block is its whole array at every tile. -/
private theorem w1_block (c : Dev nD) (t : Fin cfg0.N) :
    (Region.blockAt m c 1 t : Vec Ideal S694x256 .bf16) = Region.atEntry m c main_v20 := by
  obtain ⟨e0, e1, -⟩ := fixed_maps t
  funext y
  unfold Region.blockAt
  rw [View.read_apply]
  show Region.atEntry m c main_v20 (((cfg0.win 1).blk t).view.emb y) = Region.atEntry m c main_v20 y
  refine congrArg _ ?_
  funext d; apply Fin.ext
  match d with
  | ⟨0, _⟩ => show win0_1.index t (0 : Fin 2) * 694 + 1 * (y 0).val = (y 0).val; omega
  | ⟨1, _⟩ => show win0_1.index t (1 : Fin 2) * 256 + 1 * (y 1).val = (y 1).val; omega

/-- The second-layer weight's block is its whole array at every tile. -/
private theorem w2_block (c : Dev nD) (t : Fin cfg0.N) :
    (Region.blockAt m c 2 t : Vec Ideal S256x128 .bf16) = Region.atEntry m c main_v21 := by
  obtain ⟨-, -, e0, e1, -⟩ := fixed_maps t
  funext y
  unfold Region.blockAt
  rw [View.read_apply]
  show Region.atEntry m c main_v21 (((cfg0.win 2).blk t).view.emb y) = Region.atEntry m c main_v21 y
  refine congrArg _ ?_
  funext d; apply Fin.ext
  match d with
  | ⟨0, _⟩ => show win0_2.index t (0 : Fin 2) * 256 + 1 * (y 0).val = (y 0).val; omega
  | ⟨1, _⟩ => show win0_2.index t (1 : Fin 2) * 128 + 1 * (y 1).val = (y 1).val; omega

/-- The first bias's block is its whole array at every tile. -/
private theorem b1_block (c : Dev nD) (t : Fin cfg0.N) :
    (Region.blockAt m c 3 t : Vec Ideal S256 .f32) = Region.atEntry m c main_arg11 := by
  obtain ⟨-, -, -, -, e0, -⟩ := fixed_maps t
  funext y
  unfold Region.blockAt
  rw [View.read_apply]
  show Region.atEntry m c main_arg11 (((cfg0.win 3).blk t).view.emb y) = Region.atEntry m c main_arg11 y
  refine congrArg _ ?_
  funext d; apply Fin.ext
  match d with
  | ⟨0, _⟩ => show win0_3.index t (0 : Fin 1) * 256 + 1 * (y 0).val = (y 0).val; omega

/-- The second bias's block is its whole array at every tile. -/
private theorem b2_block (c : Dev nD) (t : Fin cfg0.N) :
    (Region.blockAt m c 4 t : Vec Ideal S128 .f32) = Region.atEntry m c main_arg13 := by
  obtain ⟨-, -, -, -, -, e0, -⟩ := fixed_maps t
  funext y
  unfold Region.blockAt
  rw [View.read_apply]
  show Region.atEntry m c main_arg13 (((cfg0.win 4).blk t).view.emb y) = Region.atEntry m c main_arg13 y
  refine congrArg _ ?_
  funext d; apply Fin.ext
  match d with
  | ⟨0, _⟩ => show win0_4.index t (0 : Fin 1) * 128 + 1 * (y 0).val = (y 0).val; omega

/-- The last layer's row's block is its whole array at every tile. -/
private theorem w3_block (c : Dev nD) (t : Fin cfg0.N) :
    (Region.blockAt m c 5 t : Vec Ideal S128 .f32) = Region.atEntry m c main_v22 := by
  obtain ⟨-, -, -, -, -, -, e0, -⟩ := fixed_maps t
  funext y
  unfold Region.blockAt
  rw [View.read_apply]
  show Region.atEntry m c main_v22 (((cfg0.win 5).blk t).view.emb y) = Region.atEntry m c main_v22 y
  refine congrArg _ ?_
  funext d; apply Fin.ext
  match d with
  | ⟨0, _⟩ => show win0_5.index t (0 : Fin 1) * 128 + 1 * (y 0).val = (y 0).val; omega

/-- The last bias's block is its whole array at every tile. -/
private theorem b3_block (c : Dev nD) (t : Fin cfg0.N) :
    (Region.blockAt m c 6 t : Vec Ideal S1 .f32) = Region.atEntry m c main_arg15 := by
  obtain ⟨-, -, -, -, -, -, -, e0⟩ := fixed_maps t
  funext y
  unfold Region.blockAt
  rw [View.read_apply]
  show Region.atEntry m c main_arg15 (((cfg0.win 6).blk t).view.emb y) = Region.atEntry m c main_arg15 y
  refine congrArg _ ?_
  funext d; apply Fin.ext
  match d with
  | ⟨0, _⟩ => show win0_6.index t (0 : Fin 1) * 1 + 1 * (y 0).val = (y 0).val; omega

/-! ## The result array as one function of its index -/

/-- What the result array ends holding: entry `i` is `g` of row `i` of the packed index array and of the six other arrays whole. -/
private abbrev rowFn
    (g : (Fin 16 → BitVec 32) → FVec Ideal S694x256 .bf16 → FVec Ideal S256x128 .bf16 → FVec Ideal S256 .f32 → FVec Ideal S128 .f32
      → FVec Ideal S128 .f32 → FVec Ideal S1 .f32 → EReal)
    (c : Dev nD) : S262144.Idx → EReal := fun i =>
  g (Spec.rowW (Region.atEntry m c main_v2) ⟨(i 0).val, (i 0).isLt⟩) (Region.atEntry m c main_v20) (Region.atEntry m c main_v21)
    (Region.atEntry m c main_arg11) (Region.atEntry m c main_arg13) (Region.atEntry m c main_v22) (Region.atEntry m c main_arg15)

/-- What tile `t` writes back is block `t` of that function: its entry `p` is the score of row `p` of the index block, which is
    row `4096·t + p` of the packed index array, and the result window's block `t` reads the function at `4096·t + p`. -/
private theorem written_eq
    (g : (Fin 16 → BitVec 32) → FVec Ideal S694x256 .bf16 → FVec Ideal S256x128 .bf16 → FVec Ideal S256 .f32 → FVec Ideal S128 .f32
      → FVec Ideal S128 .f32 → FVec Ideal S1 .f32 → EReal)
    (hrow : ∀ (ix : Vec Ideal S4096x16 .i32) (w1 : FVec Ideal S694x256 .bf16) (w2 : FVec Ideal S256x128 .bf16) (b1 : FVec Ideal S256 .f32)
      (b2 w3 : FVec Ideal S128 .f32) (b3 : FVec Ideal S1 .f32) (p : Fin 4096),
      Region.scores (F := Ideal) ix w1 w2 b1 b2 w3 b3 (ix1 p) = g (Spec.rowW ix p) w1 w2 b1 b2 w3 b3)
    (c : Dev nD) (t : Fin cfg0.N) :
    (Region.pdata (F := Ideal) m 0 c).flushed 7 t = ((cfg0.win 7).blk t).view.read (Elt Ideal) (rowFn m g c) := by
  show (cfg0.win 7).cut (grid0.coords t) ((Region.pdata m 0 c).after 7 t) = _
  rw [Region.after_out]
  obtain ⟨-, -, e7⟩ := moving_maps t
  have hN : t.val < 64 := by have h64 : cfg0.N = 64 := N_0; have := t.isLt; omega
  refine funext fun (j : S4096.Idx) => ?_
  obtain ⟨p, rfl⟩ : ∃ p : Fin 4096, j = ix1 p := ⟨j 0, eq_ix1 j⟩
  have hp : 4096 * t.val + p.val < 262144 := by have := p.isLt; omega
  show Region.scoreBlock (F := Ideal) (Region.blockAt m c 0 t) (Region.blockAt m c 1 t) (Region.blockAt m c 2 t) (Region.blockAt m c 3 t)
      (Region.blockAt m c 4 t) (Region.blockAt m c 5 t) (Region.blockAt m c 6 t) (ix1 p)
    = rowFn m g c (((cfg0.win 7).blk t).view.emb (ix1 p))
  have hemb : ((cfg0.win 7).blk t).view.emb (ix1 p) = (ix1 ⟨4096 * t.val + p.val, hp⟩ : S262144.Idx) := by
    funext d; apply Fin.ext
    match d with
    | ⟨0, _⟩ => show win0_7.index t (0 : Fin 1) * 4096 + 1 * p.val = 4096 * t.val + p.val; omega
  rw [hemb]
  refine (congrFun (scoreBlock_eq _ _ _ _ _ _ _) (ix1 p)).trans ?_
  refine (hrow _ _ _ _ _ _ _ p).trans ?_
  have h0 : Spec.rowW (Region.blockAt m c 0 t : Vec Ideal S4096x16 .i32) p = Spec.rowW (Region.atEntry m c main_v2) ⟨4096 * t.val + p.val, hp⟩ :=
    funext fun a => idx_block_apply m c t p a hp
  exact congr (congr (congr (congr (congr (congr (congrArg g h0) (w1_block m c t)) (w2_block m c t)) (b1_block m c t)) (b2_block m c t))
    (w3_block m c t)) (b3_block m c t)

/-- An index of the result array is in tile `t`'s block iff its coordinate is in the block's range. -/
private theorem mem_tile (t : Fin cfg0.N) (i : S262144.Idx) :
    i ∈ ((cfg0.win 7).blk t).view.set
      ↔ ∀ a : Fin 1, win0_7.index t a * S4096.size a ≤ (i a).val ∧ (i a).val < win0_7.index t a * S4096.size a + S4096.size a := by
  show i ∈ ((View.whole main_v23).slice (win0_7.rect t)).set ↔ _
  rw [View.set_slice_whole, Rect.mem_set_unit]
  exact Iff.rfl

/-- The sixty-four blocks cover the result array: row `r` is in the block of tile `r / 4096`. -/
private theorem tiles_cover (i : S262144.Idx) :
    ∃ t : Fin cfg0.N, (cfg0.win 7).flush t = true ∧ i ∈ ((cfg0.win 7).blk t).view.set := by
  have hi : (i 0).val < 262144 := (i 0).isLt
  have hN : cfg0.N = 64 := N_0
  refine ⟨⟨(i 0).val / 4096, by rw [hN]; omega⟩, flush0_7 _, ?_⟩
  rw [mem_tile]
  intro a
  match a with
  | ⟨0, _⟩ =>
    show win0_7.index ⟨(i 0).val / 4096, _⟩ (0 : Fin 1) * 4096 ≤ (i 0).val
      ∧ (i 0).val < win0_7.index ⟨(i 0).val / 4096, _⟩ (0 : Fin 1) * 4096 + 4096
    rw [(moving_maps ⟨(i 0).val / 4096, by rw [hN]; omega⟩).2.2]
    show (i 0).val / 4096 * 4096 ≤ (i 0).val ∧ (i 0).val < (i 0).val / 4096 * 4096 + 4096
    omega

theorem out_row
    (g : (Fin 16 → BitVec 32) → FVec Ideal S694x256 .bf16 → FVec Ideal S256x128 .bf16 → FVec Ideal S256 .f32 → FVec Ideal S128 .f32
      → FVec Ideal S128 .f32 → FVec Ideal S1 .f32 → EReal)
    (hrow : ∀ (ix : Vec Ideal S4096x16 .i32) (w1 : FVec Ideal S694x256 .bf16) (w2 : FVec Ideal S256x128 .bf16) (b1 : FVec Ideal S256 .f32)
      (b2 w3 : FVec Ideal S128 .f32) (b3 : FVec Ideal S1 .f32) (p : Fin 4096),
      Region.scores (F := Ideal) ix w1 w2 b1 b2 w3 b3 (ix1 p) = g (Spec.rowW ix p) w1 w2 b1 b2 w3 b3)
    (c : Dev nD) (r : Fin 262144) :
    (Region.pdata (F := Ideal) m 0 c).arrAt 7 cfg0.N (ix1 r)
      = g (Spec.rowW (Region.atEntry m c main_v2) r) (Region.atEntry m c main_v20) (Region.atEntry m c main_v21)
          (Region.atEntry m c main_arg11) (Region.atEntry m c main_arg13) (Region.atEntry m c main_v22) (Region.atEntry m c main_arg15) := by
  have hfin := (Region.pdata (F := Ideal) m 0 c).arrAt_eq_of_cover 7 (rowFn m g c) (fun t _ => written_eq m g hrow c t) tiles_cover
  exact congrFun hfin (ix1 r)

end Cert.KernelIdeal.Arr

end
-- ==== Proof.KernelIdealEntry.lean ====
/-
  What the call finds in three of the buffers @main's host operations write, at the ideal values: the packed index array
  (the own-champion column, the ally, enemy and miscellaneous columns and a zero column side by side), the second weight
  (a change of float format: the identity on extended reals) and the last layer's column laid flat.
-/
import proofs.«421530_j28664611733761_3_alg».proof.Proof.KernelIdealRegion
import proofs.«421530_j28664611733761_3_alg».proof.Proof.Spec
import Idealize.ShloMosaic.Lib.Pipeline.Value
import Idealize.ShloMosaic.Lib.StableHlo.Run

noncomputable section

open scoped BigOperators

namespace Cert.KernelIdeal.Entry

open Idealize.ShloMosaic Idealize.ShloMosaic.TcCoe Idealize.ShloMosaic.ValueIdx Idealize.SL.Sem Cert.KernelIdeal Cert.KernelIdeal.Gen

variable (m : (ℓ : Loc nD τ sig) → Buf (Elt Ideal) ℓ)

/-- An operation over a literal family of five references writes, at its result, its function of the five operands'
    contents, each read at its own reference. -/
private theorem nary5_result {τ' : Topo} {sig' : RefSig} {Val : EltTy → Type} {x a b c' e y : Ref sig' .tc}
    (f : ((k : Fin 5) → ((![x, a, b, c', e] : Fin 5 → Ref sig' .tc) k).ty.Contents Val) → y.ty.Contents Val) (hxs hy)
    (V : Valuation τ' sig' Val) :
    (StableHlo.nary (τ := τ') ![x, a, b, c', e] y f hxs hy).result V (Proc.devRef .tc y)
      = f (Fin.cons (V (Proc.devRef .tc x)) (Fin.cons (V (Proc.devRef .tc a)) (Fin.cons (V (Proc.devRef .tc b))
          (Fin.cons (V (Proc.devRef .tc c')) (Fin.cons (V (Proc.devRef .tc e)) (fun i => i.elim0)))))) := by
  rw [StableHlo.nary_result]; congr 1; funext k; fin_cases k <;> rfl

/-- The packed index array as the call finds it: of the twenty-four host operations only four bear on it — the zero
    constant, its broadcast to a column, the reshape of argument 0 to a column, and the concatenation of that column,
    arguments 1, 2 and 3 and the zero column along the second axis. -/
private theorem packed_term (c : Dev nD) :
    (Region.atEntry m c main_v2 : S262144x16.Idx → BitVec 32)
      = concatenate S262144x16 1
          [⟨S262144x1, shapeCast S262144x1 (m ((c : Thread nD τ).loc main_arg0) : S262144.Idx → BitVec 32) shapeCasts_S262144_S262144x1⟩,
           ⟨S262144x4, (m ((c : Thread nD τ).loc main_arg1) : S262144x4.Idx → BitVec 32)⟩,
           ⟨S262144x5, (m ((c : Thread nD τ).loc main_arg2) : S262144x5.Idx → BitVec 32)⟩,
           ⟨S262144x5, (m ((c : Thread nD τ).loc main_arg3) : S262144x5.Idx → BitVec 32)⟩,
           ⟨S262144x1, broadcastInDim S262144x1 ![] bcast_S_S262144x1 (constantI S_ 32 0#32)⟩]
          concatenates_S262144x1_S262144x4_S262144x5_S262144x5_S262144x1_S262144x16_d1 := by
  dsimp only [Region.atEntry]
  simp only [hostOps0, List.flatten_cons, List.flatten_nil, List.append_nil, List.cons_append, List.nil_append]
  simp only [StableHlo.after_cons, StableHlo.after_nil]
  repeat (first
    | rw [nary5_result]
    | rw [StableHlo.nullary_result] | rw [StableHlo.unary_result] | rw [StableHlo.reshape_result]
    | (rw [StableHlo.nullary_result_ne]; rotate_left; decide)
    | (rw [StableHlo.unary_result_ne]; rotate_left; decide)
    | (rw [StableHlo.binary_result_ne]; rotate_left; decide)
    | (rw [StableHlo.reshape_result_ne]; rotate_left; decide)
    | (rw [StableHlo.nary_result_ne]; rotate_left; decide))
  rfl

/-- Five pieces of widths 1, 4, 5, 5, 1 laid side by side, read at row r and column a: the piece whose span holds a,
    at a less the widths before it. -/
private theorem pack_read (x0 z : S262144x1.Idx → BitVec 32) (x1 : S262144x4.Idx → BitVec 32) (x2 x3 : S262144x5.Idx → BitVec 32)
    (h : Shape.Concatenates [S262144x1, S262144x4, S262144x5, S262144x5, S262144x1] S262144x16 1) (r : Fin 262144) (a : Fin 16) :
    concatenate S262144x16 1 [⟨S262144x1, x0⟩, ⟨S262144x4, x1⟩, ⟨S262144x5, x2⟩, ⟨S262144x5, x3⟩, ⟨S262144x1, z⟩] h (ix2 r a)
      = if a.val = 0 then x0 (ix2 r (0 : Fin 1))
        else if h5 : a.val < 5 then x1 (ix2 r ⟨a.val - 1, by omega⟩)
        else if h10 : a.val < 10 then x2 (ix2 r ⟨a.val - 5, by omega⟩)
        else if h15 : a.val < 15 then x3 (ix2 r ⟨a.val - 10, by omega⟩)
        else z (ix2 r (0 : Fin 1)) := by
  have ha := a.isLt
  have key := concatenate_apply_piece (t := S262144x16) (1 : Fin 2)
    [⟨S262144x1, x0⟩, ⟨S262144x4, x1⟩, ⟨S262144x5, x2⟩, ⟨S262144x5, x3⟩, ⟨S262144x1, z⟩] h (ix2 r a)
  by_cases h0 : a.val = 0
  · rw [if_pos h0]
    exact key 0 (by show 0 < 5; omega) S262144x1 x0 rfl rfl 0 rfl (ix2 r (0 : Fin 1))
      (fun b hb => match b, hb with | ⟨0, _⟩, _ => rfl | ⟨1, _⟩, hb => absurd rfl hb) (by show 0 + 0 = a.val; omega)
  rw [if_neg h0]
  by_cases h5 : a.val < 5
  · rw [dif_pos h5]
    exact key 1 (by show 1 < 5; omega) S262144x4 x1 rfl rfl 1 rfl (ix2 r ⟨a.val - 1, by omega⟩)
      (fun b hb => match b, hb with | ⟨0, _⟩, _ => rfl | ⟨1, _⟩, hb => absurd rfl hb) (by show 1 + (a.val - 1) = a.val; omega)
  rw [dif_neg h5]
  by_cases h10 : a.val < 10
  · rw [dif_pos h10]
    exact key 2 (by show 2 < 5; omega) S262144x5 x2 rfl rfl 5 rfl (ix2 r ⟨a.val - 5, by omega⟩)
      (fun b hb => match b, hb with | ⟨0, _⟩, _ => rfl | ⟨1, _⟩, hb => absurd rfl hb) (by show 5 + (a.val - 5) = a.val; omega)
  rw [dif_neg h10]
  by_cases h15 : a.val < 15
  · rw [dif_pos h15]
    exact key 3 (by show 3 < 5; omega) S262144x5 x3 rfl rfl 10 rfl (ix2 r ⟨a.val - 10, by omega⟩)
      (fun b hb => match b, hb with | ⟨0, _⟩, _ => rfl | ⟨1, _⟩, hb => absurd rfl hb) (by show 10 + (a.val - 10) = a.val; omega)
  rw [dif_neg h15]
  exact key 4 (by show 4 < 5; omega) S262144x1 z rfl rfl 15 rfl (ix2 r (0 : Fin 1))
    (fun b hb => match b, hb with | ⟨0, _⟩, _ => rfl | ⟨1, _⟩, hb => absurd rfl hb) (by show 15 + 0 = a.val; omega)

/-- Row r of the packed array is the sixteen packed words of row r of the four index arguments: column 0 is the reshaped
    argument 0 (a column's entry (r, 0) and the flat entry r have the same row-major position), columns 1–4, 5–9 and
    10–14 are arguments 1, 2 and 3 at the column less 1, 5 and 10, and column 15 is the broadcast zero. -/
theorem packed_entry (c : Dev nD) (r : Fin 262144) :
    Spec.rowW (Region.atEntry m c main_v2) r
      = Spec.packWords (m ((c : Thread nD τ).loc main_arg0)) (m ((c : Thread nD τ).loc main_arg1)) (m ((c : Thread nD τ).loc main_arg2)) (m ((c : Thread nD τ).loc main_arg3)) r := by
  funext a
  have e0 : shapeCast S262144x1 (m ((c : Thread nD τ).loc main_arg0) : S262144.Idx → BitVec 32) shapeCasts_S262144_S262144x1 (ix2 r (0 : Fin 1))
      = m ((c : Thread nD τ).loc main_arg0) (ix1 r) :=
    shapeCast_apply _ _ (ix2 r (0 : Fin 1)) (ix1 r) (by
      rw [Shape.rowMajor_val_one, Shape.rowMajor_val_two]; show r.val = r.val * 1 + 0; omega)
  have e4 : broadcastInDim S262144x1 ![] bcast_S_S262144x1 (constantI S_ 32 0#32) (ix2 r (0 : Fin 1)) = 0#32 :=
    broadcastInDim_apply ![] bcast_S_S262144x1 (constantI S_ 32 0#32) (ix2 r (0 : Fin 1)) ix0 (fun b => b.elim0)
  refine (congrFun (packed_term m c) (ix2 r a)).trans ?_
  refine (pack_read _ _ _ _ _ _ r a).trans ?_
  rw [e0, e4]
  rfl

/-- The second weight as the call finds it is argument 12 after a narrowing of float format, which is the identity on
    extended reals. -/
theorem w2_entry (c : Dev nD) (k : Fin 256) (n : Fin 128) :
    Region.atEntry m c main_v21 (ix2 k n) = m ((c : Thread nD τ).loc main_arg12) (ix2 k n) := by
  have e : (Region.atEntry m c main_v21 : S256x128.Idx → EReal)
      = (truncf .bf16 (m ((c : Thread nD τ).loc main_arg12) : FVec Ideal S256x128 .f32) bitsLt_bf16_f32 : FVec Ideal S256x128 .bf16) := by
    dsimp only [Region.atEntry]
    simp only [hostOps0, List.flatten_cons, List.flatten_nil, List.append_nil, List.cons_append, List.nil_append]
    after_results
  exact (congrFun e (ix2 k n)).trans (truncf_apply _ _ _)

/-- The last layer's weight as the call finds it is argument 14, a column, laid flat: entry n of the flat array and
    entry (n, 0) of the column have the same row-major position. -/
theorem w3_entry (c : Dev nD) (n : Fin 128) :
    Region.atEntry m c main_v22 (ix1 n) = m ((c : Thread nD τ).loc main_arg14) (ix2 n (0 : Fin 1)) := by
  have e : (Region.atEntry m c main_v22 : S128.Idx → EReal)
      = shapeCast S128 (m ((c : Thread nD τ).loc main_arg14) : S128x1.Idx → EReal) shapeCasts_S128x1_S128 := by
    dsimp only [Region.atEntry]
    simp only [hostOps0, List.flatten_cons, List.flatten_nil, List.append_nil, List.cons_append, List.nil_append]
    after_results
    rfl
  refine (congrFun e (ix1 n)).trans ?_
  exact shapeCast_apply _ _ (ix1 n) (ix2 n (0 : Fin 1)) (by
    rw [Shape.rowMajor_val_one, Shape.rowMajor_val_two]; show n.val * 1 + 0 = n.val; omega)

end Cert.KernelIdeal.Entry

end
-- ==== Proof.KernelIdealFused.lean ====
/-
  What the call finds in the stacked weight's buffer, at the ideal values: eight matrix products — the champion table
  against rows 0–63, 64–127 and 128–191 of W1, the five small tables against rows 192, 208, 224, 240 and 256 onwards —
  stacked along the rows (171 + 171 + 171 + 33 + 9 + 9 + 65 + 65 = 694), then a change of float format, the identity on
  extended reals.
-/
import proofs.«421530_j28664611733761_3_alg».proof.Proof.KernelIdealRegion
import proofs.«421530_j28664611733761_3_alg».proof.Proof.Spec
import Idealize.ShloMosaic.Lib.Pipeline.Value
import Idealize.ShloMosaic.Lib.StableHlo.Run
import Idealize.ShloMosaic.PureOps.Ideal.Laws

noncomputable section

open scoped BigOperators

namespace Cert.KernelIdeal.Entry

open Idealize.ShloMosaic Idealize.ShloMosaic.TcCoe Idealize.ShloMosaic.ValueIdx Idealize.SL.Sem Cert.KernelIdeal Cert.KernelIdeal.Gen

/-! ## An operation of eight operands -/

section EightOperands

variable {τ₀ : Topo} {sig₀ : RefSig} {Val : EltTy → Type} {x0 x1 x2 x3 x4 x5 x6 x7 y : Ref sig₀ .tc}

/-- An operation of eight operands writes, at its result, its function of the eight operands' contents, each read at its
    own reference. -/
private theorem nary8_result
    (f : ((k : Fin 8) → ((![x0, x1, x2, x3, x4, x5, x6, x7] : Fin 8 → Ref sig₀ .tc) k).ty.Contents Val) → y.ty.Contents Val) (hxs hy)
    (F : Valuation τ₀ sig₀ Val) :
    (StableHlo.nary (τ := τ₀) ![x0, x1, x2, x3, x4, x5, x6, x7] y f hxs hy).result F (no_index (Proc.devRef .tc y))
      = f (Fin.cons (F (Proc.devRef .tc x0)) (Fin.cons (F (Proc.devRef .tc x1)) (Fin.cons (F (Proc.devRef .tc x2)) (Fin.cons (F (Proc.devRef .tc x3))
          (Fin.cons (F (Proc.devRef .tc x4)) (Fin.cons (F (Proc.devRef .tc x5)) (Fin.cons (F (Proc.devRef .tc x6)) (Fin.cons (F (Proc.devRef .tc x7)) (fun i => i.elim0))))))))) := by
  rw [StableHlo.nary_result]; congr 1; funext k; fin_cases k <;> rfl

end EightOperands

/-! ## A table times a slab of W1, read at an entry

For each of the four product shapes: entry (j, k) of the table times the `d` rows of W1 that start at row `off` is the sum
over the `d` features `i` of the table's entry (j, i) times W1's entry (off + i, k). The product's contraction runs over the
table's columns and the slab's rows; the slab's row `i` is W1's row `off + i`. -/

private theorem lhs_champ_0 (i : S171x256.Idx) (q : dot_S171x64_S64x256_S171x256_1_0_0_1_n_n.contr.Idx) :
    (dot_S171x64_S64x256_S171x256_1_0_0_1_n_n.lhsIdx i q 0).val = (i 0).val := by
  unfold DotDims.lhsIdx
  rw [dif_neg (show ¬(0 : Fin S171x64.rank) ∈ dot_S171x64_S64x256_S171x256_1_0_0_1_n_n.lhsBatch by decide), dif_pos (show (0 : Fin S171x64.rank) ∈ dot_S171x64_S64x256_S171x256_1_0_0_1_n_n.lhsNonContracting by decide)]
  rfl
private theorem lhs_champ_1 (i : S171x256.Idx) (q : dot_S171x64_S64x256_S171x256_1_0_0_1_n_n.contr.Idx) :
    (dot_S171x64_S64x256_S171x256_1_0_0_1_n_n.lhsIdx i q 1).val = (q ⟨0, by decide⟩).val :=
  dot_S171x64_S64x256_S171x256_1_0_0_1_n_n.lhsIdx_val_of_single rfl i q
private theorem rhs_champ_0 (i : S171x256.Idx) (q : dot_S171x64_S64x256_S171x256_1_0_0_1_n_n.contr.Idx) :
    (dot_S171x64_S64x256_S171x256_1_0_0_1_n_n.rhsIdx i q 0).val = (q ⟨0, by decide⟩).val :=
  dot_S171x64_S64x256_S171x256_1_0_0_1_n_n.rhsIdx_val_of_single rfl i q
private theorem rhs_champ_1 (i : S171x256.Idx) (q : dot_S171x64_S64x256_S171x256_1_0_0_1_n_n.contr.Idx) :
    (dot_S171x64_S64x256_S171x256_1_0_0_1_n_n.rhsIdx i q 1).val = (i 1).val := by
  unfold DotDims.rhsIdx
  rw [dif_neg (show ¬(1 : Fin S64x256.rank) ∈ dot_S171x64_S64x256_S171x256_1_0_0_1_n_n.rhsBatch by decide), dif_pos (show (1 : Fin S64x256.rank) ∈ dot_S171x64_S64x256_S171x256_1_0_0_1_n_n.rhsNonContracting by decide)]
  rfl

/-- The 171 × 64 champion table against the 64 rows of W1 from `off` on. -/
private theorem prod_champ (T : FVec Ideal S171x64 .f32) (W : FVec Ideal S272x256 .f32)
    (off : ℕ) (hoff : off + 64 ≤ 272) (h : S272x256.Slices ![off, 0] S64x256) (j : Fin 171) (k : Fin 256) :
    Host.dotGeneral (F := Ideal) dot_S171x64_S64x256_S171x256_1_0_0_1_n_n none T (extractStridedSlice S64x256 ![off, 0] W h) (ix2 j k)
      = Spec.wrow (fun j i => T (ix2 j i)) (fun i k => W (ix2 i k)) off hoff j k := by
  have hs : ∀ i : Fin 64, extractStridedSlice S64x256 ![off, 0] W h (ix2 i k) = W (ix2 ⟨off + i.val, by have := i.isLt; omega⟩ k) := fun i =>
    extractStridedSlice_apply _ W h (ix2 i k) _ (fun a => match a with
      | ⟨0, _⟩ => rfl
      | ⟨1, _⟩ => (Nat.zero_add _).symm)
  generalize extractStridedSlice S64x256 ![off, 0] W h = y at hs ⊢
  simp only [Host.dotGeneral]
  rw [Ideal.dotGeneral_apply, ← Equiv.sum_comp (contrEquiv1 dot_S171x64_S64x256_S171x256_1_0_0_1_n_n 64 rfl rfl).symm]
  unfold Spec.wrow
  refine Finset.sum_congr rfl fun i _ => ?_
  have hk := contrEquiv1_symm_val dot_S171x64_S64x256_S171x256_1_0_0_1_n_n 64 rfl rfl i
  have el : dot_S171x64_S64x256_S171x256_1_0_0_1_n_n.lhsIdx (ix2 j k) ((contrEquiv1 dot_S171x64_S64x256_S171x256_1_0_0_1_n_n 64 rfl rfl).symm i) = ix2 j i := funext fun a => Fin.ext (by
    match a with
    | ⟨0, _⟩ => exact lhs_champ_0 _ _
    | ⟨1, _⟩ => exact (lhs_champ_1 _ _).trans hk)
  have er : dot_S171x64_S64x256_S171x256_1_0_0_1_n_n.rhsIdx (ix2 j k) ((contrEquiv1 dot_S171x64_S64x256_S171x256_1_0_0_1_n_n 64 rfl rfl).symm i) = ix2 i k := funext fun a => Fin.ext (by
    match a with
    | ⟨0, _⟩ => exact (rhs_champ_0 _ _).trans hk
    | ⟨1, _⟩ => exact rhs_champ_1 _ _)
  rw [el, er, hs i]

private theorem lhs_sp_0 (i : S33x256.Idx) (q : dot_S33x16_S16x256_S33x256_1_0_0_1_n_n.contr.Idx) :
    (dot_S33x16_S16x256_S33x256_1_0_0_1_n_n.lhsIdx i q 0).val = (i 0).val := by
  unfold DotDims.lhsIdx
  rw [dif_neg (show ¬(0 : Fin S33x16.rank) ∈ dot_S33x16_S16x256_S33x256_1_0_0_1_n_n.lhsBatch by decide), dif_pos (show (0 : Fin S33x16.rank) ∈ dot_S33x16_S16x256_S33x256_1_0_0_1_n_n.lhsNonContracting by decide)]
  rfl
private theorem lhs_sp_1 (i : S33x256.Idx) (q : dot_S33x16_S16x256_S33x256_1_0_0_1_n_n.contr.Idx) :
    (dot_S33x16_S16x256_S33x256_1_0_0_1_n_n.lhsIdx i q 1).val = (q ⟨0, by decide⟩).val :=
  dot_S33x16_S16x256_S33x256_1_0_0_1_n_n.lhsIdx_val_of_single rfl i q
private theorem rhs_sp_0 (i : S33x256.Idx) (q : dot_S33x16_S16x256_S33x256_1_0_0_1_n_n.contr.Idx) :
    (dot_S33x16_S16x256_S33x256_1_0_0_1_n_n.rhsIdx i q 0).val = (q ⟨0, by decide⟩).val :=
  dot_S33x16_S16x256_S33x256_1_0_0_1_n_n.rhsIdx_val_of_single rfl i q
private theorem rhs_sp_1 (i : S33x256.Idx) (q : dot_S33x16_S16x256_S33x256_1_0_0_1_n_n.contr.Idx) :
    (dot_S33x16_S16x256_S33x256_1_0_0_1_n_n.rhsIdx i q 1).val = (i 1).val := by
  unfold DotDims.rhsIdx
  rw [dif_neg (show ¬(1 : Fin S16x256.rank) ∈ dot_S33x16_S16x256_S33x256_1_0_0_1_n_n.rhsBatch by decide), dif_pos (show (1 : Fin S16x256.rank) ∈ dot_S33x16_S16x256_S33x256_1_0_0_1_n_n.rhsNonContracting by decide)]
  rfl

/-- A 33 × 16 table against the 16 rows of W1 from `off` on. -/
private theorem prod_sp (T : FVec Ideal S33x16 .f32) (W : FVec Ideal S272x256 .f32)
    (off : ℕ) (hoff : off + 16 ≤ 272) (h : S272x256.Slices ![off, 0] S16x256) (j : Fin 33) (k : Fin 256) :
    Host.dotGeneral (F := Ideal) dot_S33x16_S16x256_S33x256_1_0_0_1_n_n none T (extractStridedSlice S16x256 ![off, 0] W h) (ix2 j k)
      = Spec.wrow (fun j i => T (ix2 j i)) (fun i k => W (ix2 i k)) off hoff j k := by
  have hs : ∀ i : Fin 16, extractStridedSlice S16x256 ![off, 0] W h (ix2 i k) = W (ix2 ⟨off + i.val, by have := i.isLt; omega⟩ k) := fun i =>
    extractStridedSlice_apply _ W h (ix2 i k) _ (fun a => match a with
      | ⟨0, _⟩ => rfl
      | ⟨1, _⟩ => (Nat.zero_add _).symm)
  generalize extractStridedSlice S16x256 ![off, 0] W h = y at hs ⊢
  simp only [Host.dotGeneral]
  rw [Ideal.dotGeneral_apply, ← Equiv.sum_comp (contrEquiv1 dot_S33x16_S16x256_S33x256_1_0_0_1_n_n 16 rfl rfl).symm]
  unfold Spec.wrow
  refine Finset.sum_congr rfl fun i _ => ?_
  have hk := contrEquiv1_symm_val dot_S33x16_S16x256_S33x256_1_0_0_1_n_n 16 rfl rfl i
  have el : dot_S33x16_S16x256_S33x256_1_0_0_1_n_n.lhsIdx (ix2 j k) ((contrEquiv1 dot_S33x16_S16x256_S33x256_1_0_0_1_n_n 16 rfl rfl).symm i) = ix2 j i := funext fun a => Fin.ext (by
    match a with
    | ⟨0, _⟩ => exact lhs_sp_0 _ _
    | ⟨1, _⟩ => exact (lhs_sp_1 _ _).trans hk)
  have er : dot_S33x16_S16x256_S33x256_1_0_0_1_n_n.rhsIdx (ix2 j k) ((contrEquiv1 dot_S33x16_S16x256_S33x256_1_0_0_1_n_n 16 rfl rfl).symm i) = ix2 i k := funext fun a => Fin.ext (by
    match a with
    | ⟨0, _⟩ => exact (rhs_sp_0 _ _).trans hk
    | ⟨1, _⟩ => exact rhs_sp_1 _ _)
  rw [el, er, hs i]

private theorem lhs_nine_0 (i : S9x256.Idx) (q : dot_S9x16_S16x256_S9x256_1_0_0_1_n_n.contr.Idx) :
    (dot_S9x16_S16x256_S9x256_1_0_0_1_n_n.lhsIdx i q 0).val = (i 0).val := by
  unfold DotDims.lhsIdx
  rw [dif_neg (show ¬(0 : Fin S9x16.rank) ∈ dot_S9x16_S16x256_S9x256_1_0_0_1_n_n.lhsBatch by decide), dif_pos (show (0 : Fin S9x16.rank) ∈ dot_S9x16_S16x256_S9x256_1_0_0_1_n_n.lhsNonContracting by decide)]
  rfl
private theorem lhs_nine_1 (i : S9x256.Idx) (q : dot_S9x16_S16x256_S9x256_1_0_0_1_n_n.contr.Idx) :
    (dot_S9x16_S16x256_S9x256_1_0_0_1_n_n.lhsIdx i q 1).val = (q ⟨0, by decide⟩).val :=
  dot_S9x16_S16x256_S9x256_1_0_0_1_n_n.lhsIdx_val_of_single rfl i q
private theorem rhs_nine_0 (i : S9x256.Idx) (q : dot_S9x16_S16x256_S9x256_1_0_0_1_n_n.contr.Idx) :
    (dot_S9x16_S16x256_S9x256_1_0_0_1_n_n.rhsIdx i q 0).val = (q ⟨0, by decide⟩).val :=
  dot_S9x16_S16x256_S9x256_1_0_0_1_n_n.rhsIdx_val_of_single rfl i q
private theorem rhs_nine_1 (i : S9x256.Idx) (q : dot_S9x16_S16x256_S9x256_1_0_0_1_n_n.contr.Idx) :
    (dot_S9x16_S16x256_S9x256_1_0_0_1_n_n.rhsIdx i q 1).val = (i 1).val := by
  unfold DotDims.rhsIdx
  rw [dif_neg (show ¬(1 : Fin S16x256.rank) ∈ dot_S9x16_S16x256_S9x256_1_0_0_1_n_n.rhsBatch by decide), dif_pos (show (1 : Fin S16x256.rank) ∈ dot_S9x16_S16x256_S9x256_1_0_0_1_n_n.rhsNonContracting by decide)]
  rfl

/-- A 9 × 16 table against the 16 rows of W1 from `off` on. -/
private theorem prod_nine (T : FVec Ideal S9x16 .f32) (W : FVec Ideal S272x256 .f32)
    (off : ℕ) (hoff : off + 16 ≤ 272) (h : S272x256.Slices ![off, 0] S16x256) (j : Fin 9) (k : Fin 256) :
    Host.dotGeneral (F := Ideal) dot_S9x16_S16x256_S9x256_1_0_0_1_n_n none T (extractStridedSlice S16x256 ![off, 0] W h) (ix2 j k)
      = Spec.wrow (fun j i => T (ix2 j i)) (fun i k => W (ix2 i k)) off hoff j k := by
  have hs : ∀ i : Fin 16, extractStridedSlice S16x256 ![off, 0] W h (ix2 i k) = W (ix2 ⟨off + i.val, by have := i.isLt; omega⟩ k) := fun i =>
    extractStridedSlice_apply _ W h (ix2 i k) _ (fun a => match a with
      | ⟨0, _⟩ => rfl
      | ⟨1, _⟩ => (Nat.zero_add _).symm)
  generalize extractStridedSlice S16x256 ![off, 0] W h = y at hs ⊢
  simp only [Host.dotGeneral]
  rw [Ideal.dotGeneral_apply, ← Equiv.sum_comp (contrEquiv1 dot_S9x16_S16x256_S9x256_1_0_0_1_n_n 16 rfl rfl).symm]
  unfold Spec.wrow
  refine Finset.sum_congr rfl fun i _ => ?_
  have hk := contrEquiv1_symm_val dot_S9x16_S16x256_S9x256_1_0_0_1_n_n 16 rfl rfl i
  have el : dot_S9x16_S16x256_S9x256_1_0_0_1_n_n.lhsIdx (ix2 j k) ((contrEquiv1 dot_S9x16_S16x256_S9x256_1_0_0_1_n_n 16 rfl rfl).symm i) = ix2 j i := funext fun a => Fin.ext (by
    match a with
    | ⟨0, _⟩ => exact lhs_nine_0 _ _
    | ⟨1, _⟩ => exact (lhs_nine_1 _ _).trans hk)
  have er : dot_S9x16_S16x256_S9x256_1_0_0_1_n_n.rhsIdx (ix2 j k) ((contrEquiv1 dot_S9x16_S16x256_S9x256_1_0_0_1_n_n 16 rfl rfl).symm i) = ix2 i k := funext fun a => Fin.ext (by
    match a with
    | ⟨0, _⟩ => exact (rhs_nine_0 _ _).trans hk
    | ⟨1, _⟩ => exact rhs_nine_1 _ _)
  rw [el, er, hs i]

private theorem lhs_sf_0 (i : S65x256.Idx) (q : dot_S65x16_S16x256_S65x256_1_0_0_1_n_n.contr.Idx) :
    (dot_S65x16_S16x256_S65x256_1_0_0_1_n_n.lhsIdx i q 0).val = (i 0).val := by
  unfold DotDims.lhsIdx
  rw [dif_neg (show ¬(0 : Fin S65x16.rank) ∈ dot_S65x16_S16x256_S65x256_1_0_0_1_n_n.lhsBatch by decide), dif_pos (show (0 : Fin S65x16.rank) ∈ dot_S65x16_S16x256_S65x256_1_0_0_1_n_n.lhsNonContracting by decide)]
  rfl
private theorem lhs_sf_1 (i : S65x256.Idx) (q : dot_S65x16_S16x256_S65x256_1_0_0_1_n_n.contr.Idx) :
    (dot_S65x16_S16x256_S65x256_1_0_0_1_n_n.lhsIdx i q 1).val = (q ⟨0, by decide⟩).val :=
  dot_S65x16_S16x256_S65x256_1_0_0_1_n_n.lhsIdx_val_of_single rfl i q
private theorem rhs_sf_0 (i : S65x256.Idx) (q : dot_S65x16_S16x256_S65x256_1_0_0_1_n_n.contr.Idx) :
    (dot_S65x16_S16x256_S65x256_1_0_0_1_n_n.rhsIdx i q 0).val = (q ⟨0, by decide⟩).val :=
  dot_S65x16_S16x256_S65x256_1_0_0_1_n_n.rhsIdx_val_of_single rfl i q
private theorem rhs_sf_1 (i : S65x256.Idx) (q : dot_S65x16_S16x256_S65x256_1_0_0_1_n_n.contr.Idx) :
    (dot_S65x16_S16x256_S65x256_1_0_0_1_n_n.rhsIdx i q 1).val = (i 1).val := by
  unfold DotDims.rhsIdx
  rw [dif_neg (show ¬(1 : Fin S16x256.rank) ∈ dot_S65x16_S16x256_S65x256_1_0_0_1_n_n.rhsBatch by decide), dif_pos (show (1 : Fin S16x256.rank) ∈ dot_S65x16_S16x256_S65x256_1_0_0_1_n_n.rhsNonContracting by decide)]
  rfl

/-- A 65 × 16 table against the 16 rows of W1 from `off` on. -/
private theorem prod_sf (T : FVec Ideal S65x16 .f32) (W : FVec Ideal S272x256 .f32)
    (off : ℕ) (hoff : off + 16 ≤ 272) (h : S272x256.Slices ![off, 0] S16x256) (j : Fin 65) (k : Fin 256) :
    Host.dotGeneral (F := Ideal) dot_S65x16_S16x256_S65x256_1_0_0_1_n_n none T (extractStridedSlice S16x256 ![off, 0] W h) (ix2 j k)
      = Spec.wrow (fun j i => T (ix2 j i)) (fun i k => W (ix2 i k)) off hoff j k := by
  have hs : ∀ i : Fin 16, extractStridedSlice S16x256 ![off, 0] W h (ix2 i k) = W (ix2 ⟨off + i.val, by have := i.isLt; omega⟩ k) := fun i =>
    extractStridedSlice_apply _ W h (ix2 i k) _ (fun a => match a with
      | ⟨0, _⟩ => rfl
      | ⟨1, _⟩ => (Nat.zero_add _).symm)
  generalize extractStridedSlice S16x256 ![off, 0] W h = y at hs ⊢
  simp only [Host.dotGeneral]
  rw [Ideal.dotGeneral_apply, ← Equiv.sum_comp (contrEquiv1 dot_S65x16_S16x256_S65x256_1_0_0_1_n_n 16 rfl rfl).symm]
  unfold Spec.wrow
  refine Finset.sum_congr rfl fun i _ => ?_
  have hk := contrEquiv1_symm_val dot_S65x16_S16x256_S65x256_1_0_0_1_n_n 16 rfl rfl i
  have el : dot_S65x16_S16x256_S65x256_1_0_0_1_n_n.lhsIdx (ix2 j k) ((contrEquiv1 dot_S65x16_S16x256_S65x256_1_0_0_1_n_n 16 rfl rfl).symm i) = ix2 j i := funext fun a => Fin.ext (by
    match a with
    | ⟨0, _⟩ => exact lhs_sf_0 _ _
    | ⟨1, _⟩ => exact (lhs_sf_1 _ _).trans hk)
  have er : dot_S65x16_S16x256_S65x256_1_0_0_1_n_n.rhsIdx (ix2 j k) ((contrEquiv1 dot_S65x16_S16x256_S65x256_1_0_0_1_n_n 16 rfl rfl).symm i) = ix2 i k := funext fun a => Fin.ext (by
    match a with
    | ⟨0, _⟩ => exact (rhs_sf_0 _ _).trans hk
    | ⟨1, _⟩ => exact rhs_sf_1 _ _)
  rw [el, er, hs i]

/-! ## The eight products stacked along the rows -/

/-- Row `j` of the stack of eight blocks of 171, 171, 171, 33, 9, 9, 65 and 65 rows is the row of the block that holds it,
    counted from that block's first row (0, 171, 342, 513, 546, 555, 564, 629). -/
private theorem stack_apply (u0 u1 u2 : FVec Ideal S171x256 .f32) (u3 : FVec Ideal S33x256 .f32) (u4 u5 : FVec Ideal S9x256 .f32)
    (u6 u7 : FVec Ideal S65x256 .f32)
    (h : Shape.Concatenates [S171x256, S171x256, S171x256, S33x256, S9x256, S9x256, S65x256, S65x256] S694x256 0)
    (j : Fin 694) (k : Fin 256) :
    concatenate S694x256 0 [⟨S171x256, u0⟩, ⟨S171x256, u1⟩, ⟨S171x256, u2⟩, ⟨S33x256, u3⟩, ⟨S9x256, u4⟩, ⟨S9x256, u5⟩, ⟨S65x256, u6⟩, ⟨S65x256, u7⟩] h (ix2 j k)
      = if h : j.val < 171 then u0 (ix2 ⟨j.val, h⟩ k)
        else if h : j.val < 342 then u1 (ix2 ⟨j.val - 171, by omega⟩ k)
        else if h : j.val < 513 then u2 (ix2 ⟨j.val - 342, by omega⟩ k)
        else if h : j.val < 546 then u3 (ix2 ⟨j.val - 513, by omega⟩ k)
        else if h : j.val < 555 then u4 (ix2 ⟨j.val - 546, by omega⟩ k)
        else if h : j.val < 564 then u5 (ix2 ⟨j.val - 555, by omega⟩ k)
        else if h : j.val < 629 then u6 (ix2 ⟨j.val - 564, by omega⟩ k)
        else u7 (ix2 ⟨j.val - 629, by have := j.isLt; omega⟩ k) := by
  -- off the stacking axis a block's entry and the stack's entry have the same column
  have off_axis : ∀ (s₁ : Shape) (hr : s₁.rank = S694x256.rank) (i : s₁.Idx), (i ⟨1, by rw [hr]; decide⟩).val = k.val →
      ∀ b : Fin s₁.rank, b.cast hr ≠ (0 : Fin S694x256.rank) → (i b).val = ((ix2 j k : S694x256.Idx) (b.cast hr)).val := by
    intro s₁ hr i hi b hb
    have hb2 : b.val < 2 := lt_of_lt_of_eq b.isLt hr
    have hb0 : b.val ≠ 0 := fun e => hb (Fin.ext e)
    have hb1 : b = ⟨1, by rw [hr]; decide⟩ := Fin.ext (by show b.val = 1; omega)
    subst hb1
    exact hi
  split_ifs with h1 h2 h3 h4 h5 h6 h7
  · refine concatenate_apply_piece (0 : Fin S694x256.rank) _ _ (ix2 j k) 0 ?_ S171x256 u0 ?_ rfl 0 ?_ (ix2 ⟨j.val, h1⟩ k) (off_axis S171x256 rfl _ rfl) ?_
    · show (0 : ℕ) < 8; decide
    · rfl
    · rfl
    · show 0 + j.val = j.val; omega
  · refine concatenate_apply_piece (0 : Fin S694x256.rank) _ _ (ix2 j k) 1 ?_ S171x256 u1 ?_ rfl 171 ?_ (ix2 ⟨j.val - 171, by omega⟩ k) (off_axis S171x256 rfl _ rfl) ?_
    · show (1 : ℕ) < 8; decide
    · rfl
    · rfl
    · show 171 + (j.val - 171) = j.val; omega
  · refine concatenate_apply_piece (0 : Fin S694x256.rank) _ _ (ix2 j k) 2 ?_ S171x256 u2 ?_ rfl 342 ?_ (ix2 ⟨j.val - 342, by omega⟩ k) (off_axis S171x256 rfl _ rfl) ?_
    · show (2 : ℕ) < 8; decide
    · rfl
    · rfl
    · show 342 + (j.val - 342) = j.val; omega
  · refine concatenate_apply_piece (0 : Fin S694x256.rank) _ _ (ix2 j k) 3 ?_ S33x256 u3 ?_ rfl 513 ?_ (ix2 ⟨j.val - 513, by omega⟩ k) (off_axis S33x256 rfl _ rfl) ?_
    · show (3 : ℕ) < 8; decide
    · rfl
    · rfl
    · show 513 + (j.val - 513) = j.val; omega
  · refine concatenate_apply_piece (0 : Fin S694x256.rank) _ _ (ix2 j k) 4 ?_ S9x256 u4 ?_ rfl 546 ?_ (ix2 ⟨j.val - 546, by omega⟩ k) (off_axis S9x256 rfl _ rfl) ?_
    · show (4 : ℕ) < 8; decide
    · rfl
    · rfl
    · show 546 + (j.val - 546) = j.val; omega
  · refine concatenate_apply_piece (0 : Fin S694x256.rank) _ _ (ix2 j k) 5 ?_ S9x256 u5 ?_ rfl 555 ?_ (ix2 ⟨j.val - 555, by omega⟩ k) (off_axis S9x256 rfl _ rfl) ?_
    · show (5 : ℕ) < 8; decide
    · rfl
    · rfl
    · show 555 + (j.val - 555) = j.val; omega
  · refine concatenate_apply_piece (0 : Fin S694x256.rank) _ _ (ix2 j k) 6 ?_ S65x256 u6 ?_ rfl 564 ?_ (ix2 ⟨j.val - 564, by omega⟩ k) (off_axis S65x256 rfl _ rfl) ?_
    · show (6 : ℕ) < 8; decide
    · rfl
    · rfl
    · show 564 + (j.val - 564) = j.val; omega
  · refine concatenate_apply_piece (0 : Fin S694x256.rank) _ _ (ix2 j k) 7 ?_ S65x256 u7 ?_ rfl 629 ?_ (ix2 ⟨j.val - 629, by have := j.isLt; omega⟩ k) (off_axis S65x256 rfl _ rfl) ?_
    · show (7 : ℕ) < 8; decide
    · rfl
    · rfl
    · show 629 + (j.val - 629) = j.val; have := j.isLt; omega

/-! ## What the call finds -/

variable (m : (ℓ : Loc nD τ sig) → Buf (Elt Ideal) ℓ)

/-- Core `c`'s buffers after the first twenty host operations: the index columns packed, W1 cut into its eight slabs and
    each table multiplied into its slab. The four operations that follow (the stacking, two changes of float format and
    a reshape) write none of the eight products' buffers. -/
private def stage (c : Dev nD) : Valuation τ sig (Elt Ideal) :=
  StableHlo.after (List.take 20 hostOps0) (fun b => m (c, b))

/-- Each product's buffer after those twenty operations: its table times its slab of W1. -/
private theorem stage_v11 (c : Dev nD) :
    stage m c (Proc.devRef .tc main_v11)
      = Host.dotGeneral (F := Ideal) (φ₁ := .f32) (φ₂ := .f32) dot_S171x64_S64x256_S171x256_1_0_0_1_n_n none (m ((c : Thread nD τ).loc main_arg4) : FVec Ideal S171x64 .f32)
          (extractStridedSlice S64x256 ![0, 0] (m ((c : Thread nD τ).loc main_arg10) : FVec Ideal S272x256 .f32) slices_S272x256_S64x256_0_0) := by
  simp only [stage, hostOps0, List.take_succ_cons, List.take_zero]
  after_results_simp
private theorem stage_v12 (c : Dev nD) :
    stage m c (Proc.devRef .tc main_v12)
      = Host.dotGeneral (F := Ideal) (φ₁ := .f32) (φ₂ := .f32) dot_S171x64_S64x256_S171x256_1_0_0_1_n_n none (m ((c : Thread nD τ).loc main_arg4) : FVec Ideal S171x64 .f32)
          (extractStridedSlice S64x256 ![64, 0] (m ((c : Thread nD τ).loc main_arg10) : FVec Ideal S272x256 .f32) slices_S272x256_S64x256_64_0) := by
  simp only [stage, hostOps0, List.take_succ_cons, List.take_zero]
  after_results_simp
private theorem stage_v13 (c : Dev nD) :
    stage m c (Proc.devRef .tc main_v13)
      = Host.dotGeneral (F := Ideal) (φ₁ := .f32) (φ₂ := .f32) dot_S171x64_S64x256_S171x256_1_0_0_1_n_n none (m ((c : Thread nD τ).loc main_arg4) : FVec Ideal S171x64 .f32)
          (extractStridedSlice S64x256 ![128, 0] (m ((c : Thread nD τ).loc main_arg10) : FVec Ideal S272x256 .f32) slices_S272x256_S64x256_128_0) := by
  simp only [stage, hostOps0, List.take_succ_cons, List.take_zero]
  after_results_simp
private theorem stage_v14 (c : Dev nD) :
    stage m c (Proc.devRef .tc main_v14)
      = Host.dotGeneral (F := Ideal) (φ₁ := .f32) (φ₂ := .f32) dot_S33x16_S16x256_S33x256_1_0_0_1_n_n none (m ((c : Thread nD τ).loc main_arg5) : FVec Ideal S33x16 .f32)
          (extractStridedSlice S16x256 ![192, 0] (m ((c : Thread nD τ).loc main_arg10) : FVec Ideal S272x256 .f32) slices_S272x256_S16x256_192_0) := by
  simp only [stage, hostOps0, List.take_succ_cons, List.take_zero]
  after_results_simp
private theorem stage_v15 (c : Dev nD) :
    stage m c (Proc.devRef .tc main_v15)
      = Host.dotGeneral (F := Ideal) (φ₁ := .f32) (φ₂ := .f32) dot_S9x16_S16x256_S9x256_1_0_0_1_n_n none (m ((c : Thread nD τ).loc main_arg6) : FVec Ideal S9x16 .f32)
          (extractStridedSlice S16x256 ![208, 0] (m ((c : Thread nD τ).loc main_arg10) : FVec Ideal S272x256 .f32) slices_S272x256_S16x256_208_0) := by
  simp only [stage, hostOps0, List.take_succ_cons, List.take_zero]
  after_results_simp
private theorem stage_v16 (c : Dev nD) :
    stage m c (Proc.devRef .tc main_v16)
      = Host.dotGeneral (F := Ideal) (φ₁ := .f32) (φ₂ := .f32) dot_S9x16_S16x256_S9x256_1_0_0_1_n_n none (m ((c : Thread nD τ).loc main_arg7) : FVec Ideal S9x16 .f32)
          (extractStridedSlice S16x256 ![224, 0] (m ((c : Thread nD τ).loc main_arg10) : FVec Ideal S272x256 .f32) slices_S272x256_S16x256_224_0) := by
  simp only [stage, hostOps0, List.take_succ_cons, List.take_zero]
  after_results_simp
private theorem stage_v17 (c : Dev nD) :
    stage m c (Proc.devRef .tc main_v17)
      = Host.dotGeneral (F := Ideal) (φ₁ := .f32) (φ₂ := .f32) dot_S65x16_S16x256_S65x256_1_0_0_1_n_n none (m ((c : Thread nD τ).loc main_arg8) : FVec Ideal S65x16 .f32)
          (extractStridedSlice S16x256 ![240, 0] (m ((c : Thread nD τ).loc main_arg10) : FVec Ideal S272x256 .f32) slices_S272x256_S16x256_240_0) := by
  simp only [stage, hostOps0, List.take_succ_cons, List.take_zero]
  after_results_simp
private theorem stage_v18 (c : Dev nD) :
    stage m c (Proc.devRef .tc main_v18)
      = Host.dotGeneral (F := Ideal) (φ₁ := .f32) (φ₂ := .f32) dot_S65x16_S16x256_S65x256_1_0_0_1_n_n none (m ((c : Thread nD τ).loc main_arg9) : FVec Ideal S65x16 .f32)
          (extractStridedSlice S16x256 ![256, 0] (m ((c : Thread nD τ).loc main_arg10) : FVec Ideal S272x256 .f32) slices_S272x256_S16x256_256_0) := by
  simp only [stage, hostOps0, List.take_succ_cons, List.take_zero]
  after_results_simp

theorem fused_entry (c : Dev nD) (j : Fin 694) (k : Fin 256) :
    Region.atEntry m c main_v20 (ix2 j k)
      = Spec.fused (Spec.tablesOf (m ((c : Thread nD τ).loc main_arg4)) (m ((c : Thread nD τ).loc main_arg5)) (m ((c : Thread nD τ).loc main_arg6))
          (m ((c : Thread nD τ).loc main_arg7)) (m ((c : Thread nD τ).loc main_arg8)) (m ((c : Thread nD τ).loc main_arg9)) (m ((c : Thread nD τ).loc main_arg10))) j k := by
  -- the twenty-four operations are the first twenty, then the last four
  have hsplit : StableHlo.after (List.flatten [hostOps0]) (fun b => m (c, b))
      = StableHlo.after (List.drop 20 hostOps0) (stage m c) := by
    rw [List.flatten_cons, List.flatten_nil, List.append_nil]
    exact (congrArg (fun l => StableHlo.after l _) (List.take_append_drop 20 hostOps0).symm).trans (StableHlo.after_append _ _ _)
  show StableHlo.after (List.flatten [hostOps0]) (fun b => m (c, b)) (Proc.devRef .tc main_v20) (ix2 j k) = _
  rw [hsplit]
  -- of the last four, the buffer is the change of format of the stack of the eight products' buffers
  simp only [hostOps0, List.drop_succ_cons, List.drop_zero]
  simp (disch := decide) only [StableHlo.after_cons, StableHlo.after_nil, nary8_result, StableHlo.unary_result', StableHlo.unary_result_ne',
    StableHlo.reshape_result_ne']
  -- the change of format is the identity on extended reals; then the row's block, and that block's product
  refine (truncf_apply (s := S694x256) (φ := .f32) (ψ := .bf16) _ bitsLt_bf16_f32 (ix2 j k)).trans ?_
  refine (stack_apply _ _ _ _ _ _ _ _ _ j k).trans ?_
  unfold Spec.fused
  by_cases h1 : j.val < 171
  · refine (dif_pos h1).trans (Eq.trans ?_ (dif_pos h1).symm)
    show stage m c (Proc.devRef .tc main_v11) (ix2 _ k) = _
    rw [stage_v11]
    exact prod_champ _ _ 0 _ _ _ k
  refine (dif_neg h1).trans (Eq.trans ?_ (dif_neg h1).symm)
  by_cases h2 : j.val < 342
  · refine (dif_pos h2).trans (Eq.trans ?_ (dif_pos h2).symm)
    show stage m c (Proc.devRef .tc main_v12) (ix2 _ k) = _
    rw [stage_v12]
    exact prod_champ _ _ 64 _ _ _ k
  refine (dif_neg h2).trans (Eq.trans ?_ (dif_neg h2).symm)
  by_cases h3 : j.val < 513
  · refine (dif_pos h3).trans (Eq.trans ?_ (dif_pos h3).symm)
    show stage m c (Proc.devRef .tc main_v13) (ix2 _ k) = _
    rw [stage_v13]
    exact prod_champ _ _ 128 _ _ _ k
  refine (dif_neg h3).trans (Eq.trans ?_ (dif_neg h3).symm)
  by_cases h4 : j.val < 546
  · refine (dif_pos h4).trans (Eq.trans ?_ (dif_pos h4).symm)
    show stage m c (Proc.devRef .tc main_v14) (ix2 _ k) = _
    rw [stage_v14]
    exact prod_sp _ _ 192 _ _ _ k
  refine (dif_neg h4).trans (Eq.trans ?_ (dif_neg h4).symm)
  by_cases h5 : j.val < 555
  · refine (dif_pos h5).trans (Eq.trans ?_ (dif_pos h5).symm)
    show stage m c (Proc.devRef .tc main_v15) (ix2 _ k) = _
    rw [stage_v15]
    exact prod_nine _ _ 208 _ _ _ k
  refine (dif_neg h5).trans (Eq.trans ?_ (dif_neg h5).symm)
  by_cases h6 : j.val < 564
  · refine (dif_pos h6).trans (Eq.trans ?_ (dif_pos h6).symm)
    show stage m c (Proc.devRef .tc main_v16) (ix2 _ k) = _
    rw [stage_v16]
    exact prod_nine _ _ 224 _ _ _ k
  refine (dif_neg h6).trans (Eq.trans ?_ (dif_neg h6).symm)
  by_cases h7 : j.val < 629
  · refine (dif_pos h7).trans (Eq.trans ?_ (dif_pos h7).symm)
    show stage m c (Proc.devRef .tc main_v17) (ix2 _ k) = _
    rw [stage_v17]
    exact prod_sf _ _ 240 _ _ _ k
  refine (dif_neg h7).trans (Eq.trans ?_ (dif_neg h7).symm)
  show stage m c (Proc.devRef .tc main_v18) (ix2 _ k) = _
  rw [stage_v18]
  exact prod_sf _ _ 256 _ _ _ k

end Cert.KernelIdeal.Entry

end
-- ==== Proof.KernelIdealValue.lean ====
/-
  The idealized kernel's result array, entry by entry, as the spec's function of the sixteen argument arrays.

  A row of a tile scores as the later layers applied to "multi-hot row of the row's sixteen words times the stacked
  weight block" (the body's tail, with its four pieces read as the spec's multi-hot lanes); the result array's entry `r`
  is therefore that function of row `r` of the packed index array and of the other buffers as the call finds them; and
  those are the packed words of the four index arguments, the spec's stacked weight of the seven table arguments, and the
  later layers' parameters as launched.
-/
import proofs.«421530_j28664611733761_3_alg».proof.Proof.KernelIdealRegion
import proofs.«421530_j28664611733761_3_alg».proof.Proof.Spec
import proofs.«421530_j28664611733761_3_alg».proof.Proof.BodyTail
import proofs.«421530_j28664611733761_3_alg».proof.Proof.BodyHot
import proofs.«421530_j28664611733761_3_alg».proof.Proof.BodyHotMisc
import proofs.«421530_j28664611733761_3_alg».proof.Proof.KernelIdealArray
import proofs.«421530_j28664611733761_3_alg».proof.Proof.KernelIdealEntry
import proofs.«421530_j28664611733761_3_alg».proof.Proof.KernelIdealFused

noncomputable section

open scoped BigOperators

namespace Cert.KernelIdeal.Result

open Idealize.ShloMosaic Idealize.ShloMosaic.TcCoe Idealize.ShloMosaic.ValueIdx Idealize.SL.Sem Cert.KernelIdeal Cert.KernelIdeal.Gen

/-- The four pieces the body lays side by side are, lane by lane, the multi-hot row of the row's selection. -/
theorem catRow_hot (ix : Vec Ideal S4096x16 .i32) (p : Fin 4096) (j : Fin 694) :
    Body.catRow (k0_pay6 (F := Ideal) ix)
      (k0_pay9 (F := Ideal) (k0_pay3 ix) Region.lanes171 (k0_pay7 ix) (k0_pay8 ix))
      (k0_pay14 (F := Ideal) Region.lanes171 (k0_pay11 (k0_pay4 ix) Region.lanes171 (k0_pay10 (F := Ideal) (k0_pay4 ix) Region.lanes171)) (k0_pay12 (k0_pay4 ix)) (k0_pay13 (k0_pay4 ix)) 170#32)
      (k0_pay17 (F := Ideal) (k0_pay5 ix) Region.lanes181 (k0_pay15 (F := Ideal) (k0_pay5 ix)) (k0_pay16 (k0_pay5 ix)) 0#32) p j
      = Spec.mhot (Spec.Sel.ofWords (Spec.rowW ix p)) j := by
  unfold Body.catRow
  by_cases h1 : j.val < 171
  · rw [dif_pos h1]; exact Body.hot_my ix p ⟨j.val, h1⟩
  · rw [dif_neg h1]
    by_cases h2 : j.val < 342
    · rw [dif_pos h2]
      refine (Body.hot_ally ix p ⟨j.val - 171, by omega⟩).trans ?_
      congr 1; exact Fin.ext (by show 171 + (j.val - 171) = j.val; omega)
    · rw [dif_neg h2]
      by_cases h3 : j.val < 513
      · rw [dif_pos h3]
        refine (Body.hot_enem ix p ⟨j.val - 342, by omega⟩).trans ?_
        congr 1; exact Fin.ext (by show 342 + (j.val - 342) = j.val; omega)
      · rw [dif_neg h3]
        refine (Body.hot_misc ix p ⟨j.val - 513, by have := j.isLt; omega⟩).trans ?_
        congr 1; exact Fin.ext (by show 513 + (j.val - 513) = j.val; omega)

/-- A row's score from its sixteen words and the other six loaded blocks. -/
def rowScore (w : Fin 16 → BitVec 32) (w1 : FVec Ideal S694x256 .bf16) (w2 : FVec Ideal S256x128 .bf16) (b1 : FVec Ideal S256 .f32)
    (b2 w3 : FVec Ideal S128 .f32) (b3 : FVec Ideal S1 .f32) : EReal :=
  Spec.mlp (Body.blockTail w2 b1 b2 w3 b3) (fun k => ∑ j : Fin 694, Spec.mhot (Spec.Sel.ofWords w) j * w1 (ix2 j k))

/-- Row `p` of a tile's scores depends on the index block through row `p` alone. -/
theorem scores_row (ix : Vec Ideal S4096x16 .i32) (w1 : FVec Ideal S694x256 .bf16) (w2 : FVec Ideal S256x128 .bf16) (b1 : FVec Ideal S256 .f32)
    (b2 w3 : FVec Ideal S128 .f32) (b3 : FVec Ideal S1 .f32) (p : Fin 4096) :
    Region.scores (F := Ideal) ix w1 w2 b1 b2 w3 b3 (ix1 p) = rowScore (Spec.rowW ix p) w1 w2 b1 b2 w3 b3 := by
  unfold Region.scores rowScore
  rw [Body.pay1_apply]
  congr 1; funext k
  exact Finset.sum_congr rfl (fun j _ => by rw [catRow_hot])

variable (m : (ℓ : Loc nD τ sig) → Buf (Elt Ideal) ℓ)

/-- The later layers' parameters as the call finds them are the arguments' as launched. -/
theorem tail_entry (c : Dev nD) :
    Body.blockTail (Region.atEntry m c main_v21) (Region.atEntry m c main_arg11) (Region.atEntry m c main_arg13) (Region.atEntry m c main_v22) (Region.atEntry m c main_arg15)
      = Spec.tailOf (m ((c : Thread nD τ).loc main_arg11)) (m ((c : Thread nD τ).loc main_arg12)) (m ((c : Thread nD τ).loc main_arg13)) (m ((c : Thread nD τ).loc main_arg14)) (m ((c : Thread nD τ).loc main_arg15)) := by
  simp only [Body.blockTail, Spec.tailOf, Spec.Tail.mk.injEq]
  refine ⟨funext fun k => ?_, funext fun k => funext fun n => ?_, funext fun n => ?_, funext fun n => ?_, ?_⟩
  · exact congrFun (Region.atEntry_arg11 m c) (ix1 k)
  · exact Entry.w2_entry m c k n
  · exact congrFun (Region.atEntry_arg13 m c) (ix1 n)
  · exact Entry.w3_entry m c n
  · exact congrFun (Region.atEntry_arg15 m c) (ix1 (0 : Fin 1))

/-- Entry `r` of the result array: the later layers on "the multi-hot row of row `r`'s packed words times the stacked weight". -/
theorem out_entry (c : Dev nD) (r : Fin 262144) :
    (Region.pdata (F := Ideal) m 0 c).arrAt 7 cfg0.N (ix1 r)
      = Spec.mlp (Spec.tailOf (m ((c : Thread nD τ).loc main_arg11)) (m ((c : Thread nD τ).loc main_arg12)) (m ((c : Thread nD τ).loc main_arg13)) (m ((c : Thread nD τ).loc main_arg14)) (m ((c : Thread nD τ).loc main_arg15)))
          (fun k => ∑ j : Fin 694, Spec.mhot (Spec.Sel.ofWords (Spec.packWords (m ((c : Thread nD τ).loc main_arg0)) (m ((c : Thread nD τ).loc main_arg1)) (m ((c : Thread nD τ).loc main_arg2)) (m ((c : Thread nD τ).loc main_arg3)) r)) j
            * Spec.fused (Spec.tablesOf (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) j k) := by
  rw [Arr.out_row m rowScore scores_row c r]
  unfold rowScore
  rw [Entry.packed_entry m c r, tail_entry m c]
  congr 1; funext k
  exact Finset.sum_congr rfl (fun j _ => by rw [Entry.fused_entry m c j k])

end Cert.KernelIdeal.Result

end
-- ==== Proof.SpecAlgebra.lean ====
/-
  The one law that joins the two programs: a multi-hot row times the stacked products "table · slice of W1" is the
  gathered features times W1. With every table entry a real number both sides are finite sums of products of reals:
  an indicator picks one row of "table · slice"; a count vector picks the sum of the counted rows; and a sum of rows
  times a slice is the sum of the rows' products with it.
-/
import proofs.«421530_j28664611733761_3_alg».proof.Proof.Spec

noncomputable section

open scoped BigOperators

namespace Cert.Spec

/-! ## Sums over an initial segment of the naturals, cut in blocks -/

/-- A sum over `Fin n` with `n = a + b` is the sum over the first `a` indices plus the sum over the last `b`. -/
private theorem sum_split {M : Type*} [AddCommMonoid M] {n : ℕ} (a b : ℕ) (h : n = a + b) (f : Fin n → M) :
    ∑ j : Fin n, f j
      = (∑ j : Fin a, f ⟨j.val, by have := j.isLt; omega⟩) + ∑ j : Fin b, f ⟨a + j.val, by have := j.isLt; omega⟩ := by
  subst h
  rw [Fin.sum_univ_add]
  rfl

/-- The 694 lanes in their eight blocks: 171 + 171 + 171 + 33 + 9 + 9 + 65 + 65. -/
private theorem split694 {M : Type*} [AddCommMonoid M] (f : Fin 694 → M) :
    ∑ j : Fin 694, f j
      = (∑ j : Fin 171, f ⟨j.val, by have := j.isLt; omega⟩)
        + (∑ j : Fin 171, f ⟨171 + j.val, by have := j.isLt; omega⟩)
        + (∑ j : Fin 171, f ⟨342 + j.val, by have := j.isLt; omega⟩)
        + (∑ j : Fin 33, f ⟨513 + j.val, by have := j.isLt; omega⟩)
        + (∑ j : Fin 9, f ⟨546 + j.val, by have := j.isLt; omega⟩)
        + (∑ j : Fin 9, f ⟨555 + j.val, by have := j.isLt; omega⟩)
        + (∑ j : Fin 65, f ⟨564 + j.val, by have := j.isLt; omega⟩)
        + (∑ j : Fin 65, f ⟨629 + j.val, by have := j.isLt; omega⟩) := by
  rw [sum_split (n := 694) 629 65 (by norm_num), sum_split (n := 629) 564 65 (by norm_num),
    sum_split (n := 564) 555 9 (by norm_num), sum_split (n := 555) 546 9 (by norm_num),
    sum_split (n := 546) 513 33 (by norm_num), sum_split (n := 513) 342 171 (by norm_num),
    sum_split (n := 342) 171 171 (by norm_num)]

/-- The 272 features in their eight blocks: 64 + 64 + 64 + 16 + 16 + 16 + 16 + 16. -/
private theorem split272 {M : Type*} [AddCommMonoid M] (f : Fin 272 → M) :
    ∑ i : Fin 272, f i
      = (∑ i : Fin 64, f ⟨i.val, by have := i.isLt; omega⟩)
        + (∑ i : Fin 64, f ⟨64 + i.val, by have := i.isLt; omega⟩)
        + (∑ i : Fin 64, f ⟨128 + i.val, by have := i.isLt; omega⟩)
        + (∑ i : Fin 16, f ⟨192 + i.val, by have := i.isLt; omega⟩)
        + (∑ i : Fin 16, f ⟨208 + i.val, by have := i.isLt; omega⟩)
        + (∑ i : Fin 16, f ⟨224 + i.val, by have := i.isLt; omega⟩)
        + (∑ i : Fin 16, f ⟨240 + i.val, by have := i.isLt; omega⟩)
        + (∑ i : Fin 16, f ⟨256 + i.val, by have := i.isLt; omega⟩) := by
  rw [sum_split (n := 272) 256 16 (by norm_num), sum_split (n := 256) 240 16 (by norm_num),
    sum_split (n := 240) 224 16 (by norm_num), sum_split (n := 224) 208 16 (by norm_num),
    sum_split (n := 208) 192 16 (by norm_num), sum_split (n := 192) 128 64 (by norm_num),
    sum_split (n := 128) 64 64 (by norm_num)]

/-! ## The two block laws -/

/-- The coercion of a finite sum of reals is the sum of the coercions. -/
private theorem coe_sum {ι : Type*} (s : Finset ι) (f : ι → ℝ) :
    ((∑ i ∈ s, f i : ℝ) : EReal) = ∑ i ∈ s, (f i : EReal) := by
  classical
  refine Finset.induction_on s (by simp) (fun a s ha ih => ?_)
  rw [Finset.sum_insert ha, Finset.sum_insert ha, EReal.coe_add, ih]

/-- An indicator is the coercion of the real indicator. -/
private theorem hot_coe {n : ℕ} (a j : Fin n) : hot a j = ((if a = j then (1 : ℝ) else 0 : ℝ) : EReal) := by
  unfold hot
  split_ifs <;> simp

/-- An indicator row times a family picks the family's member at the indicated place (`1 * x = x` and `0 * x = 0`
    hold for every extended real). -/
private theorem hot_block {n : ℕ} (a : Fin n) (X : Fin n → EReal) : ∑ j : Fin n, hot a j * X j = X a := by
  simp only [hot, ite_mul, one_mul, zero_mul, Finset.sum_ite_eq, Finset.mem_univ, if_true]

/-- A count row times the products "table row · weights" is the sum of the counted rows times the weights. All
    entries being real, both sides are real sums; there the count row is expanded, the sums exchanged, and each
    indicator picks its row. -/
private theorem count_block {n d m : ℕ} (T : Fin n → Fin d → EReal) (W : Fin d → EReal)
    (hT : ∀ j i, ∃ v : ℝ, T j i = (v : EReal)) (hW : ∀ i, ∃ v : ℝ, W i = (v : EReal)) (a : Fin m → Fin n) :
    ∑ j : Fin n, (∑ c : Fin m, hot (a c) j) * (∑ i : Fin d, T j i * W i)
      = ∑ i : Fin d, (∑ c : Fin m, T (a c) i) * W i := by
  choose TR hTR using hT
  choose WR hWR using hW
  simp only [hTR, hWR, hot_coe, ← EReal.coe_mul, ← coe_sum]
  congr 1
  simp only [Finset.sum_mul]
  rw [Finset.sum_comm]
  simp only [ite_mul, one_mul, zero_mul, Finset.sum_ite_eq, Finset.mem_univ, if_true]
  rw [Finset.sum_comm]

/-! ## The three piecewise definitions read inside each block -/

private theorem mhot_0 (s : Sel) (j : Fin 171) (h : j.val < 694) :
    mhot s ⟨j.val, h⟩ = hot s.my j := by
  have hj := j.isLt
  simp only [mhot]
  split_ifs <;> first | omega | simp only [Nat.add_sub_cancel_left, Fin.eta]

private theorem fused_0 (t : Tables) (k : Fin 256) (j : Fin 171) (h : j.val < 694) :
    fused t ⟨j.val, h⟩ k = wrow t.champ t.W1 0 (by norm_num) j k := by
  have hj := j.isLt
  simp only [fused]
  split_ifs <;> first | omega | simp only [Nat.add_sub_cancel_left, Fin.eta]

private theorem feat_0 (t : Tables) (s : Sel) (i : Fin 64) (h : i.val < 272) :
    feat t s ⟨i.val, h⟩ = t.champ s.my i := by
  have hi := i.isLt
  simp only [feat]
  split_ifs <;> first | omega | simp only [Nat.add_sub_cancel_left, Fin.eta]

private theorem mhot_1 (s : Sel) (j : Fin 171) (h : 171 + j.val < 694) :
    mhot s ⟨171 + j.val, h⟩ = ∑ c : Fin 4, hot (s.ally c) j := by
  have hj := j.isLt
  simp only [mhot]
  split_ifs <;> first | omega | simp only [Nat.add_sub_cancel_left, Fin.eta]

private theorem fused_1 (t : Tables) (k : Fin 256) (j : Fin 171) (h : 171 + j.val < 694) :
    fused t ⟨171 + j.val, h⟩ k = wrow t.champ t.W1 64 (by norm_num) j k := by
  have hj := j.isLt
  simp only [fused]
  split_ifs <;> first | omega | simp only [Nat.add_sub_cancel_left, Fin.eta]

private theorem feat_1 (t : Tables) (s : Sel) (i : Fin 64) (h : 64 + i.val < 272) :
    feat t s ⟨64 + i.val, h⟩ = ∑ c : Fin 4, t.champ (s.ally c) i := by
  have hi := i.isLt
  simp only [feat]
  split_ifs <;> first | omega | simp only [Nat.add_sub_cancel_left, Fin.eta]

private theorem mhot_2 (s : Sel) (j : Fin 171) (h : 342 + j.val < 694) :
    mhot s ⟨342 + j.val, h⟩ = ∑ c : Fin 5, hot (s.enem c) j := by
  have hj := j.isLt
  simp only [mhot]
  split_ifs <;> first | omega | simp only [Nat.add_sub_cancel_left, Fin.eta]

private theorem fused_2 (t : Tables) (k : Fin 256) (j : Fin 171) (h : 342 + j.val < 694) :
    fused t ⟨342 + j.val, h⟩ k = wrow t.champ t.W1 128 (by norm_num) j k := by
  have hj := j.isLt
  simp only [fused]
  split_ifs <;> first | omega | simp only [Nat.add_sub_cancel_left, Fin.eta]

private theorem feat_2 (t : Tables) (s : Sel) (i : Fin 64) (h : 128 + i.val < 272) :
    feat t s ⟨128 + i.val, h⟩ = ∑ c : Fin 5, t.champ (s.enem c) i := by
  have hi := i.isLt
  simp only [feat]
  split_ifs <;> first | omega | simp only [Nat.add_sub_cancel_left, Fin.eta]

private theorem mhot_3 (s : Sel) (j : Fin 33) (h : 513 + j.val < 694) :
    mhot s ⟨513 + j.val, h⟩ = hot s.sp j := by
  have hj := j.isLt
  simp only [mhot]
  split_ifs <;> first | omega | simp only [Nat.add_sub_cancel_left, Fin.eta]

private theorem fused_3 (t : Tables) (k : Fin 256) (j : Fin 33) (h : 513 + j.val < 694) :
    fused t ⟨513 + j.val, h⟩ k = wrow t.sp t.W1 192 (by norm_num) j k := by
  have hj := j.isLt
  simp only [fused]
  split_ifs <;> first | omega | simp only [Nat.add_sub_cancel_left, Fin.eta]

private theorem feat_3 (t : Tables) (s : Sel) (i : Fin 16) (h : 192 + i.val < 272) :
    feat t s ⟨192 + i.val, h⟩ = t.sp s.sp i := by
  have hi := i.isLt
  simp only [feat]
  split_ifs <;> first | omega | simp only [Nat.add_sub_cancel_left, Fin.eta]

private theorem mhot_4 (s : Sel) (j : Fin 9) (h : 546 + j.val < 694) :
    mhot s ⟨546 + j.val, h⟩ = hot s.pri j := by
  have hj := j.isLt
  simp only [mhot]
  split_ifs <;> first | omega | simp only [Nat.add_sub_cancel_left, Fin.eta]

private theorem fused_4 (t : Tables) (k : Fin 256) (j : Fin 9) (h : 546 + j.val < 694) :
    fused t ⟨546 + j.val, h⟩ k = wrow t.pri t.W1 208 (by norm_num) j k := by
  have hj := j.isLt
  simp only [fused]
  split_ifs <;> first | omega | simp only [Nat.add_sub_cancel_left, Fin.eta]

private theorem feat_4 (t : Tables) (s : Sel) (i : Fin 16) (h : 208 + i.val < 272) :
    feat t s ⟨208 + i.val, h⟩ = t.pri s.pri i := by
  have hi := i.isLt
  simp only [feat]
  split_ifs <;> first | omega | simp only [Nat.add_sub_cancel_left, Fin.eta]

private theorem mhot_5 (s : Sel) (j : Fin 9) (h : 555 + j.val < 694) :
    mhot s ⟨555 + j.val, h⟩ = hot s.sub j := by
  have hj := j.isLt
  simp only [mhot]
  split_ifs <;> first | omega | simp only [Nat.add_sub_cancel_left, Fin.eta]

private theorem fused_5 (t : Tables) (k : Fin 256) (j : Fin 9) (h : 555 + j.val < 694) :
    fused t ⟨555 + j.val, h⟩ k = wrow t.sub t.W1 224 (by norm_num) j k := by
  have hj := j.isLt
  simp only [fused]
  split_ifs <;> first | omega | simp only [Nat.add_sub_cancel_left, Fin.eta]

private theorem feat_5 (t : Tables) (s : Sel) (i : Fin 16) (h : 224 + i.val < 272) :
    feat t s ⟨224 + i.val, h⟩ = t.sub s.sub i := by
  have hi := i.isLt
  simp only [feat]
  split_ifs <;> first | omega | simp only [Nat.add_sub_cancel_left, Fin.eta]

private theorem mhot_6 (s : Sel) (j : Fin 65) (h : 564 + j.val < 694) :
    mhot s ⟨564 + j.val, h⟩ = hot s.key j := by
  have hj := j.isLt
  simp only [mhot]
  split_ifs <;> first | omega | simp only [Nat.add_sub_cancel_left, Fin.eta]

private theorem fused_6 (t : Tables) (k : Fin 256) (j : Fin 65) (h : 564 + j.val < 694) :
    fused t ⟨564 + j.val, h⟩ k = wrow t.key t.W1 240 (by norm_num) j k := by
  have hj := j.isLt
  simp only [fused]
  split_ifs <;> first | omega | simp only [Nat.add_sub_cancel_left, Fin.eta]

private theorem feat_6 (t : Tables) (s : Sel) (i : Fin 16) (h : 240 + i.val < 272) :
    feat t s ⟨240 + i.val, h⟩ = t.key s.key i := by
  have hi := i.isLt
  simp only [feat]
  split_ifs <;> first | omega | simp only [Nat.add_sub_cancel_left, Fin.eta]

private theorem mhot_7 (s : Sel) (j : Fin 65) (h : 629 + j.val < 694) :
    mhot s ⟨629 + j.val, h⟩ = hot s.pat j := by
  have hj := j.isLt
  simp only [mhot]
  split_ifs <;> first | omega | simp only [Nat.add_sub_cancel_left, Fin.eta]

private theorem fused_7 (t : Tables) (k : Fin 256) (j : Fin 65) (h : 629 + j.val < 694) :
    fused t ⟨629 + j.val, h⟩ k = wrow t.pat t.W1 256 (by norm_num) j k := by
  have hj := j.isLt
  simp only [fused]
  split_ifs <;> first | omega | simp only [Nat.add_sub_cancel_left, Fin.eta]

private theorem feat_7 (t : Tables) (s : Sel) (i : Fin 16) (h : 256 + i.val < 272) :
    feat t s ⟨256 + i.val, h⟩ = t.pat s.pat i := by
  have hi := i.isLt
  simp only [feat]
  split_ifs <;> first | omega | simp only [Nat.add_sub_cancel_left, Fin.eta]

/-! ## Block by block -/

/-- Lanes 0–170 against features 0–63: an indicator picks its row. -/
private theorem blk_0 (t : Tables) (s : Sel) (k : Fin 256) :
    ∑ j : Fin 171, mhot s ⟨j.val, by have := j.isLt; omega⟩ * fused t ⟨j.val, by have := j.isLt; omega⟩ k
      = ∑ i : Fin 64, feat t s ⟨i.val, by have := i.isLt; omega⟩ * t.W1 ⟨i.val, by have := i.isLt; omega⟩ k := by
  simp only [mhot_0, fused_0, feat_0]
  rw [hot_block]
  simp only [wrow, Nat.zero_add]

/-- Lanes 171–341 against features 64–127: a count row picks the sum of the counted rows. -/
private theorem blk_1 (t : Tables) (ht : t.IsReal) (s : Sel) (k : Fin 256) :
    ∑ j : Fin 171, mhot s ⟨171 + j.val, by have := j.isLt; omega⟩ * fused t ⟨171 + j.val, by have := j.isLt; omega⟩ k
      = ∑ i : Fin 64, feat t s ⟨64 + i.val, by have := i.isLt; omega⟩ * t.W1 ⟨64 + i.val, by have := i.isLt; omega⟩ k := by
  simp only [mhot_1, fused_1, feat_1, wrow]
  exact count_block t.champ (fun i => t.W1 ⟨64 + i.val, by have := i.isLt; omega⟩ k) ht.1 (fun i => ht.2.2.2.2.2.2 _ k) s.ally

/-- Lanes 342–512 against features 128–191: a count row picks the sum of the counted rows. -/
private theorem blk_2 (t : Tables) (ht : t.IsReal) (s : Sel) (k : Fin 256) :
    ∑ j : Fin 171, mhot s ⟨342 + j.val, by have := j.isLt; omega⟩ * fused t ⟨342 + j.val, by have := j.isLt; omega⟩ k
      = ∑ i : Fin 64, feat t s ⟨128 + i.val, by have := i.isLt; omega⟩ * t.W1 ⟨128 + i.val, by have := i.isLt; omega⟩ k := by
  simp only [mhot_2, fused_2, feat_2, wrow]
  exact count_block t.champ (fun i => t.W1 ⟨128 + i.val, by have := i.isLt; omega⟩ k) ht.1 (fun i => ht.2.2.2.2.2.2 _ k) s.enem

/-- Lanes 513–545 against features 192–207: an indicator picks its row. -/
private theorem blk_3 (t : Tables) (s : Sel) (k : Fin 256) :
    ∑ j : Fin 33, mhot s ⟨513 + j.val, by have := j.isLt; omega⟩ * fused t ⟨513 + j.val, by have := j.isLt; omega⟩ k
      = ∑ i : Fin 16, feat t s ⟨192 + i.val, by have := i.isLt; omega⟩ * t.W1 ⟨192 + i.val, by have := i.isLt; omega⟩ k := by
  simp only [mhot_3, fused_3, feat_3]
  rw [hot_block]
  rfl

/-- Lanes 546–554 against features 208–223: an indicator picks its row. -/
private theorem blk_4 (t : Tables) (s : Sel) (k : Fin 256) :
    ∑ j : Fin 9, mhot s ⟨546 + j.val, by have := j.isLt; omega⟩ * fused t ⟨546 + j.val, by have := j.isLt; omega⟩ k
      = ∑ i : Fin 16, feat t s ⟨208 + i.val, by have := i.isLt; omega⟩ * t.W1 ⟨208 + i.val, by have := i.isLt; omega⟩ k := by
  simp only [mhot_4, fused_4, feat_4]
  rw [hot_block]
  rfl

/-- Lanes 555–563 against features 224–239: an indicator picks its row. -/
private theorem blk_5 (t : Tables) (s : Sel) (k : Fin 256) :
    ∑ j : Fin 9, mhot s ⟨555 + j.val, by have := j.isLt; omega⟩ * fused t ⟨555 + j.val, by have := j.isLt; omega⟩ k
      = ∑ i : Fin 16, feat t s ⟨224 + i.val, by have := i.isLt; omega⟩ * t.W1 ⟨224 + i.val, by have := i.isLt; omega⟩ k := by
  simp only [mhot_5, fused_5, feat_5]
  rw [hot_block]
  rfl

/-- Lanes 564–628 against features 240–255: an indicator picks its row. -/
private theorem blk_6 (t : Tables) (s : Sel) (k : Fin 256) :
    ∑ j : Fin 65, mhot s ⟨564 + j.val, by have := j.isLt; omega⟩ * fused t ⟨564 + j.val, by have := j.isLt; omega⟩ k
      = ∑ i : Fin 16, feat t s ⟨240 + i.val, by have := i.isLt; omega⟩ * t.W1 ⟨240 + i.val, by have := i.isLt; omega⟩ k := by
  simp only [mhot_6, fused_6, feat_6]
  rw [hot_block]
  rfl

/-- Lanes 629–693 against features 256–271: an indicator picks its row. -/
private theorem blk_7 (t : Tables) (s : Sel) (k : Fin 256) :
    ∑ j : Fin 65, mhot s ⟨629 + j.val, by have := j.isLt; omega⟩ * fused t ⟨629 + j.val, by have := j.isLt; omega⟩ k
      = ∑ i : Fin 16, feat t s ⟨256 + i.val, by have := i.isLt; omega⟩ * t.W1 ⟨256 + i.val, by have := i.isLt; omega⟩ k := by
  simp only [mhot_7, fused_7, feat_7]
  rw [hot_block]
  rfl

theorem pre_eq (t : Tables) (ht : t.IsReal) (s : Sel) (k : Fin 256) :
    ∑ j : Fin 694, mhot s j * fused t j k = ∑ i : Fin 272, feat t s i * t.W1 i k := by
  rw [split694, split272, blk_0 t s k, blk_1 t ht s k, blk_2 t ht s k, blk_3 t s k, blk_4 t s k, blk_5 t s k,
    blk_6 t s k, blk_7 t s k]

/-- So the two programs' scores of a row agree. -/
theorem score_eq (t : Tables) (ht : t.IsReal) (u : Tail) (s : Sel) :
    mlp u (fun k => ∑ j : Fin 694, mhot s j * fused t j k) = mlp u (fun k => ∑ i : Fin 272, feat t s i * t.W1 i k) := by
  congr 1; funext k; exact pre_eq t ht s k

end Cert.Spec

end
-- ==== Proof.LibGather.lean ====
/-
  General lemmas: `stablehlo.gather` of whole ROWS of a table `[N, D]` read at an index. What `T[idx]` of a two-axis table
  lowers to: offset axis the result's last, the table's axis 0 collapsed and named by the start index map, slice sizes
  `[1, D]`, the start indices carrying a trailing unit axis. The gathered element `(…, i)` is the table's row "start word
  read signed, held inside `[0, N − 1]`" at column `i` — for a column of start words `[R, 1]` and for a matrix of them `[R, C, 1]`.
-/
import Idealize.ShloMosaic.Lib.ValueIdx
import Idealize.ShloMosaic.Lib.Pipeline.Value

noncomputable section

namespace Cert.LibGather

open Idealize.ShloMosaic Idealize.ShloMosaic.ValueIdx

variable {α : Type}

/-- The dimension numbers of a row gather by a column `[R, 1]` of start words. -/
abbrev rowsDims (N D R : Nat) (wf : GatherDims.WF ⟨2, ![N, D]⟩ ⟨2, ![R, 1]⟩ ⟨2, ![R, D]⟩ [1] [0] [] [0] [] 1 ![1, D]) :
    GatherDims ⟨2, ![N, D]⟩ ⟨2, ![R, 1]⟩ ⟨2, ![R, D]⟩ where
  offsetDims := [1]
  collapsedSliceDims := [0]
  operandBatchingDims := []
  startIndicesBatchingDims := []
  startIndexMap := [0]
  indexVectorDim := 1
  sliceSizes := ![1, D]
  wf := wf

/-- Row gather by a column of start words, read at `(r, i)`: the table's row `min (word r).toInt.toNat (N − 1)`, column `i`. -/
theorem gather_rows_apply {N D R w : Nat} (hN : 0 < N)
    (wf : GatherDims.WF ⟨2, ![N, D]⟩ ⟨2, ![R, 1]⟩ ⟨2, ![R, D]⟩ [1] [0] [] [0] [] 1 ![1, D])
    (x : (⟨2, ![N, D]⟩ : Shape).Idx → α) (idx : IVec ⟨2, ![R, 1]⟩ w) (r : Fin R) (i : Fin D) :
    Host.gather (rowsDims N D R wf) x idx (ix2 r i)
      = x (ix2 ⟨min (idx (ix2 r (0 : Fin 1))).toInt.toNat (N - 1), by omega⟩ i) := by
  unfold Host.gather
  congr 1
  have hb : ∀ a, (rowsDims N D R wf).batchCoord (ix2 r i) a = 0 := fun a => GatherDims.batchCoord_eq_zero _ _ _ List.not_mem_nil
  have hsi : (rowsDims N D R wf).siIdx (ix2 r i) ⟨List.idxOf (0 : Fin 2) (rowsDims N D R wf).startIndexMap,
      List.idxOf_lt_length_iff.2 (List.mem_singleton.mpr rfl)⟩ = ix2 r (0 : Fin 1) := by
    funext b; refine Fin.ext ?_
    match b with
    | ⟨0, _⟩ => rfl
    | ⟨1, _⟩ => rfl
  have h0 : ((rowsDims N D R wf).operandIdx (ix2 r i) idx (0 : Fin 2)).val = min (idx (ix2 r (0 : Fin 1))).toInt.toNat (N - 1) := by
    show (rowsDims N D R wf).start (ix2 r i) idx 0 + (rowsDims N D R wf).batchCoord (ix2 r i) 0 + (rowsDims N D R wf).offCoord (ix2 r i) 0 = _
    rw [hb, Nat.add_zero,
      GatherDims.offCoord_eq_zero _ _ _ (fun h => ((GatherDims.mem_sKept _ _).mp h).1 (List.mem_singleton.mpr rfl)), Nat.add_zero]
    unfold GatherDims.start
    rw [dif_pos (show (0 : Fin 2) ∈ (rowsDims N D R wf).startIndexMap from List.mem_singleton.mpr rfl), hsi]
    rfl
  have h1 : ((rowsDims N D R wf).operandIdx (ix2 r i) idx (1 : Fin 2)).val = i.val := by
    show (rowsDims N D R wf).start (ix2 r i) idx 1 + (rowsDims N D R wf).batchCoord (ix2 r i) 1 + (rowsDims N D R wf).offCoord (ix2 r i) 1 = _
    have hs : (rowsDims N D R wf).start (ix2 r i) idx 1 = 0 := by
      unfold GatherDims.start
      rw [dif_neg (show ¬ ((1 : Fin 2) ∈ ([0] : List (Fin 2))) by decide)]
    simp only [hs, hb, Nat.zero_add]
    rfl
  funext a
  refine Fin.ext ?_
  match a with
  | ⟨0, _⟩ => exact h0
  | ⟨1, _⟩ => exact h1

/-- The dimension numbers of a row gather by a matrix `[R, C, 1]` of start words. -/
abbrev rows3Dims (N D R C : Nat) (wf : GatherDims.WF ⟨2, ![N, D]⟩ ⟨3, ![R, C, 1]⟩ ⟨3, ![R, C, D]⟩ [2] [0] [] [0] [] 2 ![1, D]) :
    GatherDims ⟨2, ![N, D]⟩ ⟨3, ![R, C, 1]⟩ ⟨3, ![R, C, D]⟩ where
  offsetDims := [2]
  collapsedSliceDims := [0]
  operandBatchingDims := []
  startIndicesBatchingDims := []
  startIndexMap := [0]
  indexVectorDim := 2
  sliceSizes := ![1, D]
  wf := wf

/-- Row gather by a matrix of start words, read at `(r, c, i)`: the table's row `min (word (r, c)).toInt.toNat (N − 1)`, column `i`. -/
theorem gather_rows3_apply {N D R C w : Nat} (hN : 0 < N)
    (wf : GatherDims.WF ⟨2, ![N, D]⟩ ⟨3, ![R, C, 1]⟩ ⟨3, ![R, C, D]⟩ [2] [0] [] [0] [] 2 ![1, D])
    (x : (⟨2, ![N, D]⟩ : Shape).Idx → α) (idx : IVec ⟨3, ![R, C, 1]⟩ w) (r : Fin R) (c : Fin C) (i : Fin D) :
    Host.gather (rows3Dims N D R C wf) x idx (ix3 r c i)
      = x (ix2 ⟨min (idx (ix3 r c (0 : Fin 1))).toInt.toNat (N - 1), by omega⟩ i) := by
  unfold Host.gather
  congr 1
  have hb : ∀ a, (rows3Dims N D R C wf).batchCoord (ix3 r c i) a = 0 := fun a => GatherDims.batchCoord_eq_zero _ _ _ List.not_mem_nil
  have hsi : (rows3Dims N D R C wf).siIdx (ix3 r c i) ⟨List.idxOf (0 : Fin 2) (rows3Dims N D R C wf).startIndexMap,
      List.idxOf_lt_length_iff.2 (List.mem_singleton.mpr rfl)⟩ = ix3 r c (0 : Fin 1) := by
    funext b; refine Fin.ext ?_
    match b with
    | ⟨0, _⟩ => rfl
    | ⟨1, _⟩ => rfl
    | ⟨2, _⟩ => rfl
  have h0 : ((rows3Dims N D R C wf).operandIdx (ix3 r c i) idx (0 : Fin 2)).val = min (idx (ix3 r c (0 : Fin 1))).toInt.toNat (N - 1) := by
    show (rows3Dims N D R C wf).start (ix3 r c i) idx 0 + (rows3Dims N D R C wf).batchCoord (ix3 r c i) 0 + (rows3Dims N D R C wf).offCoord (ix3 r c i) 0 = _
    rw [hb, Nat.add_zero,
      GatherDims.offCoord_eq_zero _ _ _ (fun h => ((GatherDims.mem_sKept _ _).mp h).1 (List.mem_singleton.mpr rfl)), Nat.add_zero]
    unfold GatherDims.start
    rw [dif_pos (show (0 : Fin 2) ∈ (rows3Dims N D R C wf).startIndexMap from List.mem_singleton.mpr rfl), hsi]
    rfl
  have h1 : ((rows3Dims N D R C wf).operandIdx (ix3 r c i) idx (1 : Fin 2)).val = i.val := by
    show (rows3Dims N D R C wf).start (ix3 r c i) idx 1 + (rows3Dims N D R C wf).batchCoord (ix3 r c i) 1 + (rows3Dims N D R C wf).offCoord (ix3 r c i) 1 = _
    have hs : (rows3Dims N D R C wf).start (ix3 r c i) idx 1 = 0 := by
      unfold GatherDims.start
      rw [dif_neg (show ¬ ((1 : Fin 2) ∈ ([0] : List (Fin 2))) by decide)]
    simp only [hs, hb, Nat.zero_add]
    rfl
  funext a
  refine Fin.ext ?_
  match a with
  | ⟨0, _⟩ => exact h0
  | ⟨1, _⟩ => exact h1

end Cert.LibGather

end
-- ==== Proof.RefWords.lean ====
/-
  Index words as table rows, on the two programs' own terms. The reference sends a negative word to the last row, then
  (a no-op by now) raises a negative word by the table's size, and its gather holds the start word inside the table; the
  kernel sends a negative word to the last row and takes the signed minimum with the last row before comparing with a lane
  number. Both select `Spec.rowOf`.
-/
import proofs.«421530_j28664611733761_3_alg».proof.Proof.Spec

noncomputable section

namespace Cert.Spec

open Idealize.ShloMosaic

/-- The signed comparison with zero reads the sign of the word's integer value. -/
theorem slt_zero (x : BitVec 32) : IntOp.cmpi .slt x 0#32 = 1 ↔ x.toInt < 0 := by
  by_cases h : x.toInt < 0 <;> simp [IntOp.cmpi, BitVec.slt, h]

/-- A small natural as a word reads back as itself. -/
theorem toInt_small (k : ℕ) (hk : k < 2 ^ 30) : (BitVec.ofNat 32 k).toInt = (k : ℤ) := by
  have h32 : k % 2 ^ 32 = k := Nat.mod_eq_of_lt (by omega)
  rw [BitVec.toInt_eq_toNat_cond, BitVec.toNat_ofNat, h32, if_pos (by omega)]

/-- The reference's row: after its two fix-ups of the word, the gather's clamp into `[0, k]` selects `rowOf (k + 1)`. -/
theorem ref_fix (k : ℕ) (hk : k < 2 ^ 30) (nw x : BitVec 32) :
    min (Scalar.select (IntOp.cmpi .slt (Scalar.select (IntOp.cmpi .slt x 0#32) (BitVec.ofNat 32 k) x) 0#32)
          (IntOp.addi (Scalar.select (IntOp.cmpi .slt x 0#32) (BitVec.ofNat 32 k) x) nw)
          (Scalar.select (IntOp.cmpi .slt x 0#32) (BitVec.ofNat 32 k) x)).toInt.toNat k
      = rowOf (k + 1) x := by
  unfold rowOf Scalar.select
  by_cases hx : x.toInt < 0
  · have h1 : IntOp.cmpi .slt x 0#32 = 1 := (slt_zero x).2 hx
    have hk' := toInt_small k hk
    have h2 : ¬ IntOp.cmpi .slt (BitVec.ofNat 32 k) 0#32 = 1 := by rw [slt_zero, hk']; omega
    rw [if_pos h1, if_neg h2, hk', if_pos hx]
    simp
  · have h1 : ¬ IntOp.cmpi .slt x 0#32 = 1 := by rw [slt_zero]; exact hx
    rw [if_neg h1, if_neg h1, if_neg hx]
    simp

end Cert.Spec

end
-- ==== Proof.RefChamp.lean ====
/-
  The reference's three champion features read at row `r`, column `i` of 64, at the ideal values. An index word is first
  sent to 170 if negative, then (a no-op now) raised by 171 if negative, then the gather holds it inside the table: it
  selects row `rowOf 171` of the champion table. The allies' four gathered rows, and the enemies' five, are summed from zero.
-/
import proofs.«421530_j28664611733761_3_alg».proof.Proof.RefRead
import proofs.«421530_j28664611733761_3_alg».proof.Proof.Spec
import proofs.«421530_j28664611733761_3_alg».proof.Proof.LibGather
import proofs.«421530_j28664611733761_3_alg».proof.Proof.RefWords

noncomputable section

open scoped BigOperators

namespace Cert.ReferenceIdeal.Feat

open Idealize.ShloMosaic Idealize.ShloMosaic.TcCoe Idealize.ShloMosaic.ValueIdx Idealize.SL.Sem Cert.ReferenceIdeal Cert.ReferenceIdeal.Read

/-! ## The start words

Each gather's start word at a row is the reference's two fix-ups of the argument's word there (negative sent to 170, then
a negative one raised by 171); held inside `[0, 170]` by the gather it names row `rowOf 171` of the word. -/

/-- The own champion's start word at row `r`, held inside the table, is `rowOf 171` of `x0 r`. -/
private theorem word_my (x0 : (⟨S262144, .i32⟩ : BufTy).Contents (Elt Ideal)) (r : Fin 262144) :
    min (val_main_v8 (F := Ideal) x0 (ix2 r (0 : Fin 1))).toInt.toNat (171 - 1) = Spec.rowOf 171 (x0 (ix1 r)) := by
  have hj : idx_main_v8 (ix2 r (0 : Fin 1)) = ix1 r := by
    funext a; match a with | ⟨0, _⟩ => rfl
  rw [val_main_v8_apply, hj, val_main_v7_apply, val_main_v4_apply, val_main_v6_apply, val_main_v2_apply, val_main_v1_apply,
    val_main_v0_apply, val_main_c_apply, val_main_call0_v1_apply, val_main_call0_v0_apply, val_main_c_0_apply,
    val_main_v3_apply, val_main_c_1_apply, val_main_v5_apply, val_main_c_2_apply]
  exact Spec.ref_fix 170 (by norm_num) 171#32 (x0 (ix1 r))

/-- Ally `c`'s start word at row `r`, held inside the table, is `rowOf 171` of `x1 (r, c)`. -/
private theorem word_ally (x1 : (⟨S262144x4, .i32⟩ : BufTy).Contents (Elt Ideal)) (r : Fin 262144) (c : Fin 4) :
    min (val_main_v18 (F := Ideal) x1 (ix3 r c (0 : Fin 1))).toInt.toNat (171 - 1) = Spec.rowOf 171 (x1 (ix2 r c)) := by
  have hj : idx_main_v18 (ix3 r c (0 : Fin 1)) = ix2 r c := by
    funext a; match a with | ⟨0, _⟩ => rfl | ⟨1, _⟩ => rfl
  rw [val_main_v18_apply, hj, val_main_v17_apply, val_main_v14_apply, val_main_v16_apply, val_main_v12_apply, val_main_v11_apply,
    val_main_v10_apply, val_main_c_3_apply, val_main_call1_v1_apply, val_main_call1_v0_apply, val_main_c_4_apply,
    val_main_v13_apply, val_main_c_5_apply, val_main_v15_apply, val_main_c_6_apply]
  exact Spec.ref_fix 170 (by norm_num) 171#32 (x1 (ix2 r c))

/-- Enemy `c`'s start word at row `r`, held inside the table, is `rowOf 171` of `x2 (r, c)`. -/
private theorem word_enem (x2 : (⟨S262144x5, .i32⟩ : BufTy).Contents (Elt Ideal)) (r : Fin 262144) (c : Fin 5) :
    min (val_main_v29 (F := Ideal) x2 (ix3 r c (0 : Fin 1))).toInt.toNat (171 - 1) = Spec.rowOf 171 (x2 (ix2 r c)) := by
  have hj : idx_main_v29 (ix3 r c (0 : Fin 1)) = ix2 r c := by
    funext a; match a with | ⟨0, _⟩ => rfl | ⟨1, _⟩ => rfl
  rw [val_main_v29_apply, hj, val_main_v28_apply, val_main_v25_apply, val_main_v27_apply, val_main_v23_apply, val_main_v22_apply,
    val_main_v21_apply, val_main_c_7_apply, val_main_call2_v1_apply, val_main_call2_v0_apply, val_main_c_8_apply,
    val_main_v24_apply, val_main_c_9_apply, val_main_v26_apply, val_main_c_10_apply]
  exact Spec.ref_fix 170 (by norm_num) 171#32 (x2 (ix2 r c))

/-! ## The three features -/

theorem feat_my (x0 : (⟨S262144, .i32⟩ : BufTy).Contents (Elt Ideal)) (x4 : (⟨S171x64, .f32⟩ : BufTy).Contents (Elt Ideal)) (r : Fin 262144) (i : Fin 64) :
    val_main_v9 (F := Ideal) x0 x4 (ix2 r i) = x4 (ix2 (Spec.rowFin 171 (by decide) (x0 (ix1 r))) i) := by
  unfold val_main_v9
  -- a row gather by a column of start words reads the table's row "start word held inside the table"
  refine (Cert.LibGather.gather_rows_apply (N := 171) (D := 64) (R := 262144) (by decide) _ x4 (val_main_v8 (F := Ideal) x0) r i).trans ?_
  exact congrArg (fun j => x4 (ix2 j i)) (Fin.ext (word_my x0 r))

theorem feat_ally (x1 : (⟨S262144x4, .i32⟩ : BufTy).Contents (Elt Ideal)) (x4 : (⟨S171x64, .f32⟩ : BufTy).Contents (Elt Ideal)) (r : Fin 262144) (i : Fin 64) :
    val_main_v20 (F := Ideal) x1 x4 (ix2 r i) = ∑ c : Fin 4, x4 (ix2 (Spec.rowFin 171 (by decide) (x1 (ix2 r c))) i) := by
  -- the sum over axis 1 starts from the zero constant
  rw [val_main_v20_apply, val_main_cst_apply, Ideal.ofBits_def, Ideal.ofBits_zero_f32, zero_add]
  refine Finset.sum_congr rfl fun c _ => ?_
  have hk : idx_main_v20 (ix2 r i) c = ix3 r c i := by
    funext a; match a with | ⟨0, _⟩ => rfl | ⟨1, _⟩ => rfl | ⟨2, _⟩ => rfl
  rw [hk]
  unfold val_main_v19
  -- a row gather by a matrix of start words reads the table's row "start word held inside the table"
  refine (Cert.LibGather.gather_rows3_apply (N := 171) (D := 64) (R := 262144) (C := 4) (by decide) _ x4 (val_main_v18 (F := Ideal) x1) r c i).trans ?_
  exact congrArg (fun j => x4 (ix2 j i)) (Fin.ext (word_ally x1 r c))

theorem feat_enem (x2 : (⟨S262144x5, .i32⟩ : BufTy).Contents (Elt Ideal)) (x4 : (⟨S171x64, .f32⟩ : BufTy).Contents (Elt Ideal)) (r : Fin 262144) (i : Fin 64) :
    val_main_v31 (F := Ideal) x2 x4 (ix2 r i) = ∑ c : Fin 5, x4 (ix2 (Spec.rowFin 171 (by decide) (x2 (ix2 r c))) i) := by
  -- the sum over axis 1 starts from the zero constant
  rw [val_main_v31_apply, val_main_cst_11_apply, Ideal.ofBits_def, Ideal.ofBits_zero_f32, zero_add]
  refine Finset.sum_congr rfl fun c _ => ?_
  have hk : idx_main_v31 (ix2 r i) c = ix3 r c i := by
    funext a; match a with | ⟨0, _⟩ => rfl | ⟨1, _⟩ => rfl | ⟨2, _⟩ => rfl
  rw [hk]
  unfold val_main_v30
  -- a row gather by a matrix of start words reads the table's row "start word held inside the table"
  refine (Cert.LibGather.gather_rows3_apply (N := 171) (D := 64) (R := 262144) (C := 5) (by decide) _ x4 (val_main_v29 (F := Ideal) x2) r c i).trans ?_
  exact congrArg (fun j => x4 (ix2 j i)) (Fin.ext (word_enem x2 r c))

end Cert.ReferenceIdeal.Feat

end
-- ==== Proof.RefMisc.lean ====
/-
  The reference's eighty miscellaneous features read at row `r`, at the ideal values: five gathers of sixteen columns
  each, side by side. Column q of the miscellaneous index array — sent to the table's last row if negative, then held
  inside the table by the gather — selects a row of the q-th small table (33, 9, 9, 65 and 65 rows).
-/
import proofs.«421530_j28664611733761_3_alg».proof.Proof.RefRead
import proofs.«421530_j28664611733761_3_alg».proof.Proof.Spec
import proofs.«421530_j28664611733761_3_alg».proof.Proof.LibGather
import proofs.«421530_j28664611733761_3_alg».proof.Proof.RefWords
import Idealize.ShloMosaic.Lib.Pipeline.Value

noncomputable section

open scoped BigOperators

namespace Cert.ReferenceIdeal.Feat

open Idealize.ShloMosaic Idealize.ShloMosaic.TcCoe Idealize.ShloMosaic.ValueIdx Idealize.SL.Sem Cert.ReferenceIdeal Cert.ReferenceIdeal.Read

/-! ## Five blocks side by side -/

/-- Five blocks of sixteen columns as a list of pieces. -/
private abbrev five {α : Type} {R : Nat} (v0 v1 v2 v3 v4 : (⟨2, ![R, 16]⟩ : Shape).Idx → α) : List ((s : Shape) × (s.Idx → α)) :=
  [⟨⟨2, ![R, 16]⟩, v0⟩, ⟨⟨2, ![R, 16]⟩, v1⟩, ⟨⟨2, ![R, 16]⟩, v2⟩, ⟨⟨2, ![R, 16]⟩, v3⟩, ⟨⟨2, ![R, 16]⟩, v4⟩]

/-- Five blocks of sixteen columns joined along the column axis, read at `(r, i)`: block `i / 16` at column `i % 16`.
    Block `k` spans columns `16 k … 16 k + 15`, the blocks before it taking `16 k` columns. -/
private theorem cat5_apply {α : Type} {R : Nat} (v0 v1 v2 v3 v4 : (⟨2, ![R, 16]⟩ : Shape).Idx → α)
    (h : Shape.Concatenates [(⟨2, ![R, 16]⟩ : Shape), ⟨2, ![R, 16]⟩, ⟨2, ![R, 16]⟩, ⟨2, ![R, 16]⟩, ⟨2, ![R, 16]⟩] ⟨2, ![R, 80]⟩ 1)
    (r : Fin R) (i : Fin 80) :
    concatenate (⟨2, ![R, 80]⟩ : Shape) 1 [⟨⟨2, ![R, 16]⟩, v0⟩, ⟨⟨2, ![R, 16]⟩, v1⟩, ⟨⟨2, ![R, 16]⟩, v2⟩, ⟨⟨2, ![R, 16]⟩, v3⟩, ⟨⟨2, ![R, 16]⟩, v4⟩] h (ix2 r i)
      = if h : i.val < 16 then v0 (ix2 r ⟨i.val, h⟩)
        else if h : i.val < 32 then v1 (ix2 r ⟨i.val - 16, by omega⟩)
        else if h : i.val < 48 then v2 (ix2 r ⟨i.val - 32, by omega⟩)
        else if h : i.val < 64 then v3 (ix2 r ⟨i.val - 48, by omega⟩)
        else v4 (ix2 r ⟨i.val - 64, by have := i.isLt; omega⟩) := by
  -- off the joined axis a block's index has the result's coordinate: the row
  have hoff : ∀ (c : Fin 16) (b : Fin 2), b.cast (rfl : 2 = 2) ≠ (1 : Fin 2) →
      ((ix2 r c : (⟨2, ![R, 16]⟩ : Shape).Idx) b).val = ((ix2 r i : (⟨2, ![R, 80]⟩ : Shape).Idx) (b.cast rfl)).val := by
    intro c b hb
    match b with
    | ⟨0, _⟩ => rfl
    | ⟨1, _⟩ => exact (hb rfl).elim
  have hi := i.isLt
  by_cases h1 : i.val < 16
  · rw [dif_pos h1]
    exact concatenate_apply_piece (t := ⟨2, ![R, 80]⟩) 1 (five v0 v1 v2 v3 v4) h (ix2 r i) 0 (show 0 < 5 by decide) _ v0 rfl rfl 0 rfl
      (ix2 r ⟨i.val, h1⟩) (hoff _) (by show 0 + i.val = i.val; omega)
  rw [dif_neg h1]
  by_cases h2 : i.val < 32
  · rw [dif_pos h2]
    exact concatenate_apply_piece (t := ⟨2, ![R, 80]⟩) 1 (five v0 v1 v2 v3 v4) h (ix2 r i) 1 (show 1 < 5 by decide) _ v1 rfl rfl 16 rfl
      (ix2 r ⟨i.val - 16, by omega⟩) (hoff _) (by show 16 + (i.val - 16) = i.val; omega)
  rw [dif_neg h2]
  by_cases h3 : i.val < 48
  · rw [dif_pos h3]
    exact concatenate_apply_piece (t := ⟨2, ![R, 80]⟩) 1 (five v0 v1 v2 v3 v4) h (ix2 r i) 2 (show 2 < 5 by decide) _ v2 rfl rfl 32 rfl
      (ix2 r ⟨i.val - 32, by omega⟩) (hoff _) (by show 32 + (i.val - 32) = i.val; omega)
  rw [dif_neg h3]
  by_cases h4 : i.val < 64
  · rw [dif_pos h4]
    exact concatenate_apply_piece (t := ⟨2, ![R, 80]⟩) 1 (five v0 v1 v2 v3 v4) h (ix2 r i) 3 (show 3 < 5 by decide) _ v3 rfl rfl 48 rfl
      (ix2 r ⟨i.val - 48, by omega⟩) (hoff _) (by show 48 + (i.val - 48) = i.val; omega)
  rw [dif_neg h4]
  exact concatenate_apply_piece (t := ⟨2, ![R, 80]⟩) 1 (five v0 v1 v2 v3 v4) h (ix2 r i) 4 (show 4 < 5 by decide) _ v4 rfl rfl 64 rfl
    (ix2 r ⟨i.val - 64, by omega⟩) (hoff _) (by show 64 + (i.val - 64) = i.val; omega)

/-! ## The five gathers, each read at an index -/

/-- Column 0 of the index array selects a row of the first small table: the gather of stage v43 read at `(r, i)`. The start word is
    the sliced column, a negative word replaced by 32, then (nothing left to do) a negative word raised by 33; the gather
    holds it inside `[0, 32]`. -/
private theorem gather0_apply (x3 : (⟨S262144x5, .i32⟩ : BufTy).Contents (Elt Ideal)) (x5 : (⟨S33x16, .f32⟩ : BufTy).Contents (Elt Ideal))
    (r : Fin 262144) (i : Fin 16) :
    val_main_v43 (F := Ideal) x3 x5 (ix2 r i)
      = x5 (ix2 (Spec.rowFin 33 (by decide) (x3 (ix2 r (0 : Fin 5)))) i) := by
  unfold val_main_v43
  refine (Cert.LibGather.gather_rows_apply (N := 33) (D := 16) (R := 262144) (by decide)
    Facts₀.gather_S33x16_S262144x1_S262144x16_1_0_n_n_0_1_116_wf x5 (val_main_v42 (F := Ideal) x3) r i).trans ?_
  refine congrArg (fun a => x5 (ix2 a i)) (Fin.ext ?_)
  show min (val_main_v42 (F := Ideal) x3 (ix2 r (0 : Fin 1))).toInt.toNat (33 - 1) = Spec.rowOf 33 (x3 (ix2 r (0 : Fin 5)))
  rw [val_main_v42_apply, val_main_v41_apply, val_main_v38_apply, val_main_v40_apply, val_main_v36_apply, val_main_v35_apply, val_main_v33_apply, val_main_v32_apply, val_main_v34_apply, val_main_c_12_apply, val_main_call3_v1_apply, val_main_call3_v0_apply, val_main_c_13_apply, val_main_v37_apply, val_main_c_14_apply, val_main_v39_apply, val_main_c_15_apply]
  have hidx : idx_main_v32 (idx_main_v33 (idx_main_v42 (ix2 r (0 : Fin 1)))) = ix2 r (0 : Fin 5) := by
    funext a
    refine Fin.ext ?_
    match a with
    | ⟨0, _⟩ => exact Nat.div_one _
    | ⟨1, _⟩ => rfl
  rw [hidx]
  exact Cert.Spec.ref_fix 32 (by decide) 33#32 (x3 (ix2 r (0 : Fin 5)))

/-- Column 1 of the index array selects a row of the second small table: the gather of stage v55 read at `(r, i)`. The start word is
    the sliced column, a negative word replaced by 8, then (nothing left to do) a negative word raised by 9; the gather
    holds it inside `[0, 8]`. -/
private theorem gather1_apply (x3 : (⟨S262144x5, .i32⟩ : BufTy).Contents (Elt Ideal)) (x6 : (⟨S9x16, .f32⟩ : BufTy).Contents (Elt Ideal))
    (r : Fin 262144) (i : Fin 16) :
    val_main_v55 (F := Ideal) x3 x6 (ix2 r i)
      = x6 (ix2 (Spec.rowFin 9 (by decide) (x3 (ix2 r (1 : Fin 5)))) i) := by
  unfold val_main_v55
  refine (Cert.LibGather.gather_rows_apply (N := 9) (D := 16) (R := 262144) (by decide)
    Facts₀.gather_S9x16_S262144x1_S262144x16_1_0_n_n_0_1_116_wf x6 (val_main_v54 (F := Ideal) x3) r i).trans ?_
  refine congrArg (fun a => x6 (ix2 a i)) (Fin.ext ?_)
  show min (val_main_v54 (F := Ideal) x3 (ix2 r (0 : Fin 1))).toInt.toNat (9 - 1) = Spec.rowOf 9 (x3 (ix2 r (1 : Fin 5)))
  rw [val_main_v54_apply, val_main_v53_apply, val_main_v50_apply, val_main_v52_apply, val_main_v48_apply, val_main_v47_apply, val_main_v45_apply, val_main_v44_apply, val_main_v46_apply, val_main_c_16_apply, val_main_call4_v1_apply, val_main_call4_v0_apply, val_main_c_17_apply, val_main_v49_apply, val_main_c_18_apply, val_main_v51_apply, val_main_c_19_apply]
  have hidx : idx_main_v44 (idx_main_v45 (idx_main_v54 (ix2 r (0 : Fin 1)))) = ix2 r (1 : Fin 5) := by
    funext a
    refine Fin.ext ?_
    match a with
    | ⟨0, _⟩ => exact Nat.div_one _
    | ⟨1, _⟩ => rfl
  rw [hidx]
  exact Cert.Spec.ref_fix 8 (by decide) 9#32 (x3 (ix2 r (1 : Fin 5)))

/-- Column 2 of the index array selects a row of the third small table: the gather of stage v67 read at `(r, i)`. The start word is
    the sliced column, a negative word replaced by 8, then (nothing left to do) a negative word raised by 9; the gather
    holds it inside `[0, 8]`. -/
private theorem gather2_apply (x3 : (⟨S262144x5, .i32⟩ : BufTy).Contents (Elt Ideal)) (x7 : (⟨S9x16, .f32⟩ : BufTy).Contents (Elt Ideal))
    (r : Fin 262144) (i : Fin 16) :
    val_main_v67 (F := Ideal) x3 x7 (ix2 r i)
      = x7 (ix2 (Spec.rowFin 9 (by decide) (x3 (ix2 r (2 : Fin 5)))) i) := by
  unfold val_main_v67
  refine (Cert.LibGather.gather_rows_apply (N := 9) (D := 16) (R := 262144) (by decide)
    Facts₀.gather_S9x16_S262144x1_S262144x16_1_0_n_n_0_1_116_wf x7 (val_main_v66 (F := Ideal) x3) r i).trans ?_
  refine congrArg (fun a => x7 (ix2 a i)) (Fin.ext ?_)
  show min (val_main_v66 (F := Ideal) x3 (ix2 r (0 : Fin 1))).toInt.toNat (9 - 1) = Spec.rowOf 9 (x3 (ix2 r (2 : Fin 5)))
  rw [val_main_v66_apply, val_main_v65_apply, val_main_v62_apply, val_main_v64_apply, val_main_v60_apply, val_main_v59_apply, val_main_v57_apply, val_main_v56_apply, val_main_v58_apply, val_main_c_20_apply, val_main_call5_v1_apply, val_main_call5_v0_apply, val_main_c_21_apply, val_main_v61_apply, val_main_c_22_apply, val_main_v63_apply, val_main_c_23_apply]
  have hidx : idx_main_v56 (idx_main_v57 (idx_main_v66 (ix2 r (0 : Fin 1)))) = ix2 r (2 : Fin 5) := by
    funext a
    refine Fin.ext ?_
    match a with
    | ⟨0, _⟩ => exact Nat.div_one _
    | ⟨1, _⟩ => rfl
  rw [hidx]
  exact Cert.Spec.ref_fix 8 (by decide) 9#32 (x3 (ix2 r (2 : Fin 5)))

/-- Column 3 of the index array selects a row of the fourth small table: the gather of stage v79 read at `(r, i)`. The start word is
    the sliced column, a negative word replaced by 64, then (nothing left to do) a negative word raised by 65; the gather
    holds it inside `[0, 64]`. -/
private theorem gather3_apply (x3 : (⟨S262144x5, .i32⟩ : BufTy).Contents (Elt Ideal)) (x8 : (⟨S65x16, .f32⟩ : BufTy).Contents (Elt Ideal))
    (r : Fin 262144) (i : Fin 16) :
    val_main_v79 (F := Ideal) x3 x8 (ix2 r i)
      = x8 (ix2 (Spec.rowFin 65 (by decide) (x3 (ix2 r (3 : Fin 5)))) i) := by
  unfold val_main_v79
  refine (Cert.LibGather.gather_rows_apply (N := 65) (D := 16) (R := 262144) (by decide)
    Facts₀.gather_S65x16_S262144x1_S262144x16_1_0_n_n_0_1_116_wf x8 (val_main_v78 (F := Ideal) x3) r i).trans ?_
  refine congrArg (fun a => x8 (ix2 a i)) (Fin.ext ?_)
  show min (val_main_v78 (F := Ideal) x3 (ix2 r (0 : Fin 1))).toInt.toNat (65 - 1) = Spec.rowOf 65 (x3 (ix2 r (3 : Fin 5)))
  rw [val_main_v78_apply, val_main_v77_apply, val_main_v74_apply, val_main_v76_apply, val_main_v72_apply, val_main_v71_apply, val_main_v69_apply, val_main_v68_apply, val_main_v70_apply, val_main_c_24_apply, val_main_call6_v1_apply, val_main_call6_v0_apply, val_main_c_25_apply, val_main_v73_apply, val_main_c_26_apply, val_main_v75_apply, val_main_c_27_apply]
  have hidx : idx_main_v68 (idx_main_v69 (idx_main_v78 (ix2 r (0 : Fin 1)))) = ix2 r (3 : Fin 5) := by
    funext a
    refine Fin.ext ?_
    match a with
    | ⟨0, _⟩ => exact Nat.div_one _
    | ⟨1, _⟩ => rfl
  rw [hidx]
  exact Cert.Spec.ref_fix 64 (by decide) 65#32 (x3 (ix2 r (3 : Fin 5)))

/-- Column 4 of the index array selects a row of the fifth small table: the gather of stage v91 read at `(r, i)`. The start word is
    the sliced column, a negative word replaced by 64, then (nothing left to do) a negative word raised by 65; the gather
    holds it inside `[0, 64]`. -/
private theorem gather4_apply (x3 : (⟨S262144x5, .i32⟩ : BufTy).Contents (Elt Ideal)) (x9 : (⟨S65x16, .f32⟩ : BufTy).Contents (Elt Ideal))
    (r : Fin 262144) (i : Fin 16) :
    val_main_v91 (F := Ideal) x3 x9 (ix2 r i)
      = x9 (ix2 (Spec.rowFin 65 (by decide) (x3 (ix2 r (4 : Fin 5)))) i) := by
  unfold val_main_v91
  refine (Cert.LibGather.gather_rows_apply (N := 65) (D := 16) (R := 262144) (by decide)
    Facts₀.gather_S65x16_S262144x1_S262144x16_1_0_n_n_0_1_116_wf x9 (val_main_v90 (F := Ideal) x3) r i).trans ?_
  refine congrArg (fun a => x9 (ix2 a i)) (Fin.ext ?_)
  show min (val_main_v90 (F := Ideal) x3 (ix2 r (0 : Fin 1))).toInt.toNat (65 - 1) = Spec.rowOf 65 (x3 (ix2 r (4 : Fin 5)))
  rw [val_main_v90_apply, val_main_v89_apply, val_main_v86_apply, val_main_v88_apply, val_main_v84_apply, val_main_v83_apply, val_main_v81_apply, val_main_v80_apply, val_main_v82_apply, val_main_c_28_apply, val_main_call7_v1_apply, val_main_call7_v0_apply, val_main_c_29_apply, val_main_v85_apply, val_main_c_30_apply, val_main_v87_apply, val_main_c_31_apply]
  have hidx : idx_main_v80 (idx_main_v81 (idx_main_v90 (ix2 r (0 : Fin 1)))) = ix2 r (4 : Fin 5) := by
    funext a
    refine Fin.ext ?_
    match a with
    | ⟨0, _⟩ => exact Nat.div_one _
    | ⟨1, _⟩ => rfl
  rw [hidx]
  exact Cert.Spec.ref_fix 64 (by decide) 65#32 (x3 (ix2 r (4 : Fin 5)))

/-! ## The eighty columns -/

theorem feat_misc (x3 : (⟨S262144x5, .i32⟩ : BufTy).Contents (Elt Ideal)) (x5 : (⟨S33x16, .f32⟩ : BufTy).Contents (Elt Ideal)) (x6 : (⟨S9x16, .f32⟩ : BufTy).Contents (Elt Ideal)) (x7 : (⟨S9x16, .f32⟩ : BufTy).Contents (Elt Ideal)) (x8 : (⟨S65x16, .f32⟩ : BufTy).Contents (Elt Ideal)) (x9 : (⟨S65x16, .f32⟩ : BufTy).Contents (Elt Ideal))
    (r : Fin 262144) (i : Fin 80) :
    val_main_v92 (F := Ideal) x3 x5 x6 x7 x8 x9 (ix2 r i)
      = if h : i.val < 16 then x5 (ix2 (Spec.rowFin 33 (by decide) (x3 (ix2 r (0 : Fin 5)))) ⟨i.val, h⟩)
        else if h : i.val < 32 then x6 (ix2 (Spec.rowFin 9 (by decide) (x3 (ix2 r (1 : Fin 5)))) ⟨i.val - 16, by omega⟩)
        else if h : i.val < 48 then x7 (ix2 (Spec.rowFin 9 (by decide) (x3 (ix2 r (2 : Fin 5)))) ⟨i.val - 32, by omega⟩)
        else if h : i.val < 64 then x8 (ix2 (Spec.rowFin 65 (by decide) (x3 (ix2 r (3 : Fin 5)))) ⟨i.val - 48, by omega⟩)
        else x9 (ix2 (Spec.rowFin 65 (by decide) (x3 (ix2 r (4 : Fin 5)))) ⟨i.val - 64, by have := i.isLt; omega⟩) := by
  unfold val_main_v92
  -- the block that holds column `i`, then that block's gather at the column inside it
  refine (cat5_apply (val_main_v43 (F := Ideal) x3 x5) (val_main_v55 (F := Ideal) x3 x6) (val_main_v67 (F := Ideal) x3 x7)
    (val_main_v79 (F := Ideal) x3 x8) (val_main_v91 (F := Ideal) x3 x9) _ r i).trans ?_
  by_cases h1 : i.val < 16
  · rw [dif_pos h1, dif_pos h1]; exact gather0_apply x3 x5 r _
  rw [dif_neg h1, dif_neg h1]
  by_cases h2 : i.val < 32
  · rw [dif_pos h2, dif_pos h2]; exact gather1_apply x3 x6 r _
  rw [dif_neg h2, dif_neg h2]
  by_cases h3 : i.val < 48
  · rw [dif_pos h3, dif_pos h3]; exact gather2_apply x3 x7 r _
  rw [dif_neg h3, dif_neg h3]
  by_cases h4 : i.val < 64
  · rw [dif_pos h4, dif_pos h4]; exact gather3_apply x3 x8 r _
  rw [dif_neg h4, dif_neg h4]
  exact gather4_apply x3 x9 r _

end Cert.ReferenceIdeal.Feat

end
-- ==== Proof.RefValue.lean ====
/-
  The reference's result read at row `r`, at the ideal values. Its 272 features — the three champion features and the
  eighty miscellaneous ones side by side — are the spec's `feat` of the row's selection; the rest is three matrix
  products read as sums, two biases, two clips at zero, and a reshape of the [262144, 1] result.
-/
import proofs.«421530_j28664611733761_3_alg».proof.Proof.RefRead
import proofs.«421530_j28664611733761_3_alg».proof.Proof.Spec
import proofs.«421530_j28664611733761_3_alg».proof.Proof.RefChamp
import proofs.«421530_j28664611733761_3_alg».proof.Proof.RefMisc
import Idealize.ShloMosaic.Lib.Pipeline.Value

noncomputable section

open scoped BigOperators

namespace Cert.ReferenceIdeal.Feat

open Idealize.ShloMosaic Idealize.ShloMosaic.TcCoe Idealize.ShloMosaic.ValueIdx Idealize.SL.Sem Cert.ReferenceIdeal Cert.ReferenceIdeal.Read

/-! ## A row's sixteen packed words

Word 0 is the own-champion word, words 1 to 4 the allies', 5 to 9 the enemies', 10 to 14 the five miscellaneous ones. -/

section Words

variable (x0 : (⟨S262144, .i32⟩ : BufTy).Contents (Elt Ideal)) (x1 : (⟨S262144x4, .i32⟩ : BufTy).Contents (Elt Ideal))
  (x2 x3 : (⟨S262144x5, .i32⟩ : BufTy).Contents (Elt Ideal)) (r : Fin 262144)

private theorem pack_my : Spec.packWords x0 x1 x2 x3 r 0 = x0 (ix1 r) := by
  unfold Spec.packWords
  exact if_pos rfl

private theorem pack_ally (c : Fin 4) : Spec.packWords x0 x1 x2 x3 r ⟨1 + c.val, by omega⟩ = x1 (ix2 r c) := by
  have hc := c.isLt
  unfold Spec.packWords
  rw [if_neg (show ¬ (1 + c.val = 0) by omega), dif_pos (show 1 + c.val < 5 by omega)]
  exact congrArg (fun q => x1 (ix2 r q)) (Fin.ext (Nat.add_sub_cancel_left 1 c.val))

private theorem pack_enem (c : Fin 5) : Spec.packWords x0 x1 x2 x3 r ⟨5 + c.val, by omega⟩ = x2 (ix2 r c) := by
  have hc := c.isLt
  unfold Spec.packWords
  rw [if_neg (show ¬ (5 + c.val = 0) by omega), dif_neg (show ¬ (5 + c.val < 5) by omega), dif_pos (show 5 + c.val < 10 by omega)]
  exact congrArg (fun q => x2 (ix2 r q)) (Fin.ext (Nat.add_sub_cancel_left 5 c.val))

private theorem pack_10 : Spec.packWords x0 x1 x2 x3 r 10 = x3 (ix2 r (0 : Fin 5)) := by
  unfold Spec.packWords; rfl
private theorem pack_11 : Spec.packWords x0 x1 x2 x3 r 11 = x3 (ix2 r (1 : Fin 5)) := by
  unfold Spec.packWords; rfl
private theorem pack_12 : Spec.packWords x0 x1 x2 x3 r 12 = x3 (ix2 r (2 : Fin 5)) := by
  unfold Spec.packWords; rfl
private theorem pack_13 : Spec.packWords x0 x1 x2 x3 r 13 = x3 (ix2 r (3 : Fin 5)) := by
  unfold Spec.packWords; rfl
private theorem pack_14 : Spec.packWords x0 x1 x2 x3 r 14 = x3 (ix2 r (4 : Fin 5)) := by
  unfold Spec.packWords; rfl

end Words

/-- Two reads of one table agree when the rows are equal and the columns have the same number. -/
private theorem at_col {n d : ℕ} (x : (⟨2, ![n, d]⟩ : Shape).Idx → EReal) {j j' : Fin n} {a b : Fin d}
    (hj : j = j') (h : a.val = b.val) : x (ix2 j a) = x (ix2 j' b) := by
  subst hj; rw [Fin.ext h]

/-! ## The joined features, piece by piece

Four pieces of 64, 64, 64 and 80 columns side by side: column `i` falls in the piece whose span holds it, at `i` less
the columns before that piece. -/

section Pieces

variable {α : Type}

private theorem cat_my (y0 y1 y2 : S262144x64.Idx → α) (y3 : S262144x80.Idx → α) (h : Shape.Concatenates [S262144x64, S262144x64, S262144x64, S262144x80] S262144x272 1)
    (r : Fin 262144) (i : Fin 272) (hi : i.val < 64) :
    concatenate S262144x272 1 [⟨S262144x64, y0⟩, ⟨S262144x64, y1⟩, ⟨S262144x64, y2⟩, ⟨S262144x80, y3⟩] h (ix2 r i) = y0 (ix2 r ⟨i.val, hi⟩) :=
  concatenate_apply_piece (1 : Fin S262144x272.rank) [⟨S262144x64, y0⟩, ⟨S262144x64, y1⟩, ⟨S262144x64, y2⟩, ⟨S262144x80, y3⟩] h (ix2 r i) 0 (Nat.zero_lt_succ _) S262144x64 y0 rfl rfl 0 rfl
    (ix2 r ⟨i.val, hi⟩) (fun b => match b with | ⟨0, _⟩ => fun _ => rfl | ⟨1, _⟩ => fun hb => absurd rfl hb) (Nat.zero_add _)

private theorem cat_ally (y0 y1 y2 : S262144x64.Idx → α) (y3 : S262144x80.Idx → α) (h : Shape.Concatenates [S262144x64, S262144x64, S262144x64, S262144x80] S262144x272 1)
    (r : Fin 262144) (i : Fin 272) (h0 : 64 ≤ i.val) (hi : i.val < 128) :
    concatenate S262144x272 1 [⟨S262144x64, y0⟩, ⟨S262144x64, y1⟩, ⟨S262144x64, y2⟩, ⟨S262144x80, y3⟩] h (ix2 r i) = y1 (ix2 r ⟨i.val - 64, by omega⟩) :=
  concatenate_apply_piece (1 : Fin S262144x272.rank) [⟨S262144x64, y0⟩, ⟨S262144x64, y1⟩, ⟨S262144x64, y2⟩, ⟨S262144x80, y3⟩] h (ix2 r i) 1 (by show (1 : Nat) < 4; omega) S262144x64 y1 rfl rfl 64 rfl
    (ix2 r ⟨i.val - 64, by omega⟩) (fun b => match b with | ⟨0, _⟩ => fun _ => rfl | ⟨1, _⟩ => fun hb => absurd rfl hb) (by show 64 + (i.val - 64) = i.val; omega)

private theorem cat_enem (y0 y1 y2 : S262144x64.Idx → α) (y3 : S262144x80.Idx → α) (h : Shape.Concatenates [S262144x64, S262144x64, S262144x64, S262144x80] S262144x272 1)
    (r : Fin 262144) (i : Fin 272) (h0 : 128 ≤ i.val) (hi : i.val < 192) :
    concatenate S262144x272 1 [⟨S262144x64, y0⟩, ⟨S262144x64, y1⟩, ⟨S262144x64, y2⟩, ⟨S262144x80, y3⟩] h (ix2 r i) = y2 (ix2 r ⟨i.val - 128, by omega⟩) :=
  concatenate_apply_piece (1 : Fin S262144x272.rank) [⟨S262144x64, y0⟩, ⟨S262144x64, y1⟩, ⟨S262144x64, y2⟩, ⟨S262144x80, y3⟩] h (ix2 r i) 2 (by show (2 : Nat) < 4; omega) S262144x64 y2 rfl rfl 128 rfl
    (ix2 r ⟨i.val - 128, by omega⟩) (fun b => match b with | ⟨0, _⟩ => fun _ => rfl | ⟨1, _⟩ => fun hb => absurd rfl hb) (by show 128 + (i.val - 128) = i.val; omega)

private theorem cat_misc (y0 y1 y2 : S262144x64.Idx → α) (y3 : S262144x80.Idx → α) (h : Shape.Concatenates [S262144x64, S262144x64, S262144x64, S262144x80] S262144x272 1)
    (r : Fin 262144) (i : Fin 272) (h0 : 192 ≤ i.val) :
    concatenate S262144x272 1 [⟨S262144x64, y0⟩, ⟨S262144x64, y1⟩, ⟨S262144x64, y2⟩, ⟨S262144x80, y3⟩] h (ix2 r i) = y3 (ix2 r ⟨i.val - 192, by have := i.isLt; omega⟩) :=
  concatenate_apply_piece (1 : Fin S262144x272.rank) [⟨S262144x64, y0⟩, ⟨S262144x64, y1⟩, ⟨S262144x64, y2⟩, ⟨S262144x80, y3⟩] h (ix2 r i) 3 (by show (3 : Nat) < 4; omega) S262144x80 y3 rfl rfl 192 rfl
    (ix2 r ⟨i.val - 192, by have := i.isLt; omega⟩) (fun b => match b with | ⟨0, _⟩ => fun _ => rfl | ⟨1, _⟩ => fun hb => absurd rfl hb) (by show 192 + (i.val - 192) = i.val; omega)

end Pieces

private theorem v93_my (x0 : (⟨S262144, .i32⟩ : BufTy).Contents (Elt Ideal)) (x1 : (⟨S262144x4, .i32⟩ : BufTy).Contents (Elt Ideal)) (x2 : (⟨S262144x5, .i32⟩ : BufTy).Contents (Elt Ideal)) (x3 : (⟨S262144x5, .i32⟩ : BufTy).Contents (Elt Ideal)) (x4 : (⟨S171x64, .f32⟩ : BufTy).Contents (Elt Ideal)) (x5 : (⟨S33x16, .f32⟩ : BufTy).Contents (Elt Ideal)) (x6 : (⟨S9x16, .f32⟩ : BufTy).Contents (Elt Ideal)) (x7 : (⟨S9x16, .f32⟩ : BufTy).Contents (Elt Ideal)) (x8 : (⟨S65x16, .f32⟩ : BufTy).Contents (Elt Ideal)) (x9 : (⟨S65x16, .f32⟩ : BufTy).Contents (Elt Ideal)) (r : Fin 262144) (i : Fin 272) (hi : i.val < 64) :
    val_main_v93 (F := Ideal) x0 x1 x2 x3 x4 x5 x6 x7 x8 x9 (ix2 r i) = val_main_v9 (F := Ideal) x0 x4 (ix2 r ⟨i.val, hi⟩) := by
  unfold val_main_v93
  exact cat_my _ _ _ _ _ r i hi

private theorem v93_ally (x0 : (⟨S262144, .i32⟩ : BufTy).Contents (Elt Ideal)) (x1 : (⟨S262144x4, .i32⟩ : BufTy).Contents (Elt Ideal)) (x2 : (⟨S262144x5, .i32⟩ : BufTy).Contents (Elt Ideal)) (x3 : (⟨S262144x5, .i32⟩ : BufTy).Contents (Elt Ideal)) (x4 : (⟨S171x64, .f32⟩ : BufTy).Contents (Elt Ideal)) (x5 : (⟨S33x16, .f32⟩ : BufTy).Contents (Elt Ideal)) (x6 : (⟨S9x16, .f32⟩ : BufTy).Contents (Elt Ideal)) (x7 : (⟨S9x16, .f32⟩ : BufTy).Contents (Elt Ideal)) (x8 : (⟨S65x16, .f32⟩ : BufTy).Contents (Elt Ideal)) (x9 : (⟨S65x16, .f32⟩ : BufTy).Contents (Elt Ideal)) (r : Fin 262144) (i : Fin 272) (h0 : 64 ≤ i.val) (hi : i.val < 128) :
    val_main_v93 (F := Ideal) x0 x1 x2 x3 x4 x5 x6 x7 x8 x9 (ix2 r i) = val_main_v20 (F := Ideal) x1 x4 (ix2 r ⟨i.val - 64, by omega⟩) := by
  unfold val_main_v93
  exact cat_ally _ _ _ _ _ r i h0 hi

private theorem v93_enem (x0 : (⟨S262144, .i32⟩ : BufTy).Contents (Elt Ideal)) (x1 : (⟨S262144x4, .i32⟩ : BufTy).Contents (Elt Ideal)) (x2 : (⟨S262144x5, .i32⟩ : BufTy).Contents (Elt Ideal)) (x3 : (⟨S262144x5, .i32⟩ : BufTy).Contents (Elt Ideal)) (x4 : (⟨S171x64, .f32⟩ : BufTy).Contents (Elt Ideal)) (x5 : (⟨S33x16, .f32⟩ : BufTy).Contents (Elt Ideal)) (x6 : (⟨S9x16, .f32⟩ : BufTy).Contents (Elt Ideal)) (x7 : (⟨S9x16, .f32⟩ : BufTy).Contents (Elt Ideal)) (x8 : (⟨S65x16, .f32⟩ : BufTy).Contents (Elt Ideal)) (x9 : (⟨S65x16, .f32⟩ : BufTy).Contents (Elt Ideal)) (r : Fin 262144) (i : Fin 272) (h0 : 128 ≤ i.val) (hi : i.val < 192) :
    val_main_v93 (F := Ideal) x0 x1 x2 x3 x4 x5 x6 x7 x8 x9 (ix2 r i) = val_main_v31 (F := Ideal) x2 x4 (ix2 r ⟨i.val - 128, by omega⟩) := by
  unfold val_main_v93
  exact cat_enem _ _ _ _ _ r i h0 hi

private theorem v93_misc (x0 : (⟨S262144, .i32⟩ : BufTy).Contents (Elt Ideal)) (x1 : (⟨S262144x4, .i32⟩ : BufTy).Contents (Elt Ideal)) (x2 : (⟨S262144x5, .i32⟩ : BufTy).Contents (Elt Ideal)) (x3 : (⟨S262144x5, .i32⟩ : BufTy).Contents (Elt Ideal)) (x4 : (⟨S171x64, .f32⟩ : BufTy).Contents (Elt Ideal)) (x5 : (⟨S33x16, .f32⟩ : BufTy).Contents (Elt Ideal)) (x6 : (⟨S9x16, .f32⟩ : BufTy).Contents (Elt Ideal)) (x7 : (⟨S9x16, .f32⟩ : BufTy).Contents (Elt Ideal)) (x8 : (⟨S65x16, .f32⟩ : BufTy).Contents (Elt Ideal)) (x9 : (⟨S65x16, .f32⟩ : BufTy).Contents (Elt Ideal)) (r : Fin 262144) (i : Fin 272) (h0 : 192 ≤ i.val) :
    val_main_v93 (F := Ideal) x0 x1 x2 x3 x4 x5 x6 x7 x8 x9 (ix2 r i)
      = val_main_v92 (F := Ideal) x3 x5 x6 x7 x8 x9 (ix2 r ⟨i.val - 192, by have := i.isLt; omega⟩) := by
  unfold val_main_v93
  exact cat_misc _ _ _ _ _ r i h0

theorem z_feat (x0 : (⟨S262144, .i32⟩ : BufTy).Contents (Elt Ideal)) (x1 : (⟨S262144x4, .i32⟩ : BufTy).Contents (Elt Ideal)) (x2 : (⟨S262144x5, .i32⟩ : BufTy).Contents (Elt Ideal)) (x3 : (⟨S262144x5, .i32⟩ : BufTy).Contents (Elt Ideal)) (x4 : (⟨S171x64, .f32⟩ : BufTy).Contents (Elt Ideal)) (x5 : (⟨S33x16, .f32⟩ : BufTy).Contents (Elt Ideal)) (x6 : (⟨S9x16, .f32⟩ : BufTy).Contents (Elt Ideal)) (x7 : (⟨S9x16, .f32⟩ : BufTy).Contents (Elt Ideal)) (x8 : (⟨S65x16, .f32⟩ : BufTy).Contents (Elt Ideal)) (x9 : (⟨S65x16, .f32⟩ : BufTy).Contents (Elt Ideal)) (x10 : (⟨S272x256, .f32⟩ : BufTy).Contents (Elt Ideal))
    (r : Fin 262144) (i : Fin 272) :
    val_main_v93 (F := Ideal) x0 x1 x2 x3 x4 x5 x6 x7 x8 x9 (ix2 r i)
      = Spec.feat (Spec.tablesOf x4 x5 x6 x7 x8 x9 x10) (Spec.Sel.ofWords (Spec.packWords x0 x1 x2 x3 r)) i := by
  have hi := i.isLt
  unfold Spec.feat
  by_cases h1 : i.val < 64
  · -- the own champion's row: word 0
    rw [dif_pos h1, v93_my x0 x1 x2 x3 x4 x5 x6 x7 x8 x9 r i h1, feat_my]
    exact at_col x4 (congrArg (Spec.rowFin 171 (by decide)) (pack_my x0 x1 x2 x3 r).symm) rfl
  rw [dif_neg h1]
  by_cases h2 : i.val < 128
  · -- the allies' rows summed: words 1 to 4
    rw [dif_pos h2, v93_ally x0 x1 x2 x3 x4 x5 x6 x7 x8 x9 r i (by omega) h2, feat_ally]
    exact Finset.sum_congr rfl fun c _ =>
      at_col x4 (congrArg (Spec.rowFin 171 (by decide)) (pack_ally x0 x1 x2 x3 r c).symm) rfl
  rw [dif_neg h2]
  by_cases h3 : i.val < 192
  · -- the enemies' rows summed: words 5 to 9
    rw [dif_pos h3, v93_enem x0 x1 x2 x3 x4 x5 x6 x7 x8 x9 r i (by omega) h3, feat_enem]
    exact Finset.sum_congr rfl fun c _ =>
      at_col x4 (congrArg (Spec.rowFin 171 (by decide)) (pack_enem x0 x1 x2 x3 r c).symm) rfl
  -- the five small tables: words 10 to 14, sixteen columns each from column 192 on
  rw [dif_neg h3, v93_misc x0 x1 x2 x3 x4 x5 x6 x7 x8 x9 r i (by omega), feat_misc]
  by_cases h4 : i.val < 208
  · rw [dif_pos h4, dif_pos (show i.val - 192 < 16 by omega)]
    exact at_col x5 (congrArg (Spec.rowFin 33 (by decide)) (pack_10 x0 x1 x2 x3 r).symm) rfl
  rw [dif_neg h4, dif_neg (show ¬ i.val - 192 < 16 by omega)]
  by_cases h5 : i.val < 224
  · rw [dif_pos h5, dif_pos (show i.val - 192 < 32 by omega)]
    exact at_col x6 (congrArg (Spec.rowFin 9 (by decide)) (pack_11 x0 x1 x2 x3 r).symm)
      (by show i.val - 192 - 16 = i.val - 208; omega)
  rw [dif_neg h5, dif_neg (show ¬ i.val - 192 < 32 by omega)]
  by_cases h6 : i.val < 240
  · rw [dif_pos h6, dif_pos (show i.val - 192 < 48 by omega)]
    exact at_col x7 (congrArg (Spec.rowFin 9 (by decide)) (pack_12 x0 x1 x2 x3 r).symm)
      (by show i.val - 192 - 32 = i.val - 224; omega)
  rw [dif_neg h6, dif_neg (show ¬ i.val - 192 < 48 by omega)]
  by_cases h7 : i.val < 256
  · rw [dif_pos h7, dif_pos (show i.val - 192 < 64 by omega)]
    exact at_col x8 (congrArg (Spec.rowFin 65 (by decide)) (pack_13 x0 x1 x2 x3 r).symm)
      (by show i.val - 192 - 48 = i.val - 240; omega)
  rw [dif_neg h7, dif_neg (show ¬ i.val - 192 < 64 by omega)]
  exact at_col x9 (congrArg (Spec.rowFin 65 (by decide)) (pack_14 x0 x1 x2 x3 r).symm)
    (by show i.val - 192 - 64 = i.val - 256; omega)

/-! ## The three layers

Each matrix product is the sum over its one contracted axis; a bias is broadcast along the rows; a clip is the maximum
with the zero constant. -/

/-- The first layer at row `r`, column `k`: the features against W1's column `k`, plus the bias, clipped at zero. -/
private theorem layer1 (x0 : (⟨S262144, .i32⟩ : BufTy).Contents (Elt Ideal)) (x1 : (⟨S262144x4, .i32⟩ : BufTy).Contents (Elt Ideal)) (x2 : (⟨S262144x5, .i32⟩ : BufTy).Contents (Elt Ideal)) (x3 : (⟨S262144x5, .i32⟩ : BufTy).Contents (Elt Ideal)) (x4 : (⟨S171x64, .f32⟩ : BufTy).Contents (Elt Ideal)) (x5 : (⟨S33x16, .f32⟩ : BufTy).Contents (Elt Ideal)) (x6 : (⟨S9x16, .f32⟩ : BufTy).Contents (Elt Ideal)) (x7 : (⟨S9x16, .f32⟩ : BufTy).Contents (Elt Ideal)) (x8 : (⟨S65x16, .f32⟩ : BufTy).Contents (Elt Ideal)) (x9 : (⟨S65x16, .f32⟩ : BufTy).Contents (Elt Ideal)) (x10 : (⟨S272x256, .f32⟩ : BufTy).Contents (Elt Ideal)) (x11 : (⟨S256, .f32⟩ : BufTy).Contents (Elt Ideal)) (r : Fin 262144) (k : Fin 256) :
    val_main_v98 (F := Ideal) x0 x1 x2 x3 x4 x5 x6 x7 x8 x9 x10 x11 (ix2 r k)
      = max ((∑ i : Fin 272, Spec.feat (Spec.tablesOf x4 x5 x6 x7 x8 x9 x10) (Spec.Sel.ofWords (Spec.packWords x0 x1 x2 x3 r)) i * x10 (ix2 i k)) + x11 (ix1 k)) 0 := by
  rw [val_main_v98_apply, val_main_v97_apply, val_main_v94_apply, val_main_v96_apply, val_main_v95_apply,
    val_main_call8_v0_apply, val_main_call8_cst_apply, Ideal.maximumf_def, Ideal.addf_def, Ideal.ofBits_def,
    Ideal.ofBits_zero_f32]
  refine congrArg₂ max (congrArg₂ (· + ·) (Finset.sum_congr rfl fun i _ => ?_) ?_) rfl
  · have el : lidx_main_v94 (ix2 r k) i = ix2 r i :=
      funext fun a => match a with | ⟨0, _⟩ => rfl | ⟨1, _⟩ => rfl
    have er : ridx_main_v94 (ix2 r k) i = ix2 i k :=
      funext fun a => match a with | ⟨0, _⟩ => rfl | ⟨1, _⟩ => rfl
    rw [el, er, z_feat x0 x1 x2 x3 x4 x5 x6 x7 x8 x9 x10 r i]
  · exact congrArg x11 (funext fun a => match a with | ⟨0, _⟩ => rfl)

/-- The second layer at row `r`, column `n`: the first layer's row against W2's column `n`, plus the bias, clipped at zero. -/
private theorem layer2 (x0 : (⟨S262144, .i32⟩ : BufTy).Contents (Elt Ideal)) (x1 : (⟨S262144x4, .i32⟩ : BufTy).Contents (Elt Ideal)) (x2 : (⟨S262144x5, .i32⟩ : BufTy).Contents (Elt Ideal)) (x3 : (⟨S262144x5, .i32⟩ : BufTy).Contents (Elt Ideal)) (x4 : (⟨S171x64, .f32⟩ : BufTy).Contents (Elt Ideal)) (x5 : (⟨S33x16, .f32⟩ : BufTy).Contents (Elt Ideal)) (x6 : (⟨S9x16, .f32⟩ : BufTy).Contents (Elt Ideal)) (x7 : (⟨S9x16, .f32⟩ : BufTy).Contents (Elt Ideal)) (x8 : (⟨S65x16, .f32⟩ : BufTy).Contents (Elt Ideal)) (x9 : (⟨S65x16, .f32⟩ : BufTy).Contents (Elt Ideal)) (x10 : (⟨S272x256, .f32⟩ : BufTy).Contents (Elt Ideal)) (x11 : (⟨S256, .f32⟩ : BufTy).Contents (Elt Ideal)) (x12 : (⟨S256x128, .f32⟩ : BufTy).Contents (Elt Ideal)) (x13 : (⟨S128, .f32⟩ : BufTy).Contents (Elt Ideal)) (r : Fin 262144) (n : Fin 128) :
    val_main_v103 (F := Ideal) x0 x1 x2 x3 x4 x5 x6 x7 x8 x9 x10 x11 x12 x13 (ix2 r n)
      = max ((∑ k : Fin 256, val_main_v98 (F := Ideal) x0 x1 x2 x3 x4 x5 x6 x7 x8 x9 x10 x11 (ix2 r k) * x12 (ix2 k n)) + x13 (ix1 n)) 0 := by
  rw [val_main_v103_apply, val_main_v102_apply, val_main_v99_apply, val_main_v101_apply, val_main_v100_apply,
    val_main_call9_v0_apply, val_main_call9_cst_apply, Ideal.maximumf_def, Ideal.addf_def, Ideal.ofBits_def,
    Ideal.ofBits_zero_f32]
  refine congrArg₂ max (congrArg₂ (· + ·) (Finset.sum_congr rfl fun k _ => ?_) ?_) rfl
  · have el : lidx_main_v99 (ix2 r n) k = ix2 r k :=
      funext fun a => match a with | ⟨0, _⟩ => rfl | ⟨1, _⟩ => rfl
    have er : ridx_main_v99 (ix2 r n) k = ix2 k n :=
      funext fun a => match a with | ⟨0, _⟩ => rfl | ⟨1, _⟩ => rfl
    rw [el, er]
  · exact congrArg x13 (funext fun a => match a with | ⟨0, _⟩ => rfl)

/-- The result at row `r`: the second layer's row against W3's one column, plus the bias; the [262144, 1] array reshaped
    to [262144] keeps row `r` at `r`. -/
private theorem layer3 (x0 : (⟨S262144, .i32⟩ : BufTy).Contents (Elt Ideal)) (x1 : (⟨S262144x4, .i32⟩ : BufTy).Contents (Elt Ideal)) (x2 : (⟨S262144x5, .i32⟩ : BufTy).Contents (Elt Ideal)) (x3 : (⟨S262144x5, .i32⟩ : BufTy).Contents (Elt Ideal)) (x4 : (⟨S171x64, .f32⟩ : BufTy).Contents (Elt Ideal)) (x5 : (⟨S33x16, .f32⟩ : BufTy).Contents (Elt Ideal)) (x6 : (⟨S9x16, .f32⟩ : BufTy).Contents (Elt Ideal)) (x7 : (⟨S9x16, .f32⟩ : BufTy).Contents (Elt Ideal)) (x8 : (⟨S65x16, .f32⟩ : BufTy).Contents (Elt Ideal)) (x9 : (⟨S65x16, .f32⟩ : BufTy).Contents (Elt Ideal)) (x10 : (⟨S272x256, .f32⟩ : BufTy).Contents (Elt Ideal)) (x11 : (⟨S256, .f32⟩ : BufTy).Contents (Elt Ideal)) (x12 : (⟨S256x128, .f32⟩ : BufTy).Contents (Elt Ideal)) (x13 : (⟨S128, .f32⟩ : BufTy).Contents (Elt Ideal)) (x14 : (⟨S128x1, .f32⟩ : BufTy).Contents (Elt Ideal)) (x15 : (⟨S1, .f32⟩ : BufTy).Contents (Elt Ideal)) (r : Fin 262144) :
    val_main_v108 (F := Ideal) x0 x1 x2 x3 x4 x5 x6 x7 x8 x9 x10 x11 x12 x13 x14 x15 (ix1 r)
      = (∑ n : Fin 128, val_main_v103 (F := Ideal) x0 x1 x2 x3 x4 x5 x6 x7 x8 x9 x10 x11 x12 x13 (ix2 r n) * x14 (ix2 n (0 : Fin 1))) + x15 (ix1 (0 : Fin 1)) := by
  rw [val_main_v108_apply, val_main_v107_apply, val_main_v104_apply, val_main_v106_apply, val_main_v105_apply,
    Ideal.addf_def]
  refine congrArg₂ (· + ·) (Finset.sum_congr rfl fun n _ => ?_) ?_
  · have el : lidx_main_v104 (idx_main_v108 (ix1 r)) n = ix2 r n :=
      funext fun a => match a with | ⟨0, _⟩ => Fin.ext (Nat.div_one _) | ⟨1, _⟩ => rfl
    have er : ridx_main_v104 (idx_main_v108 (ix1 r)) n = ix2 n (0 : Fin 1) :=
      funext fun a => match a with | ⟨0, _⟩ => rfl | ⟨1, _⟩ => rfl
    rw [el, er]
  · exact congrArg x15 (funext fun a => match a with | ⟨0, _⟩ => rfl)

theorem ref_apply (x0 : (⟨S262144, .i32⟩ : BufTy).Contents (Elt Ideal)) (x1 : (⟨S262144x4, .i32⟩ : BufTy).Contents (Elt Ideal)) (x2 : (⟨S262144x5, .i32⟩ : BufTy).Contents (Elt Ideal)) (x3 : (⟨S262144x5, .i32⟩ : BufTy).Contents (Elt Ideal)) (x4 : (⟨S171x64, .f32⟩ : BufTy).Contents (Elt Ideal)) (x5 : (⟨S33x16, .f32⟩ : BufTy).Contents (Elt Ideal)) (x6 : (⟨S9x16, .f32⟩ : BufTy).Contents (Elt Ideal)) (x7 : (⟨S9x16, .f32⟩ : BufTy).Contents (Elt Ideal)) (x8 : (⟨S65x16, .f32⟩ : BufTy).Contents (Elt Ideal)) (x9 : (⟨S65x16, .f32⟩ : BufTy).Contents (Elt Ideal)) (x10 : (⟨S272x256, .f32⟩ : BufTy).Contents (Elt Ideal)) (x11 : (⟨S256, .f32⟩ : BufTy).Contents (Elt Ideal)) (x12 : (⟨S256x128, .f32⟩ : BufTy).Contents (Elt Ideal)) (x13 : (⟨S128, .f32⟩ : BufTy).Contents (Elt Ideal)) (x14 : (⟨S128x1, .f32⟩ : BufTy).Contents (Elt Ideal)) (x15 : (⟨S1, .f32⟩ : BufTy).Contents (Elt Ideal))
    (r : Fin 262144) :
    val_main_v108 (F := Ideal) x0 x1 x2 x3 x4 x5 x6 x7 x8 x9 x10 x11 x12 x13 x14 x15 (ix1 r)
      = Spec.mlp (Spec.tailOf x11 x12 x13 x14 x15)
          (fun k => ∑ i : Fin 272, Spec.feat (Spec.tablesOf x4 x5 x6 x7 x8 x9 x10) (Spec.Sel.ofWords (Spec.packWords x0 x1 x2 x3 r)) i * x10 (ix2 i k)) := by
  rw [layer3]
  unfold Spec.mlp
  refine congrArg₂ (· + ·) (Finset.sum_congr rfl fun n _ => ?_) rfl
  rw [layer2]
  refine congrArg₂ (· * ·) (congrArg₂ max (congrArg₂ (· + ·) (Finset.sum_congr rfl fun k _ => ?_) rfl) rfl) rfl
  rw [layer1]
  rfl

end Cert.ReferenceIdeal.Feat

end
-- ==== Proof.Finite.lean ====
/-
  From the precondition to "every table entry is a real number", at the ideal values. The precondition is the conjunction,
  over the twelve float arrays, of "every |entry| is below +∞"; an extended real whose absolute value is below +∞ is a real.
-/
import proofs.«421530_j28664611733761_3_alg».proof.Pre_finite_inputs
import proofs.«421530_j28664611733761_3_alg».proof.Proof.Gen.Pre_finite_inputs
import proofs.«421530_j28664611733761_3_alg».proof.Proof.Spec
import Idealize.ShloMosaic.Lib.ReduceAll
import Idealize.ShloMosaic.PureOps.Ideal

noncomputable section

open scoped BigOperators

namespace Cert.Finite

open Idealize.ShloMosaic Idealize.ShloMosaic.ValueIdx Cert.Pre_finite_inputs

/-- The scalar result shape has exactly one index. -/
private instance subsingleton_scalarIdx : Subsingleton S_.Idx := ⟨fun a b => funext fun d => d.elim0⟩

/-- An extended real whose absolute value — the larger of it and its negation — lies below +∞ is a real number: both
    infinities have absolute value +∞. -/
private theorem real_of_abs_lt_top (x : EReal) (h : max x (-x) < ⊤) : ∃ v : ℝ, x = (v : EReal) := by
  induction x using EReal.rec with
  | bot => simp at h
  | coe v => exact ⟨v, rfl⟩
  | top => simp at h

/-- The single-precision pattern with all exponent bits set and a zero significand denotes +∞. -/
private theorem inf_bits : Ideal.ofBits .f32 0x7F800000#32 = (⊤ : EReal) := by simp [Ideal.ofBits, Ideal.ieee]

/-- A truth value whose one-bit word is 1 is true. -/
private theorem ofBool_eq_one {b : Bool} (h : BitVec.ofBool b = 1#1) : b = true := by
  revert h; cases b <;> decide

/-- Both components of an `and` of two one-bit arrays that is 1 at an index are 1 there. -/
private theorem andi_at {s : Shape} (p q : IVec s 1) (j : s.Idx) (h : andi p q j = 1#1) : p j = 1#1 ∧ q j = 1#1 :=
  IntOp.andi_eq_one.1 h

/-- One conjunct of the precondition, for an array of any shape: if "|entry| < +∞", taken at every index and reduced by
    `and` over all axes, is 1, then every entry is a real number. -/
private theorem all_real {s : Shape} {axes : List (Fin s.rank)} (x : FVec Ideal s .f32)
    (hb : S_.BroadcastsInDim s (![] : Fin 0 → Fin s.rank)) (hr : s.ReducesTo axes S_) (hu : 0 < S_.numel) (init : IVec S_ 1)
    (e : Host.reduce IntOp.andi
        (cmpf .olt (Host.absf x) (broadcastInDim s ![] hb (constant (F := Ideal) S_ .f32 0x7F800000#32))) init hr hu ix0 = 1#1)
    (i : s.Idx) : ∃ v : ℝ, x i = (v : EReal) := by
  -- the reduction over all axes being 1, the comparison is 1 at every index
  have h1 := Host.reduce_andi_all _ init hr hu ix0 e i
  -- at an index the comparison reads: the larger of the entry and its negation is below the value of the +∞ pattern
  have h2 : Ideal.cmp .olt (max (x i) (-(x i))) (Ideal.ofBits .f32 0x7F800000#32) = 1#1 := h1
  rw [inf_bits] at h2
  have h3 : max (x i) (-(x i)) < (⊤ : EReal) := @of_decide_eq_true _ _ (ofBool_eq_one h2)
  exact real_of_abs_lt_top _ h3

theorem tables_real [Cert.Pre_finite_inputs.Facts]
    (x0 : IVec S262144 32) (x1 : IVec S262144x4 32) (x2 x3 : IVec S262144x5 32) (x4 : FVec Ideal S171x64 .f32) (x5 : FVec Ideal S33x16 .f32)
    (x6 x7 : FVec Ideal S9x16 .f32) (x8 x9 : FVec Ideal S65x16 .f32) (x10 : FVec Ideal S272x256 .f32) (x11 : FVec Ideal S256 .f32)
    (x12 : FVec Ideal S256x128 .f32) (x13 : FVec Ideal S128 .f32) (x14 : FVec Ideal S128x1 .f32) (x15 : FVec Ideal S1 .f32)
    (h : Cert.Pre_finite_inputs.fn (F := Ideal) x0 x1 x2 x3 x4 x5 x6 x7 x8 x9 x10 x11 x12 x13 x14 x15 = fun _ => 1#1) :
    (Spec.tablesOf x4 x5 x6 x7 x8 x9 x10).IsReal := by
  -- the precondition at the one index of its scalar result
  have h0 := congrFun h ix0
  dsimp only [fn, fn_part1, fn_part2, fn_part3] at h0
  -- it is a left-nested `and` of twelve reductions, one per float array; the first seven are the tables'
  obtain ⟨h0, -⟩ := andi_at _ _ _ h0
  obtain ⟨h0, -⟩ := andi_at _ _ _ h0
  obtain ⟨h0, -⟩ := andi_at _ _ _ h0
  obtain ⟨h0, -⟩ := andi_at _ _ _ h0
  obtain ⟨h0, -⟩ := andi_at _ _ _ h0
  obtain ⟨h0, c10⟩ := andi_at _ _ _ h0
  obtain ⟨h0, c9⟩ := andi_at _ _ _ h0
  obtain ⟨h0, c8⟩ := andi_at _ _ _ h0
  obtain ⟨h0, c7⟩ := andi_at _ _ _ h0
  obtain ⟨h0, c6⟩ := andi_at _ _ _ h0
  obtain ⟨c4, c5⟩ := andi_at _ _ _ h0
  unfold Spec.Tables.IsReal Spec.tablesOf
  exact ⟨fun j i => all_real x4 _ _ _ _ c4 (ix2 j i), fun j i => all_real x5 _ _ _ _ c5 (ix2 j i),
    fun j i => all_real x6 _ _ _ _ c6 (ix2 j i), fun j i => all_real x7 _ _ _ _ c7 (ix2 j i),
    fun j i => all_real x8 _ _ _ _ c8 (ix2 j i), fun j i => all_real x9 _ _ _ _ c9 (ix2 j i),
    fun i k => all_real x10 _ _ _ _ c10 (ix2 i k)⟩

end Cert.Finite

end
-- ==== Proof.lean ====
/-
  The five claims about a three-layer scorer of 262144 rows.

  The kernel packs a row's sixteen index words, builds a 694-wide multi-hot row from them, and multiplies it into the
  eight products "embedding table times its slice of W1" stacked into one weight; the reference gathers the selected table
  rows into 272 features and multiplies by W1. Under the precondition every table entry is a real number, and there a
  multi-hot row times (table · slice) is the gathered rows times the slice (`Spec.pre_eq`); the two later layers are the
  same function on both sides. The three frames: the two kernel programs by the launch of their one call over a body run
  once at a generic tile; the reference by its run with the result dropped. The idealization rewrote nothing.
-/
import proofs.«421530_j28664611733761_3_alg».proof.Defs
import proofs.«421530_j28664611733761_3_alg».proof.Proof.Gen.Kernel
import proofs.«421530_j28664611733761_3_alg».proof.Proof.Gen.KernelIdeal
import proofs.«421530_j28664611733761_3_alg».proof.Proof.Gen.ReferenceIdeal
import proofs.«421530_j28664611733761_3_alg».proof.Proof.Gen.Pre_finite_inputs
import proofs.«421530_j28664611733761_3_alg».proof.Proof.RefRun
import proofs.«421530_j28664611733761_3_alg».proof.Proof.RefRead
import proofs.«421530_j28664611733761_3_alg».proof.Proof.KernelRegion
import proofs.«421530_j28664611733761_3_alg».proof.Proof.KernelIdealRegion
import proofs.«421530_j28664611733761_3_alg».proof.Proof.KernelIdealValue
import proofs.«421530_j28664611733761_3_alg».proof.Proof.SpecAlgebra
import proofs.«421530_j28664611733761_3_alg».proof.Proof.RefValue
import proofs.«421530_j28664611733761_3_alg».proof.Proof.Finite
import Idealize.ShloMosaic.Adequacy
import Idealize.ShloMosaic.Init

noncomputable section

namespace Cert.Proof

open Idealize.ShloMosaic Idealize.ShloMosaic.TcCoe Idealize.ShloMosaic.ValueIdx Idealize.SL.Sem

theorem frame_k : Cert.frame_Kernel := fun m ρ _ => Cert.Kernel.Region.args_kept (F := Bits) m ρ
theorem frame_ki : Cert.frame_KernelIdeal := fun m ρ _ => Cert.KernelIdeal.Region.args_kept (F := Ideal) m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Entry by entry the two results are the later layers applied to the same 256 first-layer sums. -/
theorem algebraic : Cert.algebraic_KernelIdeal_ReferenceIdeal := by
  intro m ρ m' ρ' hpre hagree
  refine ⟨fun c => (Cert.KernelIdeal.Region.pdata (F := Ideal) m 0 c).arrAt 7 Cert.KernelIdeal.cfg0.N,
    Cert.KernelIdeal.Region.run_result (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v108_eq]
  obtain ⟨h0, h1, h2, h3, h4, h5, h6, h7, h8, h9, h10, h11, h12, h13, h14, h15⟩ := hagree c
  rw [h0, h1, h2, h3, h4, h5, h6, h7, h8, h9, h10, h11, h12, h13, h14, h15]
  funext i
  obtain ⟨r, rfl⟩ : ∃ r : Fin 262144, i = ix1 r := ⟨i 0, eq_ix1 i⟩
  rw [Cert.ReferenceIdeal.Feat.ref_apply]
  refine Eq.trans ?_ (Cert.KernelIdeal.Result.out_entry m c r).symm
  exact (Cert.Spec.score_eq _ (Cert.Finite.tables_real _ _ _ _ _ _ _ _ _ _ _ _ _ _ _ _ (hpre c)) _ _).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
